-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32 : Shape := ⟨2, ![50000, 32]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000x32 : S_.BroadcastsInDim S50000x32 (![] : Fin 0 → Fin S50000x32.rank)
  reducesTo_S50000x32_S_d0_1 : S50000x32.ReducesTo [0, 1] S_

variable [Facts]

def fn_part1 {F : FTy → Type} [FloatOps F] (main_arg1 : IVec S50000x32 32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S50000x32 32 := broadcastInDim S50000x32 ![] bcast_S_S50000x32 main_c_10
  let main_v30 : IVec S50000x32 1 := cmpi .sge main_arg1 main_v29
  let main_c_11 : IVec S_ 1 := constantI S_ 1 1#1
  let main_v31 : IVec S_ 1 := (fun x v => Host.reduce IntOp.andi x v reducesTo_S50000x32_S_d0_1 h_S_) main_v30 main_c_11
  let main_v32 : IVec S_ 1 := andi main_v28 main_v31
  main_v32

def fn {F : FTy → Type} [FloatOps F] (main_arg0 : FVec F S50000x128 .f32) (main_arg1 : IVec S50000x32 32) (main_arg2 : FVec F S1 .f32) (main_arg3 : FVec F S128x128 .f32) (main_arg4 : FVec F S128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x128 : Shape := ⟨2, ![50000, 128]⟩
abbrev S50000x32 : Shape := ⟨2, ![50000, 32]⟩
abbrev S1 : Shape := ⟨1, ![1]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S50000 : Shape := ⟨1, ![50000]⟩
abbrev S1x1 : Shape := ⟨2, ![1, 1]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 1052
  | .vmem => 8
  | .smem => 0
  | _ => 0

abbrev hbmTy0_0 (i : Nat) : BufTy := match i % 128 with
  | 0 => ⟨S50000x128, .f32⟩
  | 1 => ⟨S50000x32, .i32⟩
  | 2 => ⟨S1, .f32⟩
  | 3 => ⟨S128x128, .f32⟩
  | 4 => ⟨S128, .f32⟩
  | 5 => ⟨S128, .f32⟩
  | 6 => ⟨S128, .f32⟩
  | 7 => ⟨S_, .i32⟩
  | 8 => ⟨S_, .i32⟩
  | 9 => ⟨S_, .i32⟩
  | 10 => ⟨S50000x32, .i32⟩
  | 11 => ⟨S50000x32, .i32⟩
  | 12 => ⟨S_, .i32⟩
  | 13 => ⟨S50000x32, .i32⟩
  | 14 => ⟨S50000x32, .i32⟩
  | 15 => ⟨S_, .i32⟩
  | 16 => ⟨S50000x32, .i32⟩
  | 17 => ⟨S50000x32, .i1⟩
  | 18 => ⟨S_, .i32⟩
  | 19 => ⟨S50000x32, .i32⟩
  | 20 => ⟨S50000x32, .i32⟩
  | 21 => ⟨S_, .f32⟩
  | 22 => ⟨S_, .f32⟩
  | 23 => ⟨S_, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x1, .i1⟩
  | 52 => ⟨S_, .f32⟩
  | 53 => ⟨S_, .f32⟩
  | 54 => ⟨S50000x128, .i1⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x1, .i1⟩
  | 116 => ⟨S_, .f32⟩
  | 117 => ⟨S_, .f32⟩
  | 118 => ⟨S50000x128, .i1⟩
  | 119 => ⟨S50000x128, .f32⟩
  | 120 => ⟨S50000x128, .f32⟩
  | 121 => ⟨S50000x128, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S50000x128, .f32⟩

abbrev hbmTy0_1 (i : Nat) : BufTy := match i % 128 with
  | 0 => ⟨S50000, .i32⟩
  | 1 => ⟨S50000, .i32⟩
  | 2 => ⟨S50000, .i32⟩
  | 3 => ⟨S50000x1, .i32⟩
  | 4 => ⟨S1, .i32⟩
  | 5 => ⟨S_, .i32⟩
  | 6 => ⟨S50000x1, .i32⟩
  | 7 => ⟨S50000x1, .i1⟩
  | 8 => ⟨S1x1, .i32⟩
  | 9 => ⟨S50000x1, .i32⟩
  | 10 => ⟨S50000x1, .i1⟩
  | 11 => ⟨S50000x1, .i1⟩
  | 12 => ⟨S_, .i1⟩
  | 13 => ⟨S50000, .i1⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x1, .i1⟩
  | 20 => ⟨S_, .f32⟩
  | 21 => ⟨S_, .f32⟩
  | 22 => ⟨S50000x128, .i1⟩
  | 23 => ⟨S50000x128, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x1, .i1⟩
  | 52 => ⟨S_, .f32⟩
  | 53 => ⟨S_, .f32⟩
  | 54 => ⟨S50000x128, .i1⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x1, .i1⟩
  | 116 => ⟨S_, .f32⟩
  | 117 => ⟨S_, .f32⟩
  | 118 => ⟨S50000x128, .i1⟩
  | 119 => ⟨S50000x128, .f32⟩
  | 120 => ⟨S50000x128, .f32⟩
  | 121 => ⟨S50000x128, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S50000x128, .f32⟩

abbrev hbmTy0_2 (i : Nat) : BufTy := match i % 128 with
  | 0 => ⟨S50000, .i32⟩
  | 1 => ⟨S50000, .i32⟩
  | 2 => ⟨S50000, .i32⟩
  | 3 => ⟨S50000x1, .i32⟩
  | 4 => ⟨S1, .i32⟩
  | 5 => ⟨S_, .i32⟩
  | 6 => ⟨S50000x1, .i32⟩
  | 7 => ⟨S50000x1, .i1⟩
  | 8 => ⟨S1x1, .i32⟩
  | 9 => ⟨S50000x1, .i32⟩
  | 10 => ⟨S50000x1, .i1⟩
  | 11 => ⟨S50000x1, .i1⟩
  | 12 => ⟨S_, .i1⟩
  | 13 => ⟨S50000, .i1⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x1, .i1⟩
  | 20 => ⟨S_, .f32⟩
  | 21 => ⟨S_, .f32⟩
  | 22 => ⟨S50000x128, .i1⟩
  | 23 => ⟨S50000x128, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x1, .i1⟩
  | 52 => ⟨S_, .f32⟩
  | 53 => ⟨S_, .f32⟩
  | 54 => ⟨S50000x128, .i1⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x1, .i1⟩
  | 116 => ⟨S_, .f32⟩
  | 117 => ⟨S_, .f32⟩
  | 118 => ⟨S50000x128, .i1⟩
  | 119 => ⟨S50000x128, .f32⟩
  | 120 => ⟨S50000x128, .f32⟩
  | 121 => ⟨S50000x128, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S50000x128, .f32⟩

abbrev hbmTy0_3 (i : Nat) : BufTy := match i % 128 with
  | 0 => ⟨S50000, .i32⟩
  | 1 => ⟨S50000, .i32⟩
  | 2 => ⟨S50000, .i32⟩
  | 3 => ⟨S50000x1, .i32⟩
  | 4 => ⟨S1, .i32⟩
  | 5 => ⟨S_, .i32⟩
  | 6 => ⟨S50000x1, .i32⟩
  | 7 => ⟨S50000x1, .i1⟩
  | 8 => ⟨S1x1, .i32⟩
  | 9 => ⟨S50000x1, .i32⟩
  | 10 => ⟨S50000x1, .i1⟩
  | 11 => ⟨S50000x1, .i1⟩
  | 12 => ⟨S_, .i1⟩
  | 13 => ⟨S50000, .i1⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x1, .i1⟩
  | 20 => ⟨S_, .f32⟩
  | 21 => ⟨S_, .f32⟩
  | 22 => ⟨S50000x128, .i1⟩
  | 23 => ⟨S50000x128, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x1, .i1⟩
  | 52 => ⟨S_, .f32⟩
  | 53 => ⟨S_, .f32⟩
  | 54 => ⟨S50000x128, .i1⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x1, .i1⟩
  | 116 => ⟨S_, .f32⟩
  | 117 => ⟨S_, .f32⟩
  | 118 => ⟨S50000x128, .i1⟩
  | 119 => ⟨S50000x128, .f32⟩
  | 120 => ⟨S50000x128, .f32⟩
  | 121 => ⟨S50000x128, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S50000x128, .f32⟩

abbrev hbmTy0_4 (i : Nat) : BufTy := match i % 128 with
  | 0 => ⟨S50000, .i32⟩
  | 1 => ⟨S50000, .i32⟩
  | 2 => ⟨S50000, .i32⟩
  | 3 => ⟨S50000x1, .i32⟩
  | 4 => ⟨S1, .i32⟩
  | 5 => ⟨S_, .i32⟩
  | 6 => ⟨S50000x1, .i32⟩
  | 7 => ⟨S50000x1, .i1⟩
  | 8 => ⟨S1x1, .i32⟩
  | 9 => ⟨S50000x1, .i32⟩
  | 10 => ⟨S50000x1, .i1⟩
  | 11 => ⟨S50000x1, .i1⟩
  | 12 => ⟨S_, .i1⟩
  | 13 => ⟨S50000, .i1⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x1, .i1⟩
  | 20 => ⟨S_, .f32⟩
  | 21 => ⟨S_, .f32⟩
  | 22 => ⟨S50000x128, .i1⟩
  | 23 => ⟨S50000x128, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x1, .i1⟩
  | 52 => ⟨S_, .f32⟩
  | 53 => ⟨S_, .f32⟩
  | 54 => ⟨S50000x128, .i1⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x1, .i1⟩
  | 116 => ⟨S_, .f32⟩
  | 117 => ⟨S_, .f32⟩
  | 118 => ⟨S50000x128, .i1⟩
  | 119 => ⟨S50000x128, .f32⟩
  | 120 => ⟨S50000x128, .f32⟩
  | 121 => ⟨S50000x128, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S50000x128, .f32⟩

abbrev hbmTy0_5 (i : Nat) : BufTy := match i % 128 with
  | 0 => ⟨S50000, .i32⟩
  | 1 => ⟨S50000, .i32⟩
  | 2 => ⟨S50000, .i32⟩
  | 3 => ⟨S50000x1, .i32⟩
  | 4 => ⟨S1, .i32⟩
  | 5 => ⟨S_, .i32⟩
  | 6 => ⟨S50000x1, .i32⟩
  | 7 => ⟨S50000x1, .i1⟩
  | 8 => ⟨S1x1, .i32⟩
  | 9 => ⟨S50000x1, .i32⟩
  | 10 => ⟨S50000x1, .i1⟩
  | 11 => ⟨S50000x1, .i1⟩
  | 12 => ⟨S_, .i1⟩
  | 13 => ⟨S50000, .i1⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x1, .i1⟩
  | 20 => ⟨S_, .f32⟩
  | 21 => ⟨S_, .f32⟩
  | 22 => ⟨S50000x128, .i1⟩
  | 23 => ⟨S50000x128, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x1, .i1⟩
  | 52 => ⟨S_, .f32⟩
  | 53 => ⟨S_, .f32⟩
  | 54 => ⟨S50000x128, .i1⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x1, .i1⟩
  | 116 => ⟨S_, .f32⟩
  | 117 => ⟨S_, .f32⟩
  | 118 => ⟨S50000x128, .i1⟩
  | 119 => ⟨S50000x128, .f32⟩
  | 120 => ⟨S50000x128, .f32⟩
  | 121 => ⟨S50000x128, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S50000x128, .f32⟩

abbrev hbmTy0_6 (i : Nat) : BufTy := match i % 128 with
  | 0 => ⟨S50000, .i32⟩
  | 1 => ⟨S50000, .i32⟩
  | 2 => ⟨S50000, .i32⟩
  | 3 => ⟨S50000x1, .i32⟩
  | 4 => ⟨S1, .i32⟩
  | 5 => ⟨S_, .i32⟩
  | 6 => ⟨S50000x1, .i32⟩
  | 7 => ⟨S50000x1, .i1⟩
  | 8 => ⟨S1x1, .i32⟩
  | 9 => ⟨S50000x1, .i32⟩
  | 10 => ⟨S50000x1, .i1⟩
  | 11 => ⟨S50000x1, .i1⟩
  | 12 => ⟨S_, .i1⟩
  | 13 => ⟨S50000, .i1⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x1, .i1⟩
  | 20 => ⟨S_, .f32⟩
  | 21 => ⟨S_, .f32⟩
  | 22 => ⟨S50000x128, .i1⟩
  | 23 => ⟨S50000x128, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x1, .i1⟩
  | 52 => ⟨S_, .f32⟩
  | 53 => ⟨S_, .f32⟩
  | 54 => ⟨S50000x128, .i1⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x1, .i1⟩
  | 116 => ⟨S_, .f32⟩
  | 117 => ⟨S_, .f32⟩
  | 118 => ⟨S50000x128, .i1⟩
  | 119 => ⟨S50000x128, .f32⟩
  | 120 => ⟨S50000x128, .f32⟩
  | 121 => ⟨S50000x128, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S50000x128, .f32⟩

abbrev hbmTy0_7 (i : Nat) : BufTy := match i % 128 with
  | 0 => ⟨S50000, .i32⟩
  | 1 => ⟨S50000, .i32⟩
  | 2 => ⟨S50000, .i32⟩
  | 3 => ⟨S50000x1, .i32⟩
  | 4 => ⟨S1, .i32⟩
  | 5 => ⟨S_, .i32⟩
  | 6 => ⟨S50000x1, .i32⟩
  | 7 => ⟨S50000x1, .i1⟩
  | 8 => ⟨S1x1, .i32⟩
  | 9 => ⟨S50000x1, .i32⟩
  | 10 => ⟨S50000x1, .i1⟩
  | 11 => ⟨S50000x1, .i1⟩
  | 12 => ⟨S_, .i1⟩
  | 13 => ⟨S50000, .i1⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x1, .i1⟩
  | 20 => ⟨S_, .f32⟩
  | 21 => ⟨S_, .f32⟩
  | 22 => ⟨S50000x128, .i1⟩
  | 23 => ⟨S50000x128, .f32⟩
  | 24 => ⟨S50000x128, .f32⟩
  | 25 => ⟨S50000x128, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x1, .i1⟩
  | 52 => ⟨S_, .f32⟩
  | 53 => ⟨S_, .f32⟩
  | 54 => ⟨S50000x128, .i1⟩
  | 55 => ⟨S50000x128, .f32⟩
  | 56 => ⟨S50000x128, .f32⟩
  | 57 => ⟨S50000x128, .f32⟩
  | 58 => ⟨S50000x1, .i32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S1, .i32⟩
  | 69 => ⟨S_, .i32⟩
  | 70 => ⟨S50000x1, .i32⟩
  | 71 => ⟨S50000x1, .i1⟩
  | 72 => ⟨S1x1, .i32⟩
  | 73 => ⟨S50000x1, .i32⟩
  | 74 => ⟨S50000x1, .i1⟩
  | 75 => ⟨S50000x1, .i1⟩
  | 76 => ⟨S_, .i1⟩
  | 77 => ⟨S50000, .i1⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x1, .i1⟩
  | 84 => ⟨S_, .f32⟩
  | 85 => ⟨S_, .f32⟩
  | 86 => ⟨S50000x128, .i1⟩
  | 87 => ⟨S50000x128, .f32⟩
  | 88 => ⟨S50000x128, .f32⟩
  | 89 => ⟨S50000x128, .f32⟩
  | 90 => ⟨S50000x1, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x1, .i1⟩
  | 116 => ⟨S_, .f32⟩
  | 117 => ⟨S_, .f32⟩
  | 118 => ⟨S50000x128, .i1⟩
  | 119 => ⟨S50000x128, .f32⟩
  | 120 => ⟨S50000x128, .f32⟩
  | 121 => ⟨S50000x128, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S50000x128, .f32⟩

abbrev hbmTy0_8 (i : Nat) : BufTy := match i % 128 with
  | 0 => ⟨S50000, .i32⟩
  | 1 => ⟨S50000, .i32⟩
  | 2 => ⟨S50000, .i32⟩
  | 3 => ⟨S50000x1, .i32⟩
  | 4 => ⟨S1, .i32⟩
  | 5 => ⟨S_, .i32⟩
  | 6 => ⟨S50000x1, .i32⟩
  | 7 => ⟨S50000x1, .i1⟩
  | 8 => ⟨S1x1, .i32⟩
  | 9 => ⟨S50000x1, .i32⟩
  | 10 => ⟨S50000x1, .i1⟩
  | 11 => ⟨S50000x1, .i1⟩
  | 12 => ⟨S_, .i1⟩
  | 13 => ⟨S50000, .i1⟩
  | 14 => ⟨S50000x128, .f32⟩
  | 15 => ⟨S50000x128, .i1⟩
  | 16 => ⟨S_, .f32⟩
  | 17 => ⟨S50000x128, .f32⟩
  | 18 => ⟨S50000x128, .f32⟩
  | 19 => ⟨S50000x1, .i1⟩
  | 20 => ⟨S_, .f32⟩
  | 21 => ⟨S_, .f32⟩
  | 22 => ⟨S50000x128, .i1⟩
  | 23 => ⟨S50000x128, .f32⟩
  | 24 => ⟨S50000x128, .f32⟩
  | 25 => ⟨S50000x128, .f32⟩
  | 26 => ⟨S128x128, .bf16⟩
  | 27 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_c_1 : Ref sig .tc := ⟨.hbm, 15, rfl⟩
abbrev main_v1 : Ref sig .tc := ⟨.hbm, 16, rfl⟩
abbrev main_v2 : Ref sig .tc := ⟨.hbm, 17, rfl⟩
abbrev main_c_2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v11 : Ref sig .tc := ⟨.hbm, 50, rfl⟩
abbrev main_v12 : Ref sig .tc := ⟨.hbm, 51, rfl⟩
abbrev main_cst_3 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_call3_cst : Ref sig .tc := ⟨.hbm, 80, rfl⟩
abbrev main_call3_v15 : Ref sig .tc := ⟨.hbm, 81, rfl⟩
abbrev main_v17 : Ref sig .tc := ⟨.hbm, 82, rfl⟩
abbrev main_v18 : Ref sig .tc := ⟨.hbm, 83, rfl⟩
abbrev main_cst_4 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_call5_c : Ref sig .tc := ⟨.hbm, 92, rfl⟩
abbrev main_call5_v0 : Ref sig .tc := ⟨.hbm, 93, rfl⟩
abbrev main_call5_v1 : Ref sig .tc := ⟨.hbm, 94, rfl⟩
abbrev main_call5_c_0 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_c_1 : Ref sig .tc := ⟨.hbm, 100, rfl⟩
abbrev main_call5_c_2 : Ref sig .tc := ⟨.hbm, 101, rfl⟩
abbrev main_call5_v6 : Ref sig .tc := ⟨.hbm, 102, rfl⟩
abbrev main_call5_v7 : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_c_3 : Ref sig .tc := ⟨.hbm, 108, rfl⟩
abbrev main_call5_v12 : Ref sig .tc := ⟨.hbm, 109, rfl⟩
abbrev main_call5_v13 : Ref sig .tc := ⟨.hbm, 110, rfl⟩
abbrev main_call5_v14 : Ref sig .tc := ⟨.hbm, 111, rfl⟩
abbrev main_call5_cst : Ref sig .tc := ⟨.hbm, 112, rfl⟩
abbrev main_call5_v15 : Ref sig .tc := ⟨.hbm, 113, rfl⟩
abbrev main_v23 : Ref sig .tc := ⟨.hbm, 114, rfl⟩
abbrev main_v24 : Ref sig .tc := ⟨.hbm, 115, rfl⟩
abbrev main_cst_5 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_call7_c : Ref sig .tc := ⟨.hbm, 124, rfl⟩
abbrev main_call7_v0 : Ref sig .tc := ⟨.hbm, 125, rfl⟩
abbrev main_call7_v1 : Ref sig .tc := ⟨.hbm, 126, rfl⟩
abbrev main_call7_c_0 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_call7_v5 : Ref sig .tc := ⟨.hbm, 131, rfl⟩
abbrev main_call7_c_1 : Ref sig .tc := ⟨.hbm, 132, rfl⟩
abbrev main_call7_c_2 : Ref sig .tc := ⟨.hbm, 133, rfl⟩
abbrev main_call7_v6 : Ref sig .tc := ⟨.hbm, 134, rfl⟩
abbrev main_call7_v7 : Ref sig .tc := ⟨.hbm, 135, rfl⟩
abbrev main_call7_v8 : Ref sig .tc := ⟨.hbm, 136, rfl⟩
abbrev main_call7_v9 : Ref sig .tc := ⟨.hbm, 137, rfl⟩
abbrev main_call7_v10 : Ref sig .tc := ⟨.hbm, 138, rfl⟩
abbrev main_call7_v11 : Ref sig .tc := ⟨.hbm, 139, rfl⟩
abbrev main_call7_c_3 : Ref sig .tc := ⟨.hbm, 140, rfl⟩
abbrev main_call7_v12 : Ref sig .tc := ⟨.hbm, 141, rfl⟩
abbrev main_call7_v13 : Ref sig .tc := ⟨.hbm, 142, rfl⟩
abbrev main_call7_v14 : Ref sig .tc := ⟨.hbm, 143, rfl⟩
abbrev main_call7_cst : Ref sig .tc := ⟨.hbm, 144, rfl⟩
abbrev main_call7_v15 : Ref sig .tc := ⟨.hbm, 145, rfl⟩
abbrev main_v29 : Ref sig .tc := ⟨.hbm, 146, rfl⟩
abbrev main_v30 : Ref sig .tc := ⟨.hbm, 147, rfl⟩
abbrev main_cst_6 : Ref sig .tc := ⟨.hbm, 148, rfl⟩
abbrev main_call8_v0 : Ref sig .tc := ⟨.hbm, 149, rfl⟩
abbrev main_call8_v1 : Ref sig .tc := ⟨.hbm, 150, rfl⟩
abbrev main_call8_v2 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_call9_c : Ref sig .tc := ⟨.hbm, 156, rfl⟩
abbrev main_call9_v0 : Ref sig .tc := ⟨.hbm, 157, rfl⟩
abbrev main_call9_v1 : Ref sig .tc := ⟨.hbm, 158, rfl⟩
abbrev main_call9_c_0 : Ref sig .tc := ⟨.hbm, 159, rfl⟩
abbrev main_call9_v2 : Ref sig .tc := ⟨.hbm, 160, rfl⟩
abbrev main_call9_v3 : Ref sig .tc := ⟨.hbm, 161, rfl⟩
abbrev main_call9_v4 : Ref sig .tc := ⟨.hbm, 162, rfl⟩
abbrev main_call9_v5 : Ref sig .tc := ⟨.hbm, 163, rfl⟩
abbrev main_call9_c_1 : Ref sig .tc := ⟨.hbm, 164, rfl⟩
abbrev main_call9_c_2 : Ref sig .tc := ⟨.hbm, 165, rfl⟩
abbrev main_call9_v6 : Ref sig .tc := ⟨.hbm, 166, rfl⟩
abbrev main_call9_v7 : Ref sig .tc := ⟨.hbm, 167, rfl⟩
abbrev main_call9_v8 : Ref sig .tc := ⟨.hbm, 168, rfl⟩
abbrev main_call9_v9 : Ref sig .tc := ⟨.hbm, 169, rfl⟩
abbrev main_call9_v10 : Ref sig .tc := ⟨.hbm, 170, rfl⟩
abbrev main_call9_v11 : Ref sig .tc := ⟨.hbm, 171, rfl⟩
abbrev main_call9_c_3 : Ref sig .tc := ⟨.hbm, 172, rfl⟩
abbrev main_call9_v12 : Ref sig .tc := ⟨.hbm, 173, rfl⟩
abbrev main_call9_v13 : Ref sig .tc := ⟨.hbm, 174, rfl⟩
abbrev main_call9_v14 : Ref sig .tc := ⟨.hbm, 175, rfl⟩
abbrev main_call9_cst : Ref sig .tc := ⟨.hbm, 176, rfl⟩
abbrev main_call9_v15 : Ref sig .tc := ⟨.hbm, 177, rfl⟩
abbrev main_v35 : Ref sig .tc := ⟨.hbm, 178, rfl⟩
abbrev main_v36 : Ref sig .tc := ⟨.hbm, 179, rfl⟩
abbrev main_cst_7 : Ref sig .tc := ⟨.hbm, 180, rfl⟩
abbrev main_call10_v0 : Ref sig .tc := ⟨.hbm, 181, rfl⟩
abbrev main_call10_v1 : Ref sig .tc := ⟨.hbm, 182, rfl⟩
abbrev main_call10_v2 : Ref sig .tc := ⟨.hbm, 183, rfl⟩
abbrev main_v37 : Ref sig .tc := ⟨.hbm, 184, rfl⟩
abbrev main_v38 : Ref sig .tc := ⟨.hbm, 185, rfl⟩
abbrev main_v39 : Ref sig .tc := ⟨.hbm, 186, rfl⟩
abbrev main_v40 : Ref sig .tc := ⟨.hbm, 187, rfl⟩
abbrev main_call11_c : Ref sig .tc := ⟨.hbm, 188, rfl⟩
abbrev main_call11_v0 : Ref sig .tc := ⟨.hbm, 189, rfl⟩
abbrev main_call11_v1 : Ref sig .tc := ⟨.hbm, 190, rfl⟩
abbrev main_call11_c_0 : Ref sig .tc := ⟨.hbm, 191, rfl⟩
abbrev main_call11_v2 : Ref sig .tc := ⟨.hbm, 192, rfl⟩
abbrev main_call11_v3 : Ref sig .tc := ⟨.hbm, 193, rfl⟩
abbrev main_call11_v4 : Ref sig .tc := ⟨.hbm, 194, rfl⟩
abbrev main_call11_v5 : Ref sig .tc := ⟨.hbm, 195, rfl⟩
abbrev main_call11_c_1 : Ref sig .tc := ⟨.hbm, 196, rfl⟩
abbrev main_call11_c_2 : Ref sig .tc := ⟨.hbm, 197, rfl⟩
abbrev main_call11_v6 : Ref sig .tc := ⟨.hbm, 198, rfl⟩
abbrev main_call11_v7 : Ref sig .tc := ⟨.hbm, 199, rfl⟩
abbrev main_call11_v8 : Ref sig .tc := ⟨.hbm, 200, rfl⟩
abbrev main_call11_v9 : Ref sig .tc := ⟨.hbm, 201, rfl⟩
abbrev main_call11_v10 : Ref sig .tc := ⟨.hbm, 202, rfl⟩
abbrev main_call11_v11 : Ref sig .tc := ⟨.hbm, 203, rfl⟩
abbrev main_call11_c_3 : Ref sig .tc := ⟨.hbm, 204, rfl⟩
abbrev main_call11_v12 : Ref sig .tc := ⟨.hbm, 205, rfl⟩
abbrev main_call11_v13 : Ref sig .tc := ⟨.hbm, 206, rfl⟩
abbrev main_call11_v14 : Ref sig .tc := ⟨.hbm, 207, rfl⟩
abbrev main_call11_cst : Ref sig .tc := ⟨.hbm, 208, rfl⟩
abbrev main_call11_v15 : Ref sig .tc := ⟨.hbm, 209, rfl⟩
abbrev main_v41 : Ref sig .tc := ⟨.hbm, 210, rfl⟩
abbrev main_v42 : Ref sig .tc := ⟨.hbm, 211, rfl⟩
abbrev main_cst_8 : Ref sig .tc := ⟨.hbm, 212, rfl⟩
abbrev main_call12_v0 : Ref sig .tc := ⟨.hbm, 213, rfl⟩
abbrev main_call12_v1 : Ref sig .tc := ⟨.hbm, 214, rfl⟩
abbrev main_call12_v2 : Ref sig .tc := ⟨.hbm, 215, rfl⟩
abbrev main_v43 : Ref sig .tc := ⟨.hbm, 216, rfl⟩
abbrev main_v44 : Ref sig .tc := ⟨.hbm, 217, rfl⟩
abbrev main_v45 : Ref sig .tc := ⟨.hbm, 218, rfl⟩
abbrev main_v46 : Ref sig .tc := ⟨.hbm, 219, rfl⟩
abbrev main_call13_c : Ref sig .tc := ⟨.hbm, 220, rfl⟩
abbrev main_call13_v0 : Ref sig .tc := ⟨.hbm, 221, rfl⟩
abbrev main_call13_v1 : Ref sig .tc := ⟨.hbm, 222, rfl⟩
abbrev main_call13_c_0 : Ref sig .tc := ⟨.hbm, 223, rfl⟩
abbrev main_call13_v2 : Ref sig .tc := ⟨.hbm, 224, rfl⟩
abbrev main_call13_v3 : Ref sig .tc := ⟨.hbm, 225, rfl⟩
abbrev main_call13_v4 : Ref sig .tc := ⟨.hbm, 226, rfl⟩
abbrev main_call13_v5 : Ref sig .tc := ⟨.hbm, 227, rfl⟩
abbrev main_call13_c_1 : Ref sig .tc := ⟨.hbm, 228, rfl⟩
abbrev main_call13_c_2 : Ref sig .tc := ⟨.hbm, 229, rfl⟩
abbrev main_call13_v6 : Ref sig .tc := ⟨.hbm, 230, rfl⟩
abbrev main_call13_v7 : Ref sig .tc := ⟨.hbm, 231, rfl⟩
abbrev main_call13_v8 : Ref sig .tc := ⟨.hbm, 232, rfl⟩
abbrev main_call13_v9 : Ref sig .tc := ⟨.hbm, 233, rfl⟩
abbrev main_call13_v10 : Ref sig .tc := ⟨.hbm, 234, rfl⟩
abbrev main_call13_v11 : Ref sig .tc := ⟨.hbm, 235, rfl⟩
abbrev main_call13_c_3 : Ref sig .tc := ⟨.hbm, 236, rfl⟩
abbrev main_call13_v12 : Ref sig .tc := ⟨.hbm, 237, rfl⟩
abbrev main_call13_v13 : Ref sig .tc := ⟨.hbm, 238, rfl⟩
abbrev main_call13_v14 : Ref sig .tc := ⟨.hbm, 239, rfl⟩
abbrev main_call13_cst : Ref sig .tc := ⟨.hbm, 240, rfl⟩
abbrev main_call13_v15 : Ref sig .tc := ⟨.hbm, 241, rfl⟩
abbrev main_v47 : Ref sig .tc := ⟨.hbm, 242, rfl⟩
abbrev main_v48 : Ref sig .tc := ⟨.hbm, 243, rfl⟩
abbrev main_cst_9 : Ref sig .tc := ⟨.hbm, 244, rfl⟩
abbrev main_call14_v0 : Ref sig .tc := ⟨.hbm, 245, rfl⟩
abbrev main_call14_v1 : Ref sig .tc := ⟨.hbm, 246, rfl⟩
abbrev main_call14_v2 : Ref sig .tc := ⟨.hbm, 247, rfl⟩
abbrev main_v49 : Ref sig .tc := ⟨.hbm, 248, rfl⟩
abbrev main_v50 : Ref sig .tc := ⟨.hbm, 249, rfl⟩
abbrev main_v51 : Ref sig .tc := ⟨.hbm, 250, rfl⟩
abbrev main_v52 : Ref sig .tc := ⟨.hbm, 251, rfl⟩
abbrev main_call15_c : Ref sig .tc := ⟨.hbm, 252, rfl⟩
abbrev main_call15_v0 : Ref sig .tc := ⟨.hbm, 253, rfl⟩
abbrev main_call15_v1 : Ref sig .tc := ⟨.hbm, 254, rfl⟩
abbrev main_call15_c_0 : Ref sig .tc := ⟨.hbm, 255, rfl⟩
abbrev main_call15_v2 : Ref sig .tc := ⟨.hbm, 256, rfl⟩
abbrev main_call15_v3 : Ref sig .tc := ⟨.hbm, 257, rfl⟩
abbrev main_call15_v4 : Ref sig .tc := ⟨.hbm, 258, rfl⟩
abbrev main_call15_v5 : Ref sig .tc := ⟨.hbm, 259, rfl⟩
abbrev main_call15_c_1 : Ref sig .tc := ⟨.hbm, 260, rfl⟩
abbrev main_call15_c_2 : Ref sig .tc := ⟨.hbm, 261, rfl⟩
abbrev main_call15_v6 : Ref sig .tc := ⟨.hbm, 262, rfl⟩
abbrev main_call15_v7 : Ref sig .tc := ⟨.hbm, 263, rfl⟩
abbrev main_call15_v8 : Ref sig .tc := ⟨.hbm, 264, rfl⟩
abbrev main_call15_v9 : Ref sig .tc := ⟨.hbm, 265, rfl⟩
abbrev main_call15_v10 : Ref sig .tc := ⟨.hbm, 266, rfl⟩
abbrev main_call15_v11 : Ref sig .tc := ⟨.hbm, 267, rfl⟩
abbrev main_call15_c_3 : Ref sig .tc := ⟨.hbm, 268, rfl⟩
abbrev main_call15_v12 : Ref sig .tc := ⟨.hbm, 269, rfl⟩
abbrev main_call15_v13 : Ref sig .tc := ⟨.hbm, 270, rfl⟩
abbrev main_call15_v14 : Ref sig .tc := ⟨.hbm, 271, rfl⟩
abbrev main_call15_cst : Ref sig .tc := ⟨.hbm, 272, rfl⟩
abbrev main_call15_v15 : Ref sig .tc := ⟨.hbm, 273, rfl⟩
abbrev main_v53 : Ref sig .tc := ⟨.hbm, 274, rfl⟩
abbrev main_v54 : Ref sig .tc := ⟨.hbm, 275, rfl⟩
abbrev main_cst_10 : Ref sig .tc := ⟨.hbm, 276, rfl⟩
abbrev main_call16_v0 : Ref sig .tc := ⟨.hbm, 277, rfl⟩
abbrev main_call16_v1 : Ref sig .tc := ⟨.hbm, 278, rfl⟩
abbrev main_call16_v2 : Ref sig .tc := ⟨.hbm, 279, rfl⟩
abbrev main_v55 : Ref sig .tc := ⟨.hbm, 280, rfl⟩
abbrev main_v56 : Ref sig .tc := ⟨.hbm, 281, rfl⟩
abbrev main_v57 : Ref sig .tc := ⟨.hbm, 282, rfl⟩
abbrev main_v58 : Ref sig .tc := ⟨.hbm, 283, rfl⟩
abbrev main_call17_c : Ref sig .tc := ⟨.hbm, 284, rfl⟩
abbrev main_call17_v0 : Ref sig .tc := ⟨.hbm, 285, rfl⟩
abbrev main_call17_v1 : Ref sig .tc := ⟨.hbm, 286, rfl⟩
abbrev main_call17_c_0 : Ref sig .tc := ⟨.hbm, 287, rfl⟩
abbrev main_call17_v2 : Ref sig .tc := ⟨.hbm, 288, rfl⟩
abbrev main_call17_v3 : Ref sig .tc := ⟨.hbm, 289, rfl⟩
abbrev main_call17_v4 : Ref sig .tc := ⟨.hbm, 290, rfl⟩
abbrev main_call17_v5 : Ref sig .tc := ⟨.hbm, 291, rfl⟩
abbrev main_call17_c_1 : Ref sig .tc := ⟨.hbm, 292, rfl⟩
abbrev main_call17_c_2 : Ref sig .tc := ⟨.hbm, 293, rfl⟩
abbrev main_call17_v6 : Ref sig .tc := ⟨.hbm, 294, rfl⟩
abbrev main_call17_v7 : Ref sig .tc := ⟨.hbm, 295, rfl⟩
abbrev main_call17_v8 : Ref sig .tc := ⟨.hbm, 296, rfl⟩
abbrev main_call17_v9 : Ref sig .tc := ⟨.hbm, 297, rfl⟩
abbrev main_call17_v10 : Ref sig .tc := ⟨.hbm, 298, rfl⟩
abbrev main_call17_v11 : Ref sig .tc := ⟨.hbm, 299, rfl⟩
abbrev main_call17_c_3 : Ref sig .tc := ⟨.hbm, 300, rfl⟩
abbrev main_call17_v12 : Ref sig .tc := ⟨.hbm, 301, rfl⟩
abbrev main_call17_v13 : Ref sig .tc := ⟨.hbm, 302, rfl⟩
abbrev main_call17_v14 : Ref sig .tc := ⟨.hbm, 303, rfl⟩
abbrev main_call17_cst : Ref sig .tc := ⟨.hbm, 304, rfl⟩
abbrev main_call17_v15 : Ref sig .tc := ⟨.hbm, 305, rfl⟩
abbrev main_v59 : Ref sig .tc := ⟨.hbm, 306, rfl⟩
abbrev main_v60 : Ref sig .tc := ⟨.hbm, 307, rfl⟩
abbrev main_cst_11 : Ref sig .tc := ⟨.hbm, 308, rfl⟩
abbrev main_call18_v0 : Ref sig .tc := ⟨.hbm, 309, rfl⟩
abbrev main_call18_v1 : Ref sig .tc := ⟨.hbm, 310, rfl⟩
abbrev main_call18_v2 : Ref sig .tc := ⟨.hbm, 311, rfl⟩
abbrev main_v61 : Ref sig .tc := ⟨.hbm, 312, rfl⟩
abbrev main_v62 : Ref sig .tc := ⟨.hbm, 313, rfl⟩
abbrev main_v63 : Ref sig .tc := ⟨.hbm, 314, rfl⟩
abbrev main_v64 : Ref sig .tc := ⟨.hbm, 315, rfl⟩
abbrev main_call19_c : Ref sig .tc := ⟨.hbm, 316, rfl⟩
abbrev main_call19_v0 : Ref sig .tc := ⟨.hbm, 317, rfl⟩
abbrev main_call19_v1 : Ref sig .tc := ⟨.hbm, 318, rfl⟩
abbrev main_call19_c_0 : Ref sig .tc := ⟨.hbm, 319, rfl⟩
abbrev main_call19_v2 : Ref sig .tc := ⟨.hbm, 320, rfl⟩
abbrev main_call19_v3 : Ref sig .tc := ⟨.hbm, 321, rfl⟩
abbrev main_call19_v4 : Ref sig .tc := ⟨.hbm, 322, rfl⟩
abbrev main_call19_v5 : Ref sig .tc := ⟨.hbm, 323, rfl⟩
abbrev main_call19_c_1 : Ref sig .tc := ⟨.hbm, 324, rfl⟩
abbrev main_call19_c_2 : Ref sig .tc := ⟨.hbm, 325, rfl⟩
abbrev main_call19_v6 : Ref sig .tc := ⟨.hbm, 326, rfl⟩
abbrev main_call19_v7 : Ref sig .tc := ⟨.hbm, 327, rfl⟩
abbrev main_call19_v8 : Ref sig .tc := ⟨.hbm, 328, rfl⟩
abbrev main_call19_v9 : Ref sig .tc := ⟨.hbm, 329, rfl⟩
abbrev main_call19_v10 : Ref sig .tc := ⟨.hbm, 330, rfl⟩
abbrev main_call19_v11 : Ref sig .tc := ⟨.hbm, 331, rfl⟩
abbrev main_call19_c_3 : Ref sig .tc := ⟨.hbm, 332, rfl⟩
abbrev main_call19_v12 : Ref sig .tc := ⟨.hbm, 333, rfl⟩
abbrev main_call19_v13 : Ref sig .tc := ⟨.hbm, 334, rfl⟩
abbrev main_call19_v14 : Ref sig .tc := ⟨.hbm, 335, rfl⟩
abbrev main_call19_cst : Ref sig .tc := ⟨.hbm, 336, rfl⟩
abbrev main_call19_v15 : Ref sig .tc := ⟨.hbm, 337, rfl⟩
abbrev main_v65 : Ref sig .tc := ⟨.hbm, 338, rfl⟩
abbrev main_v66 : Ref sig .tc := ⟨.hbm, 339, rfl⟩
abbrev main_cst_12 : Ref sig .tc := ⟨.hbm, 340, rfl⟩
abbrev main_call20_v0 : Ref sig .tc := ⟨.hbm, 341, rfl⟩
abbrev main_call20_v1 : Ref sig .tc := ⟨.hbm, 342, rfl⟩
abbrev main_call20_v2 : Ref sig .tc := ⟨.hbm, 343, rfl⟩
abbrev main_v67 : Ref sig .tc := ⟨.hbm, 344, rfl⟩
abbrev main_v68 : Ref sig .tc := ⟨.hbm, 345, rfl⟩
abbrev main_v69 : Ref sig .tc := ⟨.hbm, 346, rfl⟩
abbrev main_v70 : Ref sig .tc := ⟨.hbm, 347, rfl⟩
abbrev main_call21_c : Ref sig .tc := ⟨.hbm, 348, rfl⟩
abbrev main_call21_v0 : Ref sig .tc := ⟨.hbm, 349, rfl⟩
abbrev main_call21_v1 : Ref sig .tc := ⟨.hbm, 350, rfl⟩
abbrev main_call21_c_0 : Ref sig .tc := ⟨.hbm, 351, rfl⟩
abbrev main_call21_v2 : Ref sig .tc := ⟨.hbm, 352, rfl⟩
abbrev main_call21_v3 : Ref sig .tc := ⟨.hbm, 353, rfl⟩
abbrev main_call21_v4 : Ref sig .tc := ⟨.hbm, 354, rfl⟩
abbrev main_call21_v5 : Ref sig .tc := ⟨.hbm, 355, rfl⟩
abbrev main_call21_c_1 : Ref sig .tc := ⟨.hbm, 356, rfl⟩
abbrev main_call21_c_2 : Ref sig .tc := ⟨.hbm, 357, rfl⟩
abbrev main_call21_v6 : Ref sig .tc := ⟨.hbm, 358, rfl⟩
abbrev main_call21_v7 : Ref sig .tc := ⟨.hbm, 359, rfl⟩
abbrev main_call21_v8 : Ref sig .tc := ⟨.hbm, 360, rfl⟩
abbrev main_call21_v9 : Ref sig .tc := ⟨.hbm, 361, rfl⟩
abbrev main_call21_v10 : Ref sig .tc := ⟨.hbm, 362, rfl⟩
abbrev main_call21_v11 : Ref sig .tc := ⟨.hbm, 363, rfl⟩
abbrev main_call21_c_3 : Ref sig .tc := ⟨.hbm, 364, rfl⟩
abbrev main_call21_v12 : Ref sig .tc := ⟨.hbm, 365, rfl⟩
abbrev main_call21_v13 : Ref sig .tc := ⟨.hbm, 366, rfl⟩
abbrev main_call21_v14 : Ref sig .tc := ⟨.hbm, 367, rfl⟩
abbrev main_call21_cst : Ref sig .tc := ⟨.hbm, 368, rfl⟩
abbrev main_call21_v15 : Ref sig .tc := ⟨.hbm, 369, rfl⟩
abbrev main_v71 : Ref sig .tc := ⟨.hbm, 370, rfl⟩
abbrev main_v72 : Ref sig .tc := ⟨.hbm, 371, rfl⟩
abbrev main_cst_13 : Ref sig .tc := ⟨.hbm, 372, rfl⟩
abbrev main_call22_v0 : Ref sig .tc := ⟨.hbm, 373, rfl⟩
abbrev main_call22_v1 : Ref sig .tc := ⟨.hbm, 374, rfl⟩
abbrev main_call22_v2 : Ref sig .tc := ⟨.hbm, 375, rfl⟩
abbrev main_v73 : Ref sig .tc := ⟨.hbm, 376, rfl⟩
abbrev main_v74 : Ref sig .tc := ⟨.hbm, 377, rfl⟩
abbrev main_v75 : Ref sig .tc := ⟨.hbm, 378, rfl⟩
abbrev main_v76 : Ref sig .tc := ⟨.hbm, 379, rfl⟩
abbrev main_call23_c : Ref sig .tc := ⟨.hbm, 380, rfl⟩
abbrev main_call23_v0 : Ref sig .tc := ⟨.hbm, 381, rfl⟩
abbrev main_call23_v1 : Ref sig .tc := ⟨.hbm, 382, rfl⟩
abbrev main_call23_c_0 : Ref sig .tc := ⟨.hbm, 383, rfl⟩
abbrev main_call23_v2 : Ref sig .tc := ⟨.hbm, 384, rfl⟩
abbrev main_call23_v3 : Ref sig .tc := ⟨.hbm, 385, rfl⟩
abbrev main_call23_v4 : Ref sig .tc := ⟨.hbm, 386, rfl⟩
abbrev main_call23_v5 : Ref sig .tc := ⟨.hbm, 387, rfl⟩
abbrev main_call23_c_1 : Ref sig .tc := ⟨.hbm, 388, rfl⟩
abbrev main_call23_c_2 : Ref sig .tc := ⟨.hbm, 389, rfl⟩
abbrev main_call23_v6 : Ref sig .tc := ⟨.hbm, 390, rfl⟩
abbrev main_call23_v7 : Ref sig .tc := ⟨.hbm, 391, rfl⟩
abbrev main_call23_v8 : Ref sig .tc := ⟨.hbm, 392, rfl⟩
abbrev main_call23_v9 : Ref sig .tc := ⟨.hbm, 393, rfl⟩
abbrev main_call23_v10 : Ref sig .tc := ⟨.hbm, 394, rfl⟩
abbrev main_call23_v11 : Ref sig .tc := ⟨.hbm, 395, rfl⟩
abbrev main_call23_c_3 : Ref sig .tc := ⟨.hbm, 396, rfl⟩
abbrev main_call23_v12 : Ref sig .tc := ⟨.hbm, 397, rfl⟩
abbrev main_call23_v13 : Ref sig .tc := ⟨.hbm, 398, rfl⟩
abbrev main_call23_v14 : Ref sig .tc := ⟨.hbm, 399, rfl⟩
abbrev main_call23_cst : Ref sig .tc := ⟨.hbm, 400, rfl⟩
abbrev main_call23_v15 : Ref sig .tc := ⟨.hbm, 401, rfl⟩
abbrev main_v77 : Ref sig .tc := ⟨.hbm, 402, rfl⟩
abbrev main_v78 : Ref sig .tc := ⟨.hbm, 403, rfl⟩
abbrev main_cst_14 : Ref sig .tc := ⟨.hbm, 404, rfl⟩
abbrev main_call24_v0 : Ref sig .tc := ⟨.hbm, 405, rfl⟩
abbrev main_call24_v1 : Ref sig .tc := ⟨.hbm, 406, rfl⟩
abbrev main_call24_v2 : Ref sig .tc := ⟨.hbm, 407, rfl⟩
abbrev main_v79 : Ref sig .tc := ⟨.hbm, 408, rfl⟩
abbrev main_v80 : Ref sig .tc := ⟨.hbm, 409, rfl⟩
abbrev main_v81 : Ref sig .tc := ⟨.hbm, 410, rfl⟩
abbrev main_v82 : Ref sig .tc := ⟨.hbm, 411, rfl⟩
abbrev main_call25_c : Ref sig .tc := ⟨.hbm, 412, rfl⟩
abbrev main_call25_v0 : Ref sig .tc := ⟨.hbm, 413, rfl⟩
abbrev main_call25_v1 : Ref sig .tc := ⟨.hbm, 414, rfl⟩
abbrev main_call25_c_0 : Ref sig .tc := ⟨.hbm, 415, rfl⟩
abbrev main_call25_v2 : Ref sig .tc := ⟨.hbm, 416, rfl⟩
abbrev main_call25_v3 : Ref sig .tc := ⟨.hbm, 417, rfl⟩
abbrev main_call25_v4 : Ref sig .tc := ⟨.hbm, 418, rfl⟩
abbrev main_call25_v5 : Ref sig .tc := ⟨.hbm, 419, rfl⟩
abbrev main_call25_c_1 : Ref sig .tc := ⟨.hbm, 420, rfl⟩
abbrev main_call25_c_2 : Ref sig .tc := ⟨.hbm, 421, rfl⟩
abbrev main_call25_v6 : Ref sig .tc := ⟨.hbm, 422, rfl⟩
abbrev main_call25_v7 : Ref sig .tc := ⟨.hbm, 423, rfl⟩
abbrev main_call25_v8 : Ref sig .tc := ⟨.hbm, 424, rfl⟩
abbrev main_call25_v9 : Ref sig .tc := ⟨.hbm, 425, rfl⟩
abbrev main_call25_v10 : Ref sig .tc := ⟨.hbm, 426, rfl⟩
abbrev main_call25_v11 : Ref sig .tc := ⟨.hbm, 427, rfl⟩
abbrev main_call25_c_3 : Ref sig .tc := ⟨.hbm, 428, rfl⟩
abbrev main_call25_v12 : Ref sig .tc := ⟨.hbm, 429, rfl⟩
abbrev main_call25_v13 : Ref sig .tc := ⟨.hbm, 430, rfl⟩
abbrev main_call25_v14 : Ref sig .tc := ⟨.hbm, 431, rfl⟩
abbrev main_call25_cst : Ref sig .tc := ⟨.hbm, 432, rfl⟩
abbrev main_call25_v15 : Ref sig .tc := ⟨.hbm, 433, rfl⟩
abbrev main_v83 : Ref sig .tc := ⟨.hbm, 434, rfl⟩
abbrev main_v84 : Ref sig .tc := ⟨.hbm, 435, rfl⟩
abbrev main_cst_15 : Ref sig .tc := ⟨.hbm, 436, rfl⟩
abbrev main_call26_v0 : Ref sig .tc := ⟨.hbm, 437, rfl⟩
abbrev main_call26_v1 : Ref sig .tc := ⟨.hbm, 438, rfl⟩
abbrev main_call26_v2 : Ref sig .tc := ⟨.hbm, 439, rfl⟩
abbrev main_v85 : Ref sig .tc := ⟨.hbm, 440, rfl⟩
abbrev main_v86 : Ref sig .tc := ⟨.hbm, 441, rfl⟩
abbrev main_v87 : Ref sig .tc := ⟨.hbm, 442, rfl⟩
abbrev main_v88 : Ref sig .tc := ⟨.hbm, 443, rfl⟩
abbrev main_call27_c : Ref sig .tc := ⟨.hbm, 444, rfl⟩
abbrev main_call27_v0 : Ref sig .tc := ⟨.hbm, 445, rfl⟩
abbrev main_call27_v1 : Ref sig .tc := ⟨.hbm, 446, rfl⟩
abbrev main_call27_c_0 : Ref sig .tc := ⟨.hbm, 447, rfl⟩
abbrev main_call27_v2 : Ref sig .tc := ⟨.hbm, 448, rfl⟩
abbrev main_call27_v3 : Ref sig .tc := ⟨.hbm, 449, rfl⟩
abbrev main_call27_v4 : Ref sig .tc := ⟨.hbm, 450, rfl⟩
abbrev main_call27_v5 : Ref sig .tc := ⟨.hbm, 451, rfl⟩
abbrev main_call27_c_1 : Ref sig .tc := ⟨.hbm, 452, rfl⟩
abbrev main_call27_c_2 : Ref sig .tc := ⟨.hbm, 453, rfl⟩
abbrev main_call27_v6 : Ref sig .tc := ⟨.hbm, 454, rfl⟩
abbrev main_call27_v7 : Ref sig .tc := ⟨.hbm, 455, rfl⟩
abbrev main_call27_v8 : Ref sig .tc := ⟨.hbm, 456, rfl⟩
abbrev main_call27_v9 : Ref sig .tc := ⟨.hbm, 457, rfl⟩
abbrev main_call27_v10 : Ref sig .tc := ⟨.hbm, 458, rfl⟩
abbrev main_call27_v11 : Ref sig .tc := ⟨.hbm, 459, rfl⟩
abbrev main_call27_c_3 : Ref sig .tc := ⟨.hbm, 460, rfl⟩
abbrev main_call27_v12 : Ref sig .tc := ⟨.hbm, 461, rfl⟩
abbrev main_call27_v13 : Ref sig .tc := ⟨.hbm, 462, rfl⟩
abbrev main_call27_v14 : Ref sig .tc := ⟨.hbm, 463, rfl⟩
abbrev main_call27_cst : Ref sig .tc := ⟨.hbm, 464, rfl⟩
abbrev main_call27_v15 : Ref sig .tc := ⟨.hbm, 465, rfl⟩
abbrev main_v89 : Ref sig .tc := ⟨.hbm, 466, rfl⟩
abbrev main_v90 : Ref sig .tc := ⟨.hbm, 467, rfl⟩
abbrev main_cst_16 : Ref sig .tc := ⟨.hbm, 468, rfl⟩
abbrev main_call28_v0 : Ref sig .tc := ⟨.hbm, 469, rfl⟩
abbrev main_call28_v1 : Ref sig .tc := ⟨.hbm, 470, rfl⟩
abbrev main_call28_v2 : Ref sig .tc := ⟨.hbm, 471, rfl⟩
abbrev main_v91 : Ref sig .tc := ⟨.hbm, 472, rfl⟩
abbrev main_v92 : Ref sig .tc := ⟨.hbm, 473, rfl⟩
abbrev main_v93 : Ref sig .tc := ⟨.hbm, 474, rfl⟩
abbrev main_v94 : Ref sig .tc := ⟨.hbm, 475, rfl⟩
abbrev main_call29_c : Ref sig .tc := ⟨.hbm, 476, rfl⟩
abbrev main_call29_v0 : Ref sig .tc := ⟨.hbm, 477, rfl⟩
abbrev main_call29_v1 : Ref sig .tc := ⟨.hbm, 478, rfl⟩
abbrev main_call29_c_0 : Ref sig .tc := ⟨.hbm, 479, rfl⟩
abbrev main_call29_v2 : Ref sig .tc := ⟨.hbm, 480, rfl⟩
abbrev main_call29_v3 : Ref sig .tc := ⟨.hbm, 481, rfl⟩
abbrev main_call29_v4 : Ref sig .tc := ⟨.hbm, 482, rfl⟩
abbrev main_call29_v5 : Ref sig .tc := ⟨.hbm, 483, rfl⟩
abbrev main_call29_c_1 : Ref sig .tc := ⟨.hbm, 484, rfl⟩
abbrev main_call29_c_2 : Ref sig .tc := ⟨.hbm, 485, rfl⟩
abbrev main_call29_v6 : Ref sig .tc := ⟨.hbm, 486, rfl⟩
abbrev main_call29_v7 : Ref sig .tc := ⟨.hbm, 487, rfl⟩
abbrev main_call29_v8 : Ref sig .tc := ⟨.hbm, 488, rfl⟩
abbrev main_call29_v9 : Ref sig .tc := ⟨.hbm, 489, rfl⟩
abbrev main_call29_v10 : Ref sig .tc := ⟨.hbm, 490, rfl⟩
abbrev main_call29_v11 : Ref sig .tc := ⟨.hbm, 491, rfl⟩
abbrev main_call29_c_3 : Ref sig .tc := ⟨.hbm, 492, rfl⟩
abbrev main_call29_v12 : Ref sig .tc := ⟨.hbm, 493, rfl⟩
abbrev main_call29_v13 : Ref sig .tc := ⟨.hbm, 494, rfl⟩
abbrev main_call29_v14 : Ref sig .tc := ⟨.hbm, 495, rfl⟩
abbrev main_call29_cst : Ref sig .tc := ⟨.hbm, 496, rfl⟩
abbrev main_call29_v15 : Ref sig .tc := ⟨.hbm, 497, rfl⟩
abbrev main_v95 : Ref sig .tc := ⟨.hbm, 498, rfl⟩
abbrev main_v96 : Ref sig .tc := ⟨.hbm, 499, rfl⟩
abbrev main_cst_17 : Ref sig .tc := ⟨.hbm, 500, rfl⟩
abbrev main_call30_v0 : Ref sig .tc := ⟨.hbm, 501, rfl⟩
abbrev main_call30_v1 : Ref sig .tc := ⟨.hbm, 502, rfl⟩
abbrev main_call30_v2 : Ref sig .tc := ⟨.hbm, 503, rfl⟩
abbrev main_v97 : Ref sig .tc := ⟨.hbm, 504, rfl⟩
abbrev main_v98 : Ref sig .tc := ⟨.hbm, 505, rfl⟩
abbrev main_v99 : Ref sig .tc := ⟨.hbm, 506, rfl⟩
abbrev main_v100 : Ref sig .tc := ⟨.hbm, 507, rfl⟩
abbrev main_call31_c : Ref sig .tc := ⟨.hbm, 508, rfl⟩
abbrev main_call31_v0 : Ref sig .tc := ⟨.hbm, 509, rfl⟩
abbrev main_call31_v1 : Ref sig .tc := ⟨.hbm, 510, rfl⟩
abbrev main_call31_c_0 : Ref sig .tc := ⟨.hbm, 511, rfl⟩
abbrev main_call31_v2 : Ref sig .tc := ⟨.hbm, 512, rfl⟩
abbrev main_call31_v3 : Ref sig .tc := ⟨.hbm, 513, rfl⟩
abbrev main_call31_v4 : Ref sig .tc := ⟨.hbm, 514, rfl⟩
abbrev main_call31_v5 : Ref sig .tc := ⟨.hbm, 515, rfl⟩
abbrev main_call31_c_1 : Ref sig .tc := ⟨.hbm, 516, rfl⟩
abbrev main_call31_c_2 : Ref sig .tc := ⟨.hbm, 517, rfl⟩
abbrev main_call31_v6 : Ref sig .tc := ⟨.hbm, 518, rfl⟩
abbrev main_call31_v7 : Ref sig .tc := ⟨.hbm, 519, rfl⟩
abbrev main_call31_v8 : Ref sig .tc := ⟨.hbm, 520, rfl⟩
abbrev main_call31_v9 : Ref sig .tc := ⟨.hbm, 521, rfl⟩
abbrev main_call31_v10 : Ref sig .tc := ⟨.hbm, 522, rfl⟩
abbrev main_call31_v11 : Ref sig .tc := ⟨.hbm, 523, rfl⟩
abbrev main_call31_c_3 : Ref sig .tc := ⟨.hbm, 524, rfl⟩
abbrev main_call31_v12 : Ref sig .tc := ⟨.hbm, 525, rfl⟩
abbrev main_call31_v13 : Ref sig .tc := ⟨.hbm, 526, rfl⟩
abbrev main_call31_v14 : Ref sig .tc := ⟨.hbm, 527, rfl⟩
abbrev main_call31_cst : Ref sig .tc := ⟨.hbm, 528, rfl⟩
abbrev main_call31_v15 : Ref sig .tc := ⟨.hbm, 529, rfl⟩
abbrev main_v101 : Ref sig .tc := ⟨.hbm, 530, rfl⟩
abbrev main_v102 : Ref sig .tc := ⟨.hbm, 531, rfl⟩
abbrev main_cst_18 : Ref sig .tc := ⟨.hbm, 532, rfl⟩
abbrev main_call32_v0 : Ref sig .tc := ⟨.hbm, 533, rfl⟩
abbrev main_call32_v1 : Ref sig .tc := ⟨.hbm, 534, rfl⟩
abbrev main_call32_v2 : Ref sig .tc := ⟨.hbm, 535, rfl⟩
abbrev main_v103 : Ref sig .tc := ⟨.hbm, 536, rfl⟩
abbrev main_v104 : Ref sig .tc := ⟨.hbm, 537, rfl⟩
abbrev main_v105 : Ref sig .tc := ⟨.hbm, 538, rfl⟩
abbrev main_v106 : Ref sig .tc := ⟨.hbm, 539, rfl⟩
abbrev main_call33_c : Ref sig .tc := ⟨.hbm, 540, rfl⟩
abbrev main_call33_v0 : Ref sig .tc := ⟨.hbm, 541, rfl⟩
abbrev main_call33_v1 : Ref sig .tc := ⟨.hbm, 542, rfl⟩
abbrev main_call33_c_0 : Ref sig .tc := ⟨.hbm, 543, rfl⟩
abbrev main_call33_v2 : Ref sig .tc := ⟨.hbm, 544, rfl⟩
abbrev main_call33_v3 : Ref sig .tc := ⟨.hbm, 545, rfl⟩
abbrev main_call33_v4 : Ref sig .tc := ⟨.hbm, 546, rfl⟩
abbrev main_call33_v5 : Ref sig .tc := ⟨.hbm, 547, rfl⟩
abbrev main_call33_c_1 : Ref sig .tc := ⟨.hbm, 548, rfl⟩
abbrev main_call33_c_2 : Ref sig .tc := ⟨.hbm, 549, rfl⟩
abbrev main_call33_v6 : Ref sig .tc := ⟨.hbm, 550, rfl⟩
abbrev main_call33_v7 : Ref sig .tc := ⟨.hbm, 551, rfl⟩
abbrev main_call33_v8 : Ref sig .tc := ⟨.hbm, 552, rfl⟩
abbrev main_call33_v9 : Ref sig .tc := ⟨.hbm, 553, rfl⟩
abbrev main_call33_v10 : Ref sig .tc := ⟨.hbm, 554, rfl⟩
abbrev main_call33_v11 : Ref sig .tc := ⟨.hbm, 555, rfl⟩
abbrev main_call33_c_3 : Ref sig .tc := ⟨.hbm, 556, rfl⟩
abbrev main_call33_v12 : Ref sig .tc := ⟨.hbm, 557, rfl⟩
abbrev main_call33_v13 : Ref sig .tc := ⟨.hbm, 558, rfl⟩
abbrev main_call33_v14 : Ref sig .tc := ⟨.hbm, 559, rfl⟩
abbrev main_call33_cst : Ref sig .tc := ⟨.hbm, 560, rfl⟩
abbrev main_call33_v15 : Ref sig .tc := ⟨.hbm, 561, rfl⟩
abbrev main_v107 : Ref sig .tc := ⟨.hbm, 562, rfl⟩
abbrev main_v108 : Ref sig .tc := ⟨.hbm, 563, rfl⟩
abbrev main_cst_19 : Ref sig .tc := ⟨.hbm, 564, rfl⟩
abbrev main_call34_v0 : Ref sig .tc := ⟨.hbm, 565, rfl⟩
abbrev main_call34_v1 : Ref sig .tc := ⟨.hbm, 566, rfl⟩
abbrev main_call34_v2 : Ref sig .tc := ⟨.hbm, 567, rfl⟩
abbrev main_v109 : Ref sig .tc := ⟨.hbm, 568, rfl⟩
abbrev main_v110 : Ref sig .tc := ⟨.hbm, 569, rfl⟩
abbrev main_v111 : Ref sig .tc := ⟨.hbm, 570, rfl⟩
abbrev main_v112 : Ref sig .tc := ⟨.hbm, 571, rfl⟩
abbrev main_call35_c : Ref sig .tc := ⟨.hbm, 572, rfl⟩
abbrev main_call35_v0 : Ref sig .tc := ⟨.hbm, 573, rfl⟩
abbrev main_call35_v1 : Ref sig .tc := ⟨.hbm, 574, rfl⟩
abbrev main_call35_c_0 : Ref sig .tc := ⟨.hbm, 575, rfl⟩
abbrev main_call35_v2 : Ref sig .tc := ⟨.hbm, 576, rfl⟩
abbrev main_call35_v3 : Ref sig .tc := ⟨.hbm, 577, rfl⟩
abbrev main_call35_v4 : Ref sig .tc := ⟨.hbm, 578, rfl⟩
abbrev main_call35_v5 : Ref sig .tc := ⟨.hbm, 579, rfl⟩
abbrev main_call35_c_1 : Ref sig .tc := ⟨.hbm, 580, rfl⟩
abbrev main_call35_c_2 : Ref sig .tc := ⟨.hbm, 581, rfl⟩
abbrev main_call35_v6 : Ref sig .tc := ⟨.hbm, 582, rfl⟩
abbrev main_call35_v7 : Ref sig .tc := ⟨.hbm, 583, rfl⟩
abbrev main_call35_v8 : Ref sig .tc := ⟨.hbm, 584, rfl⟩
abbrev main_call35_v9 : Ref sig .tc := ⟨.hbm, 585, rfl⟩
abbrev main_call35_v10 : Ref sig .tc := ⟨.hbm, 586, rfl⟩
abbrev main_call35_v11 : Ref sig .tc := ⟨.hbm, 587, rfl⟩
abbrev main_call35_c_3 : Ref sig .tc := ⟨.hbm, 588, rfl⟩
abbrev main_call35_v12 : Ref sig .tc := ⟨.hbm, 589, rfl⟩
abbrev main_call35_v13 : Ref sig .tc := ⟨.hbm, 590, rfl⟩
abbrev main_call35_v14 : Ref sig .tc := ⟨.hbm, 591, rfl⟩
abbrev main_call35_cst : Ref sig .tc := ⟨.hbm, 592, rfl⟩
abbrev main_call35_v15 : Ref sig .tc := ⟨.hbm, 593, rfl⟩
abbrev main_v113 : Ref sig .tc := ⟨.hbm, 594, rfl⟩
abbrev main_v114 : Ref sig .tc := ⟨.hbm, 595, rfl⟩
abbrev main_cst_20 : Ref sig .tc := ⟨.hbm, 596, rfl⟩
abbrev main_call36_v0 : Ref sig .tc := ⟨.hbm, 597, rfl⟩
abbrev main_call36_v1 : Ref sig .tc := ⟨.hbm, 598, rfl⟩
abbrev main_call36_v2 : Ref sig .tc := ⟨.hbm, 599, rfl⟩
abbrev main_v115 : Ref sig .tc := ⟨.hbm, 600, rfl⟩
abbrev main_v116 : Ref sig .tc := ⟨.hbm, 601, rfl⟩
abbrev main_v117 : Ref sig .tc := ⟨.hbm, 602, rfl⟩
abbrev main_v118 : Ref sig .tc := ⟨.hbm, 603, rfl⟩
abbrev main_call37_c : Ref sig .tc := ⟨.hbm, 604, rfl⟩
abbrev main_call37_v0 : Ref sig .tc := ⟨.hbm, 605, rfl⟩
abbrev main_call37_v1 : Ref sig .tc := ⟨.hbm, 606, rfl⟩
abbrev main_call37_c_0 : Ref sig .tc := ⟨.hbm, 607, rfl⟩
abbrev main_call37_v2 : Ref sig .tc := ⟨.hbm, 608, rfl⟩
abbrev main_call37_v3 : Ref sig .tc := ⟨.hbm, 609, rfl⟩
abbrev main_call37_v4 : Ref sig .tc := ⟨.hbm, 610, rfl⟩
abbrev main_call37_v5 : Ref sig .tc := ⟨.hbm, 611, rfl⟩
abbrev main_call37_c_1 : Ref sig .tc := ⟨.hbm, 612, rfl⟩
abbrev main_call37_c_2 : Ref sig .tc := ⟨.hbm, 613, rfl⟩
abbrev main_call37_v6 : Ref sig .tc := ⟨.hbm, 614, rfl⟩
abbrev main_call37_v7 : Ref sig .tc := ⟨.hbm, 615, rfl⟩
abbrev main_call37_v8 : Ref sig .tc := ⟨.hbm, 616, rfl⟩
abbrev main_call37_v9 : Ref sig .tc := ⟨.hbm, 617, rfl⟩
abbrev main_call37_v10 : Ref sig .tc := ⟨.hbm, 618, rfl⟩
abbrev main_call37_v11 : Ref sig .tc := ⟨.hbm, 619, rfl⟩
abbrev main_call37_c_3 : Ref sig .tc := ⟨.hbm, 620, rfl⟩
abbrev main_call37_v12 : Ref sig .tc := ⟨.hbm, 621, rfl⟩
abbrev main_call37_v13 : Ref sig .tc := ⟨.hbm, 622, rfl⟩
abbrev main_call37_v14 : Ref sig .tc := ⟨.hbm, 623, rfl⟩
abbrev main_call37_cst : Ref sig .tc := ⟨.hbm, 624, rfl⟩
abbrev main_call37_v15 : Ref sig .tc := ⟨.hbm, 625, rfl⟩
abbrev main_v119 : Ref sig .tc := ⟨.hbm, 626, rfl⟩
abbrev main_v120 : Ref sig .tc := ⟨.hbm, 627, rfl⟩
abbrev main_cst_21 : Ref sig .tc := ⟨.hbm, 628, rfl⟩
abbrev main_call38_v0 : Ref sig .tc := ⟨.hbm, 629, rfl⟩
abbrev main_call38_v1 : Ref sig .tc := ⟨.hbm, 630, rfl⟩
abbrev main_call38_v2 : Ref sig .tc := ⟨.hbm, 631, rfl⟩
abbrev main_v121 : Ref sig .tc := ⟨.hbm, 632, rfl⟩
abbrev main_v122 : Ref sig .tc := ⟨.hbm, 633, rfl⟩
abbrev main_v123 : Ref sig .tc := ⟨.hbm, 634, rfl⟩
abbrev main_v124 : Ref sig .tc := ⟨.hbm, 635, rfl⟩
abbrev main_call39_c : Ref sig .tc := ⟨.hbm, 636, rfl⟩
abbrev main_call39_v0 : Ref sig .tc := ⟨.hbm, 637, rfl⟩
abbrev main_call39_v1 : Ref sig .tc := ⟨.hbm, 638, rfl⟩
abbrev main_call39_c_0 : Ref sig .tc := ⟨.hbm, 639, rfl⟩
abbrev main_call39_v2 : Ref sig .tc := ⟨.hbm, 640, rfl⟩
abbrev main_call39_v3 : Ref sig .tc := ⟨.hbm, 641, rfl⟩
abbrev main_call39_v4 : Ref sig .tc := ⟨.hbm, 642, rfl⟩
abbrev main_call39_v5 : Ref sig .tc := ⟨.hbm, 643, rfl⟩
abbrev main_call39_c_1 : Ref sig .tc := ⟨.hbm, 644, rfl⟩
abbrev main_call39_c_2 : Ref sig .tc := ⟨.hbm, 645, rfl⟩
abbrev main_call39_v6 : Ref sig .tc := ⟨.hbm, 646, rfl⟩
abbrev main_call39_v7 : Ref sig .tc := ⟨.hbm, 647, rfl⟩
abbrev main_call39_v8 : Ref sig .tc := ⟨.hbm, 648, rfl⟩
abbrev main_call39_v9 : Ref sig .tc := ⟨.hbm, 649, rfl⟩
abbrev main_call39_v10 : Ref sig .tc := ⟨.hbm, 650, rfl⟩
abbrev main_call39_v11 : Ref sig .tc := ⟨.hbm, 651, rfl⟩
abbrev main_call39_c_3 : Ref sig .tc := ⟨.hbm, 652, rfl⟩
abbrev main_call39_v12 : Ref sig .tc := ⟨.hbm, 653, rfl⟩
abbrev main_call39_v13 : Ref sig .tc := ⟨.hbm, 654, rfl⟩
abbrev main_call39_v14 : Ref sig .tc := ⟨.hbm, 655, rfl⟩
abbrev main_call39_cst : Ref sig .tc := ⟨.hbm, 656, rfl⟩
abbrev main_call39_v15 : Ref sig .tc := ⟨.hbm, 657, rfl⟩
abbrev main_v125 : Ref sig .tc := ⟨.hbm, 658, rfl⟩
abbrev main_v126 : Ref sig .tc := ⟨.hbm, 659, rfl⟩
abbrev main_cst_22 : Ref sig .tc := ⟨.hbm, 660, rfl⟩
abbrev main_call40_v0 : Ref sig .tc := ⟨.hbm, 661, rfl⟩
abbrev main_call40_v1 : Ref sig .tc := ⟨.hbm, 662, rfl⟩
abbrev main_call40_v2 : Ref sig .tc := ⟨.hbm, 663, rfl⟩
abbrev main_v127 : Ref sig .tc := ⟨.hbm, 664, rfl⟩
abbrev main_v128 : Ref sig .tc := ⟨.hbm, 665, rfl⟩
abbrev main_v129 : Ref sig .tc := ⟨.hbm, 666, rfl⟩
abbrev main_v130 : Ref sig .tc := ⟨.hbm, 667, rfl⟩
abbrev main_call41_c : Ref sig .tc := ⟨.hbm, 668, rfl⟩
abbrev main_call41_v0 : Ref sig .tc := ⟨.hbm, 669, rfl⟩
abbrev main_call41_v1 : Ref sig .tc := ⟨.hbm, 670, rfl⟩
abbrev main_call41_c_0 : Ref sig .tc := ⟨.hbm, 671, rfl⟩
abbrev main_call41_v2 : Ref sig .tc := ⟨.hbm, 672, rfl⟩
abbrev main_call41_v3 : Ref sig .tc := ⟨.hbm, 673, rfl⟩
abbrev main_call41_v4 : Ref sig .tc := ⟨.hbm, 674, rfl⟩
abbrev main_call41_v5 : Ref sig .tc := ⟨.hbm, 675, rfl⟩
abbrev main_call41_c_1 : Ref sig .tc := ⟨.hbm, 676, rfl⟩
abbrev main_call41_c_2 : Ref sig .tc := ⟨.hbm, 677, rfl⟩
abbrev main_call41_v6 : Ref sig .tc := ⟨.hbm, 678, rfl⟩
abbrev main_call41_v7 : Ref sig .tc := ⟨.hbm, 679, rfl⟩
abbrev main_call41_v8 : Ref sig .tc := ⟨.hbm, 680, rfl⟩
abbrev main_call41_v9 : Ref sig .tc := ⟨.hbm, 681, rfl⟩
abbrev main_call41_v10 : Ref sig .tc := ⟨.hbm, 682, rfl⟩
abbrev main_call41_v11 : Ref sig .tc := ⟨.hbm, 683, rfl⟩
abbrev main_call41_c_3 : Ref sig .tc := ⟨.hbm, 684, rfl⟩
abbrev main_call41_v12 : Ref sig .tc := ⟨.hbm, 685, rfl⟩
abbrev main_call41_v13 : Ref sig .tc := ⟨.hbm, 686, rfl⟩
abbrev main_call41_v14 : Ref sig .tc := ⟨.hbm, 687, rfl⟩
abbrev main_call41_cst : Ref sig .tc := ⟨.hbm, 688, rfl⟩
abbrev main_call41_v15 : Ref sig .tc := ⟨.hbm, 689, rfl⟩
abbrev main_v131 : Ref sig .tc := ⟨.hbm, 690, rfl⟩
abbrev main_v132 : Ref sig .tc := ⟨.hbm, 691, rfl⟩
abbrev main_cst_23 : Ref sig .tc := ⟨.hbm, 692, rfl⟩
abbrev main_call42_v0 : Ref sig .tc := ⟨.hbm, 693, rfl⟩
abbrev main_call42_v1 : Ref sig .tc := ⟨.hbm, 694, rfl⟩
abbrev main_call42_v2 : Ref sig .tc := ⟨.hbm, 695, rfl⟩
abbrev main_v133 : Ref sig .tc := ⟨.hbm, 696, rfl⟩
abbrev main_v134 : Ref sig .tc := ⟨.hbm, 697, rfl⟩
abbrev main_v135 : Ref sig .tc := ⟨.hbm, 698, rfl⟩
abbrev main_v136 : Ref sig .tc := ⟨.hbm, 699, rfl⟩
abbrev main_call43_c : Ref sig .tc := ⟨.hbm, 700, rfl⟩
abbrev main_call43_v0 : Ref sig .tc := ⟨.hbm, 701, rfl⟩
abbrev main_call43_v1 : Ref sig .tc := ⟨.hbm, 702, rfl⟩
abbrev main_call43_c_0 : Ref sig .tc := ⟨.hbm, 703, rfl⟩
abbrev main_call43_v2 : Ref sig .tc := ⟨.hbm, 704, rfl⟩
abbrev main_call43_v3 : Ref sig .tc := ⟨.hbm, 705, rfl⟩
abbrev main_call43_v4 : Ref sig .tc := ⟨.hbm, 706, rfl⟩
abbrev main_call43_v5 : Ref sig .tc := ⟨.hbm, 707, rfl⟩
abbrev main_call43_c_1 : Ref sig .tc := ⟨.hbm, 708, rfl⟩
abbrev main_call43_c_2 : Ref sig .tc := ⟨.hbm, 709, rfl⟩
abbrev main_call43_v6 : Ref sig .tc := ⟨.hbm, 710, rfl⟩
abbrev main_call43_v7 : Ref sig .tc := ⟨.hbm, 711, rfl⟩
abbrev main_call43_v8 : Ref sig .tc := ⟨.hbm, 712, rfl⟩
abbrev main_call43_v9 : Ref sig .tc := ⟨.hbm, 713, rfl⟩
abbrev main_call43_v10 : Ref sig .tc := ⟨.hbm, 714, rfl⟩
abbrev main_call43_v11 : Ref sig .tc := ⟨.hbm, 715, rfl⟩
abbrev main_call43_c_3 : Ref sig .tc := ⟨.hbm, 716, rfl⟩
abbrev main_call43_v12 : Ref sig .tc := ⟨.hbm, 717, rfl⟩
abbrev main_call43_v13 : Ref sig .tc := ⟨.hbm, 718, rfl⟩
abbrev main_call43_v14 : Ref sig .tc := ⟨.hbm, 719, rfl⟩
abbrev main_call43_cst : Ref sig .tc := ⟨.hbm, 720, rfl⟩
abbrev main_call43_v15 : Ref sig .tc := ⟨.hbm, 721, rfl⟩
abbrev main_v137 : Ref sig .tc := ⟨.hbm, 722, rfl⟩
abbrev main_v138 : Ref sig .tc := ⟨.hbm, 723, rfl⟩
abbrev main_cst_24 : Ref sig .tc := ⟨.hbm, 724, rfl⟩
abbrev main_call44_v0 : Ref sig .tc := ⟨.hbm, 725, rfl⟩
abbrev main_call44_v1 : Ref sig .tc := ⟨.hbm, 726, rfl⟩
abbrev main_call44_v2 : Ref sig .tc := ⟨.hbm, 727, rfl⟩
abbrev main_v139 : Ref sig .tc := ⟨.hbm, 728, rfl⟩
abbrev main_v140 : Ref sig .tc := ⟨.hbm, 729, rfl⟩
abbrev main_v141 : Ref sig .tc := ⟨.hbm, 730, rfl⟩
abbrev main_v142 : Ref sig .tc := ⟨.hbm, 731, rfl⟩
abbrev main_call45_c : Ref sig .tc := ⟨.hbm, 732, rfl⟩
abbrev main_call45_v0 : Ref sig .tc := ⟨.hbm, 733, rfl⟩
abbrev main_call45_v1 : Ref sig .tc := ⟨.hbm, 734, rfl⟩
abbrev main_call45_c_0 : Ref sig .tc := ⟨.hbm, 735, rfl⟩
abbrev main_call45_v2 : Ref sig .tc := ⟨.hbm, 736, rfl⟩
abbrev main_call45_v3 : Ref sig .tc := ⟨.hbm, 737, rfl⟩
abbrev main_call45_v4 : Ref sig .tc := ⟨.hbm, 738, rfl⟩
abbrev main_call45_v5 : Ref sig .tc := ⟨.hbm, 739, rfl⟩
abbrev main_call45_c_1 : Ref sig .tc := ⟨.hbm, 740, rfl⟩
abbrev main_call45_c_2 : Ref sig .tc := ⟨.hbm, 741, rfl⟩
abbrev main_call45_v6 : Ref sig .tc := ⟨.hbm, 742, rfl⟩
abbrev main_call45_v7 : Ref sig .tc := ⟨.hbm, 743, rfl⟩
abbrev main_call45_v8 : Ref sig .tc := ⟨.hbm, 744, rfl⟩
abbrev main_call45_v9 : Ref sig .tc := ⟨.hbm, 745, rfl⟩
abbrev main_call45_v10 : Ref sig .tc := ⟨.hbm, 746, rfl⟩
abbrev main_call45_v11 : Ref sig .tc := ⟨.hbm, 747, rfl⟩
abbrev main_call45_c_3 : Ref sig .tc := ⟨.hbm, 748, rfl⟩
abbrev main_call45_v12 : Ref sig .tc := ⟨.hbm, 749, rfl⟩
abbrev main_call45_v13 : Ref sig .tc := ⟨.hbm, 750, rfl⟩
abbrev main_call45_v14 : Ref sig .tc := ⟨.hbm, 751, rfl⟩
abbrev main_call45_cst : Ref sig .tc := ⟨.hbm, 752, rfl⟩
abbrev main_call45_v15 : Ref sig .tc := ⟨.hbm, 753, rfl⟩
abbrev main_v143 : Ref sig .tc := ⟨.hbm, 754, rfl⟩
abbrev main_v144 : Ref sig .tc := ⟨.hbm, 755, rfl⟩
abbrev main_cst_25 : Ref sig .tc := ⟨.hbm, 756, rfl⟩
abbrev main_call46_v0 : Ref sig .tc := ⟨.hbm, 757, rfl⟩
abbrev main_call46_v1 : Ref sig .tc := ⟨.hbm, 758, rfl⟩
abbrev main_call46_v2 : Ref sig .tc := ⟨.hbm, 759, rfl⟩
abbrev main_v145 : Ref sig .tc := ⟨.hbm, 760, rfl⟩
abbrev main_v146 : Ref sig .tc := ⟨.hbm, 761, rfl⟩
abbrev main_v147 : Ref sig .tc := ⟨.hbm, 762, rfl⟩
abbrev main_v148 : Ref sig .tc := ⟨.hbm, 763, rfl⟩
abbrev main_call47_c : Ref sig .tc := ⟨.hbm, 764, rfl⟩
abbrev main_call47_v0 : Ref sig .tc := ⟨.hbm, 765, rfl⟩
abbrev main_call47_v1 : Ref sig .tc := ⟨.hbm, 766, rfl⟩
abbrev main_call47_c_0 : Ref sig .tc := ⟨.hbm, 767, rfl⟩
abbrev main_call47_v2 : Ref sig .tc := ⟨.hbm, 768, rfl⟩
abbrev main_call47_v3 : Ref sig .tc := ⟨.hbm, 769, rfl⟩
abbrev main_call47_v4 : Ref sig .tc := ⟨.hbm, 770, rfl⟩
abbrev main_call47_v5 : Ref sig .tc := ⟨.hbm, 771, rfl⟩
abbrev main_call47_c_1 : Ref sig .tc := ⟨.hbm, 772, rfl⟩
abbrev main_call47_c_2 : Ref sig .tc := ⟨.hbm, 773, rfl⟩
abbrev main_call47_v6 : Ref sig .tc := ⟨.hbm, 774, rfl⟩
abbrev main_call47_v7 : Ref sig .tc := ⟨.hbm, 775, rfl⟩
abbrev main_call47_v8 : Ref sig .tc := ⟨.hbm, 776, rfl⟩
abbrev main_call47_v9 : Ref sig .tc := ⟨.hbm, 777, rfl⟩
abbrev main_call47_v10 : Ref sig .tc := ⟨.hbm, 778, rfl⟩
abbrev main_call47_v11 : Ref sig .tc := ⟨.hbm, 779, rfl⟩
abbrev main_call47_c_3 : Ref sig .tc := ⟨.hbm, 780, rfl⟩
abbrev main_call47_v12 : Ref sig .tc := ⟨.hbm, 781, rfl⟩
abbrev main_call47_v13 : Ref sig .tc := ⟨.hbm, 782, rfl⟩
abbrev main_call47_v14 : Ref sig .tc := ⟨.hbm, 783, rfl⟩
abbrev main_call47_cst : Ref sig .tc := ⟨.hbm, 784, rfl⟩
abbrev main_call47_v15 : Ref sig .tc := ⟨.hbm, 785, rfl⟩
abbrev main_v149 : Ref sig .tc := ⟨.hbm, 786, rfl⟩
abbrev main_v150 : Ref sig .tc := ⟨.hbm, 787, rfl⟩
abbrev main_cst_26 : Ref sig .tc := ⟨.hbm, 788, rfl⟩
abbrev main_call48_v0 : Ref sig .tc := ⟨.hbm, 789, rfl⟩
abbrev main_call48_v1 : Ref sig .tc := ⟨.hbm, 790, rfl⟩
abbrev main_call48_v2 : Ref sig .tc := ⟨.hbm, 791, rfl⟩
abbrev main_v151 : Ref sig .tc := ⟨.hbm, 792, rfl⟩
abbrev main_v152 : Ref sig .tc := ⟨.hbm, 793, rfl⟩
abbrev main_v153 : Ref sig .tc := ⟨.hbm, 794, rfl⟩
abbrev main_v154 : Ref sig .tc := ⟨.hbm, 795, rfl⟩
abbrev main_call49_c : Ref sig .tc := ⟨.hbm, 796, rfl⟩
abbrev main_call49_v0 : Ref sig .tc := ⟨.hbm, 797, rfl⟩
abbrev main_call49_v1 : Ref sig .tc := ⟨.hbm, 798, rfl⟩
abbrev main_call49_c_0 : Ref sig .tc := ⟨.hbm, 799, rfl⟩
abbrev main_call49_v2 : Ref sig .tc := ⟨.hbm, 800, rfl⟩
abbrev main_call49_v3 : Ref sig .tc := ⟨.hbm, 801, rfl⟩
abbrev main_call49_v4 : Ref sig .tc := ⟨.hbm, 802, rfl⟩
abbrev main_call49_v5 : Ref sig .tc := ⟨.hbm, 803, rfl⟩
abbrev main_call49_c_1 : Ref sig .tc := ⟨.hbm, 804, rfl⟩
abbrev main_call49_c_2 : Ref sig .tc := ⟨.hbm, 805, rfl⟩
abbrev main_call49_v6 : Ref sig .tc := ⟨.hbm, 806, rfl⟩
abbrev main_call49_v7 : Ref sig .tc := ⟨.hbm, 807, rfl⟩
abbrev main_call49_v8 : Ref sig .tc := ⟨.hbm, 808, rfl⟩
abbrev main_call49_v9 : Ref sig .tc := ⟨.hbm, 809, rfl⟩
abbrev main_call49_v10 : Ref sig .tc := ⟨.hbm, 810, rfl⟩
abbrev main_call49_v11 : Ref sig .tc := ⟨.hbm, 811, rfl⟩
abbrev main_call49_c_3 : Ref sig .tc := ⟨.hbm, 812, rfl⟩
abbrev main_call49_v12 : Ref sig .tc := ⟨.hbm, 813, rfl⟩
abbrev main_call49_v13 : Ref sig .tc := ⟨.hbm, 814, rfl⟩
abbrev main_call49_v14 : Ref sig .tc := ⟨.hbm, 815, rfl⟩
abbrev main_call49_cst : Ref sig .tc := ⟨.hbm, 816, rfl⟩
abbrev main_call49_v15 : Ref sig .tc := ⟨.hbm, 817, rfl⟩
abbrev main_v155 : Ref sig .tc := ⟨.hbm, 818, rfl⟩
abbrev main_v156 : Ref sig .tc := ⟨.hbm, 819, rfl⟩
abbrev main_cst_27 : Ref sig .tc := ⟨.hbm, 820, rfl⟩
abbrev main_call50_v0 : Ref sig .tc := ⟨.hbm, 821, rfl⟩
abbrev main_call50_v1 : Ref sig .tc := ⟨.hbm, 822, rfl⟩
abbrev main_call50_v2 : Ref sig .tc := ⟨.hbm, 823, rfl⟩
abbrev main_v157 : Ref sig .tc := ⟨.hbm, 824, rfl⟩
abbrev main_v158 : Ref sig .tc := ⟨.hbm, 825, rfl⟩
abbrev main_v159 : Ref sig .tc := ⟨.hbm, 826, rfl⟩
abbrev main_v160 : Ref sig .tc := ⟨.hbm, 827, rfl⟩
abbrev main_call51_c : Ref sig .tc := ⟨.hbm, 828, rfl⟩
abbrev main_call51_v0 : Ref sig .tc := ⟨.hbm, 829, rfl⟩
abbrev main_call51_v1 : Ref sig .tc := ⟨.hbm, 830, rfl⟩
abbrev main_call51_c_0 : Ref sig .tc := ⟨.hbm, 831, rfl⟩
abbrev main_call51_v2 : Ref sig .tc := ⟨.hbm, 832, rfl⟩
abbrev main_call51_v3 : Ref sig .tc := ⟨.hbm, 833, rfl⟩
abbrev main_call51_v4 : Ref sig .tc := ⟨.hbm, 834, rfl⟩
abbrev main_call51_v5 : Ref sig .tc := ⟨.hbm, 835, rfl⟩
abbrev main_call51_c_1 : Ref sig .tc := ⟨.hbm, 836, rfl⟩
abbrev main_call51_c_2 : Ref sig .tc := ⟨.hbm, 837, rfl⟩
abbrev main_call51_v6 : Ref sig .tc := ⟨.hbm, 838, rfl⟩
abbrev main_call51_v7 : Ref sig .tc := ⟨.hbm, 839, rfl⟩
abbrev main_call51_v8 : Ref sig .tc := ⟨.hbm, 840, rfl⟩
abbrev main_call51_v9 : Ref sig .tc := ⟨.hbm, 841, rfl⟩
abbrev main_call51_v10 : Ref sig .tc := ⟨.hbm, 842, rfl⟩
abbrev main_call51_v11 : Ref sig .tc := ⟨.hbm, 843, rfl⟩
abbrev main_call51_c_3 : Ref sig .tc := ⟨.hbm, 844, rfl⟩
abbrev main_call51_v12 : Ref sig .tc := ⟨.hbm, 845, rfl⟩
abbrev main_call51_v13 : Ref sig .tc := ⟨.hbm, 846, rfl⟩
abbrev main_call51_v14 : Ref sig .tc := ⟨.hbm, 847, rfl⟩
abbrev main_call51_cst : Ref sig .tc := ⟨.hbm, 848, rfl⟩
abbrev main_call51_v15 : Ref sig .tc := ⟨.hbm, 849, rfl⟩
abbrev main_v161 : Ref sig .tc := ⟨.hbm, 850, rfl⟩
abbrev main_v162 : Ref sig .tc := ⟨.hbm, 851, rfl⟩
abbrev main_cst_28 : Ref sig .tc := ⟨.hbm, 852, rfl⟩
abbrev main_call52_v0 : Ref sig .tc := ⟨.hbm, 853, rfl⟩
abbrev main_call52_v1 : Ref sig .tc := ⟨.hbm, 854, rfl⟩
abbrev main_call52_v2 : Ref sig .tc := ⟨.hbm, 855, rfl⟩
abbrev main_v163 : Ref sig .tc := ⟨.hbm, 856, rfl⟩
abbrev main_v164 : Ref sig .tc := ⟨.hbm, 857, rfl⟩
abbrev main_v165 : Ref sig .tc := ⟨.hbm, 858, rfl⟩
abbrev main_v166 : Ref sig .tc := ⟨.hbm, 859, rfl⟩
abbrev main_call53_c : Ref sig .tc := ⟨.hbm, 860, rfl⟩
abbrev main_call53_v0 : Ref sig .tc := ⟨.hbm, 861, rfl⟩
abbrev main_call53_v1 : Ref sig .tc := ⟨.hbm, 862, rfl⟩
abbrev main_call53_c_0 : Ref sig .tc := ⟨.hbm, 863, rfl⟩
abbrev main_call53_v2 : Ref sig .tc := ⟨.hbm, 864, rfl⟩
abbrev main_call53_v3 : Ref sig .tc := ⟨.hbm, 865, rfl⟩
abbrev main_call53_v4 : Ref sig .tc := ⟨.hbm, 866, rfl⟩
abbrev main_call53_v5 : Ref sig .tc := ⟨.hbm, 867, rfl⟩
abbrev main_call53_c_1 : Ref sig .tc := ⟨.hbm, 868, rfl⟩
abbrev main_call53_c_2 : Ref sig .tc := ⟨.hbm, 869, rfl⟩
abbrev main_call53_v6 : Ref sig .tc := ⟨.hbm, 870, rfl⟩
abbrev main_call53_v7 : Ref sig .tc := ⟨.hbm, 871, rfl⟩
abbrev main_call53_v8 : Ref sig .tc := ⟨.hbm, 872, rfl⟩
abbrev main_call53_v9 : Ref sig .tc := ⟨.hbm, 873, rfl⟩
abbrev main_call53_v10 : Ref sig .tc := ⟨.hbm, 874, rfl⟩
abbrev main_call53_v11 : Ref sig .tc := ⟨.hbm, 875, rfl⟩
abbrev main_call53_c_3 : Ref sig .tc := ⟨.hbm, 876, rfl⟩
abbrev main_call53_v12 : Ref sig .tc := ⟨.hbm, 877, rfl⟩
abbrev main_call53_v13 : Ref sig .tc := ⟨.hbm, 878, rfl⟩
abbrev main_call53_v14 : Ref sig .tc := ⟨.hbm, 879, rfl⟩
abbrev main_call53_cst : Ref sig .tc := ⟨.hbm, 880, rfl⟩
abbrev main_call53_v15 : Ref sig .tc := ⟨.hbm, 881, rfl⟩
abbrev main_v167 : Ref sig .tc := ⟨.hbm, 882, rfl⟩
abbrev main_v168 : Ref sig .tc := ⟨.hbm, 883, rfl⟩
abbrev main_cst_29 : Ref sig .tc := ⟨.hbm, 884, rfl⟩
abbrev main_call54_v0 : Ref sig .tc := ⟨.hbm, 885, rfl⟩
abbrev main_call54_v1 : Ref sig .tc := ⟨.hbm, 886, rfl⟩
abbrev main_call54_v2 : Ref sig .tc := ⟨.hbm, 887, rfl⟩
abbrev main_v169 : Ref sig .tc := ⟨.hbm, 888, rfl⟩
abbrev main_v170 : Ref sig .tc := ⟨.hbm, 889, rfl⟩
abbrev main_v171 : Ref sig .tc := ⟨.hbm, 890, rfl⟩
abbrev main_v172 : Ref sig .tc := ⟨.hbm, 891, rfl⟩
abbrev main_call55_c : Ref sig .tc := ⟨.hbm, 892, rfl⟩
abbrev main_call55_v0 : Ref sig .tc := ⟨.hbm, 893, rfl⟩
abbrev main_call55_v1 : Ref sig .tc := ⟨.hbm, 894, rfl⟩
abbrev main_call55_c_0 : Ref sig .tc := ⟨.hbm, 895, rfl⟩
abbrev main_call55_v2 : Ref sig .tc := ⟨.hbm, 896, rfl⟩
abbrev main_call55_v3 : Ref sig .tc := ⟨.hbm, 897, rfl⟩
abbrev main_call55_v4 : Ref sig .tc := ⟨.hbm, 898, rfl⟩
abbrev main_call55_v5 : Ref sig .tc := ⟨.hbm, 899, rfl⟩
abbrev main_call55_c_1 : Ref sig .tc := ⟨.hbm, 900, rfl⟩
abbrev main_call55_c_2 : Ref sig .tc := ⟨.hbm, 901, rfl⟩
abbrev main_call55_v6 : Ref sig .tc := ⟨.hbm, 902, rfl⟩
abbrev main_call55_v7 : Ref sig .tc := ⟨.hbm, 903, rfl⟩
abbrev main_call55_v8 : Ref sig .tc := ⟨.hbm, 904, rfl⟩
abbrev main_call55_v9 : Ref sig .tc := ⟨.hbm, 905, rfl⟩
abbrev main_call55_v10 : Ref sig .tc := ⟨.hbm, 906, rfl⟩
abbrev main_call55_v11 : Ref sig .tc := ⟨.hbm, 907, rfl⟩
abbrev main_call55_c_3 : Ref sig .tc := ⟨.hbm, 908, rfl⟩
abbrev main_call55_v12 : Ref sig .tc := ⟨.hbm, 909, rfl⟩
abbrev main_call55_v13 : Ref sig .tc := ⟨.hbm, 910, rfl⟩
abbrev main_call55_v14 : Ref sig .tc := ⟨.hbm, 911, rfl⟩
abbrev main_call55_cst : Ref sig .tc := ⟨.hbm, 912, rfl⟩
abbrev main_call55_v15 : Ref sig .tc := ⟨.hbm, 913, rfl⟩
abbrev main_v173 : Ref sig .tc := ⟨.hbm, 914, rfl⟩
abbrev main_v174 : Ref sig .tc := ⟨.hbm, 915, rfl⟩
abbrev main_cst_30 : Ref sig .tc := ⟨.hbm, 916, rfl⟩
abbrev main_call56_v0 : Ref sig .tc := ⟨.hbm, 917, rfl⟩
abbrev main_call56_v1 : Ref sig .tc := ⟨.hbm, 918, rfl⟩
abbrev main_call56_v2 : Ref sig .tc := ⟨.hbm, 919, rfl⟩
abbrev main_v175 : Ref sig .tc := ⟨.hbm, 920, rfl⟩
abbrev main_v176 : Ref sig .tc := ⟨.hbm, 921, rfl⟩
abbrev main_v177 : Ref sig .tc := ⟨.hbm, 922, rfl⟩
abbrev main_v178 : Ref sig .tc := ⟨.hbm, 923, rfl⟩
abbrev main_call57_c : Ref sig .tc := ⟨.hbm, 924, rfl⟩
abbrev main_call57_v0 : Ref sig .tc := ⟨.hbm, 925, rfl⟩
abbrev main_call57_v1 : Ref sig .tc := ⟨.hbm, 926, rfl⟩
abbrev main_call57_c_0 : Ref sig .tc := ⟨.hbm, 927, rfl⟩
abbrev main_call57_v2 : Ref sig .tc := ⟨.hbm, 928, rfl⟩
abbrev main_call57_v3 : Ref sig .tc := ⟨.hbm, 929, rfl⟩
abbrev main_call57_v4 : Ref sig .tc := ⟨.hbm, 930, rfl⟩
abbrev main_call57_v5 : Ref sig .tc := ⟨.hbm, 931, rfl⟩
abbrev main_call57_c_1 : Ref sig .tc := ⟨.hbm, 932, rfl⟩
abbrev main_call57_c_2 : Ref sig .tc := ⟨.hbm, 933, rfl⟩
abbrev main_call57_v6 : Ref sig .tc := ⟨.hbm, 934, rfl⟩
abbrev main_call57_v7 : Ref sig .tc := ⟨.hbm, 935, rfl⟩
abbrev main_call57_v8 : Ref sig .tc := ⟨.hbm, 936, rfl⟩
abbrev main_call57_v9 : Ref sig .tc := ⟨.hbm, 937, rfl⟩
abbrev main_call57_v10 : Ref sig .tc := ⟨.hbm, 938, rfl⟩
abbrev main_call57_v11 : Ref sig .tc := ⟨.hbm, 939, rfl⟩
abbrev main_call57_c_3 : Ref sig .tc := ⟨.hbm, 940, rfl⟩
abbrev main_call57_v12 : Ref sig .tc := ⟨.hbm, 941, rfl⟩
abbrev main_call57_v13 : Ref sig .tc := ⟨.hbm, 942, rfl⟩
abbrev main_call57_v14 : Ref sig .tc := ⟨.hbm, 943, rfl⟩
abbrev main_call57_cst : Ref sig .tc := ⟨.hbm, 944, rfl⟩
abbrev main_call57_v15 : Ref sig .tc := ⟨.hbm, 945, rfl⟩
abbrev main_v179 : Ref sig .tc := ⟨.hbm, 946, rfl⟩
abbrev main_v180 : Ref sig .tc := ⟨.hbm, 947, rfl⟩
abbrev main_cst_31 : Ref sig .tc := ⟨.hbm, 948, rfl⟩
abbrev main_call58_v0 : Ref sig .tc := ⟨.hbm, 949, rfl⟩
abbrev main_call58_v1 : Ref sig .tc := ⟨.hbm, 950, rfl⟩
abbrev main_call58_v2 : Ref sig .tc := ⟨.hbm, 951, rfl⟩
abbrev main_v181 : Ref sig .tc := ⟨.hbm, 952, rfl⟩
abbrev main_v182 : Ref sig .tc := ⟨.hbm, 953, rfl⟩
abbrev main_v183 : Ref sig .tc := ⟨.hbm, 954, rfl⟩
abbrev main_v184 : Ref sig .tc := ⟨.hbm, 955, rfl⟩
abbrev main_call59_c : Ref sig .tc := ⟨.hbm, 956, rfl⟩
abbrev main_call59_v0 : Ref sig .tc := ⟨.hbm, 957, rfl⟩
abbrev main_call59_v1 : Ref sig .tc := ⟨.hbm, 958, rfl⟩
abbrev main_call59_c_0 : Ref sig .tc := ⟨.hbm, 959, rfl⟩
abbrev main_call59_v2 : Ref sig .tc := ⟨.hbm, 960, rfl⟩
abbrev main_call59_v3 : Ref sig .tc := ⟨.hbm, 961, rfl⟩
abbrev main_call59_v4 : Ref sig .tc := ⟨.hbm, 962, rfl⟩
abbrev main_call59_v5 : Ref sig .tc := ⟨.hbm, 963, rfl⟩
abbrev main_call59_c_1 : Ref sig .tc := ⟨.hbm, 964, rfl⟩
abbrev main_call59_c_2 : Ref sig .tc := ⟨.hbm, 965, rfl⟩
abbrev main_call59_v6 : Ref sig .tc := ⟨.hbm, 966, rfl⟩
abbrev main_call59_v7 : Ref sig .tc := ⟨.hbm, 967, rfl⟩
abbrev main_call59_v8 : Ref sig .tc := ⟨.hbm, 968, rfl⟩
abbrev main_call59_v9 : Ref sig .tc := ⟨.hbm, 969, rfl⟩
abbrev main_call59_v10 : Ref sig .tc := ⟨.hbm, 970, rfl⟩
abbrev main_call59_v11 : Ref sig .tc := ⟨.hbm, 971, rfl⟩
abbrev main_call59_c_3 : Ref sig .tc := ⟨.hbm, 972, rfl⟩
abbrev main_call59_v12 : Ref sig .tc := ⟨.hbm, 973, rfl⟩
abbrev main_call59_v13 : Ref sig .tc := ⟨.hbm, 974, rfl⟩
abbrev main_call59_v14 : Ref sig .tc := ⟨.hbm, 975, rfl⟩
abbrev main_call59_cst : Ref sig .tc := ⟨.hbm, 976, rfl⟩
abbrev main_call59_v15 : Ref sig .tc := ⟨.hbm, 977, rfl⟩
abbrev main_v185 : Ref sig .tc := ⟨.hbm, 978, rfl⟩
abbrev main_v186 : Ref sig .tc := ⟨.hbm, 979, rfl⟩
abbrev main_cst_32 : Ref sig .tc := ⟨.hbm, 980, rfl⟩
abbrev main_call60_v0 : Ref sig .tc := ⟨.hbm, 981, rfl⟩
abbrev main_call60_v1 : Ref sig .tc := ⟨.hbm, 982, rfl⟩
abbrev main_call60_v2 : Ref sig .tc := ⟨.hbm, 983, rfl⟩
abbrev main_v187 : Ref sig .tc := ⟨.hbm, 984, rfl⟩
abbrev main_v188 : Ref sig .tc := ⟨.hbm, 985, rfl⟩
abbrev main_v189 : Ref sig .tc := ⟨.hbm, 986, rfl⟩
abbrev main_v190 : Ref sig .tc := ⟨.hbm, 987, rfl⟩
abbrev main_call61_c : Ref sig .tc := ⟨.hbm, 988, rfl⟩
abbrev main_call61_v0 : Ref sig .tc := ⟨.hbm, 989, rfl⟩
abbrev main_call61_v1 : Ref sig .tc := ⟨.hbm, 990, rfl⟩
abbrev main_call61_c_0 : Ref sig .tc := ⟨.hbm, 991, rfl⟩
abbrev main_call61_v2 : Ref sig .tc := ⟨.hbm, 992, rfl⟩
abbrev main_call61_v3 : Ref sig .tc := ⟨.hbm, 993, rfl⟩
abbrev main_call61_v4 : Ref sig .tc := ⟨.hbm, 994, rfl⟩
abbrev main_call61_v5 : Ref sig .tc := ⟨.hbm, 995, rfl⟩
abbrev main_call61_c_1 : Ref sig .tc := ⟨.hbm, 996, rfl⟩
abbrev main_call61_c_2 : Ref sig .tc := ⟨.hbm, 997, rfl⟩
abbrev main_call61_v6 : Ref sig .tc := ⟨.hbm, 998, rfl⟩
abbrev main_call61_v7 : Ref sig .tc := ⟨.hbm, 999, rfl⟩
abbrev main_call61_v8 : Ref sig .tc := ⟨.hbm, 1000, rfl⟩
abbrev main_call61_v9 : Ref sig .tc := ⟨.hbm, 1001, rfl⟩
abbrev main_call61_v10 : Ref sig .tc := ⟨.hbm, 1002, rfl⟩
abbrev main_call61_v11 : Ref sig .tc := ⟨.hbm, 1003, rfl⟩
abbrev main_call61_c_3 : Ref sig .tc := ⟨.hbm, 1004, rfl⟩
abbrev main_call61_v12 : Ref sig .tc := ⟨.hbm, 1005, rfl⟩
abbrev main_call61_v13 : Ref sig .tc := ⟨.hbm, 1006, rfl⟩
abbrev main_call61_v14 : Ref sig .tc := ⟨.hbm, 1007, rfl⟩
abbrev main_call61_cst : Ref sig .tc := ⟨.hbm, 1008, rfl⟩
abbrev main_call61_v15 : Ref sig .tc := ⟨.hbm, 1009, rfl⟩
abbrev main_v191 : Ref sig .tc := ⟨.hbm, 1010, rfl⟩
abbrev main_v192 : Ref sig .tc := ⟨.hbm, 1011, rfl⟩
abbrev main_cst_33 : Ref sig .tc := ⟨.hbm, 1012, rfl⟩
abbrev main_call62_v0 : Ref sig .tc := ⟨.hbm, 1013, rfl⟩
abbrev main_call62_v1 : Ref sig .tc := ⟨.hbm, 1014, rfl⟩
abbrev main_call62_v2 : Ref sig .tc := ⟨.hbm, 1015, rfl⟩
abbrev main_v193 : Ref sig .tc := ⟨.hbm, 1016, rfl⟩
abbrev main_v194 : Ref sig .tc := ⟨.hbm, 1017, rfl⟩
abbrev main_v195 : Ref sig .tc := ⟨.hbm, 1018, rfl⟩
abbrev main_v196 : Ref sig .tc := ⟨.hbm, 1019, rfl⟩
abbrev main_call63_c : Ref sig .tc := ⟨.hbm, 1020, rfl⟩
abbrev main_call63_v0 : Ref sig .tc := ⟨.hbm, 1021, rfl⟩
abbrev main_call63_v1 : Ref sig .tc := ⟨.hbm, 1022, rfl⟩
abbrev main_call63_c_0 : Ref sig .tc := ⟨.hbm, 1023, rfl⟩
abbrev main_call63_v2 : Ref sig .tc := ⟨.hbm, 1024, rfl⟩
abbrev main_call63_v3 : Ref sig .tc := ⟨.hbm, 1025, rfl⟩
abbrev main_call63_v4 : Ref sig .tc := ⟨.hbm, 1026, rfl⟩
abbrev main_call63_v5 : Ref sig .tc := ⟨.hbm, 1027, rfl⟩
abbrev main_call63_c_1 : Ref sig .tc := ⟨.hbm, 1028, rfl⟩
abbrev main_call63_c_2 : Ref sig .tc := ⟨.hbm, 1029, rfl⟩
abbrev main_call63_v6 : Ref sig .tc := ⟨.hbm, 1030, rfl⟩
abbrev main_call63_v7 : Ref sig .tc := ⟨.hbm, 1031, rfl⟩
abbrev main_call63_v8 : Ref sig .tc := ⟨.hbm, 1032, rfl⟩
abbrev main_call63_v9 : Ref sig .tc := ⟨.hbm, 1033, rfl⟩
abbrev main_call63_v10 : Ref sig .tc := ⟨.hbm, 1034, rfl⟩
abbrev main_call63_v11 : Ref sig .tc := ⟨.hbm, 1035, rfl⟩
abbrev main_call63_c_3 : Ref sig .tc := ⟨.hbm, 1036, rfl⟩
abbrev main_call63_v12 : Ref sig .tc := ⟨.hbm, 1037, rfl⟩
abbrev main_call63_v13 : Ref sig .tc := ⟨.hbm, 1038, rfl⟩
abbrev main_call63_v14 : Ref sig .tc := ⟨.hbm, 1039, rfl⟩
abbrev main_call63_cst : Ref sig .tc := ⟨.hbm, 1040, rfl⟩
abbrev main_call63_v15 : Ref sig .tc := ⟨.hbm, 1041, rfl⟩
abbrev main_v197 : Ref sig .tc := ⟨.hbm, 1042, rfl⟩
abbrev main_v198 : Ref sig .tc := ⟨.hbm, 1043, rfl⟩
abbrev main_cst_34 : Ref sig .tc := ⟨.hbm, 1044, rfl⟩
abbrev main_call64_v0 : Ref sig .tc := ⟨.hbm, 1045, rfl⟩
abbrev main_call64_v1 : Ref sig .tc := ⟨.hbm, 1046, rfl⟩
abbrev main_call64_v2 : Ref sig .tc := ⟨.hbm, 1047, rfl⟩
abbrev main_v199 : Ref sig .tc := ⟨.hbm, 1048, rfl⟩
abbrev main_v200 : Ref sig .tc := ⟨.hbm, 1049, rfl⟩
abbrev main_v201 : Ref sig .tc := ⟨.hbm, 1050, rfl⟩
abbrev main_v202 : Ref sig .tc := ⟨.hbm, 1051, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x32 : S_.BroadcastsInDim S50000x32 (![] : Fin 0 → Fin S50000x32.rank)
  shapeCasts_S1_S_ : S1.ShapeCasts S_
  bcast_S_S50000x128 : S_.BroadcastsInDim S50000x128 (![] : Fin 0 → Fin S50000x128.rank)
  slices_S50000x32_S50000x1_0_0 : S50000x32.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S50000x1_S50000x128_0_1 : S50000x1.BroadcastsInDim S50000x128 (![0, 1] : Fin 2 → Fin S50000x128.rank)
  slices_S50000x32_S50000x1_0_1 : S50000x32.Slices ![0, 1] S50000x1
  slices_S50000x32_S50000x1_0_2 : S50000x32.Slices ![0, 2] S50000x1
  slices_S50000x32_S50000x1_0_3 : S50000x32.Slices ![0, 3] S50000x1
  slices_S50000x32_S50000x1_0_4 : S50000x32.Slices ![0, 4] S50000x1
  slices_S50000x32_S50000x1_0_5 : S50000x32.Slices ![0, 5] S50000x1
  slices_S50000x32_S50000x1_0_6 : S50000x32.Slices ![0, 6] S50000x1
  slices_S50000x32_S50000x1_0_7 : S50000x32.Slices ![0, 7] S50000x1
  slices_S50000x32_S50000x1_0_8 : S50000x32.Slices ![0, 8] S50000x1
  slices_S50000x32_S50000x1_0_9 : S50000x32.Slices ![0, 9] S50000x1
  slices_S50000x32_S50000x1_0_10 : S50000x32.Slices ![0, 10] S50000x1
  slices_S50000x32_S50000x1_0_11 : S50000x32.Slices ![0, 11] S50000x1
  slices_S50000x32_S50000x1_0_12 : S50000x32.Slices ![0, 12] S50000x1
  slices_S50000x32_S50000x1_0_13 : S50000x32.Slices ![0, 13] S50000x1
  slices_S50000x32_S50000x1_0_14 : S50000x32.Slices ![0, 14] S50000x1
  slices_S50000x32_S50000x1_0_15 : S50000x32.Slices ![0, 15] S50000x1
  slices_S50000x32_S50000x1_0_16 : S50000x32.Slices ![0, 16] S50000x1
  slices_S50000x32_S50000x1_0_17 : S50000x32.Slices ![0, 17] S50000x1
  slices_S50000x32_S50000x1_0_18 : S50000x32.Slices ![0, 18] S50000x1
  slices_S50000x32_S50000x1_0_19 : S50000x32.Slices ![0, 19] S50000x1
  slices_S50000x32_S50000x1_0_20 : S50000x32.Slices ![0, 20] S50000x1
  slices_S50000x32_S50000x1_0_21 : S50000x32.Slices ![0, 21] S50000x1
  slices_S50000x32_S50000x1_0_22 : S50000x32.Slices ![0, 22] S50000x1
  slices_S50000x32_S50000x1_0_23 : S50000x32.Slices ![0, 23] S50000x1
  slices_S50000x32_S50000x1_0_24 : S50000x32.Slices ![0, 24] S50000x1
  slices_S50000x32_S50000x1_0_25 : S50000x32.Slices ![0, 25] S50000x1
  slices_S50000x32_S50000x1_0_26 : S50000x32.Slices ![0, 26] S50000x1
  slices_S50000x32_S50000x1_0_27 : S50000x32.Slices ![0, 27] S50000x1
  slices_S50000x32_S50000x1_0_28 : S50000x32.Slices ![0, 28] S50000x1
  slices_S50000x32_S50000x1_0_29 : S50000x32.Slices ![0, 29] S50000x1
  slices_S50000x32_S50000x1_0_30 : S50000x32.Slices ![0, 30] S50000x1
  slices_S50000x32_S50000x1_0_31 : S50000x32.Slices ![0, 31] S50000x1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S50000x1_S50000x128_1_0_n_n_0_1_1128_wf : GatherDims.WF S50000x128 S50000x1 S50000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v200) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v201) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v202) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32 : Shape := ⟨2, ![50000, 32]⟩
abbrev S1 : Shape := ⟨1, ![1]⟩
abbrev S128x128 : Shape := ⟨2, ![128, 128]⟩
abbrev S128 : Shape := ⟨1, ![128]⟩
abbrev S_ : Shape := ⟨0, ![]⟩
abbrev S1x128 : Shape := ⟨2, ![1, 128]⟩
abbrev S50001x128 : Shape := ⟨2, ![50001, 128]⟩
abbrev S50000x32x1 : Shape := ⟨3, ![50000, 32, 1]⟩
abbrev S50000x32x128 : Shape := ⟨3, ![50000, 32, 128]⟩
abbrev S1x1 : Shape := ⟨2, ![1, 1]⟩
abbrev S50000 : Shape := ⟨1, ![50000]⟩
abbrev S50000x1 : Shape := ⟨2, ![50000, 1]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S1x128, .f32⟩
  | .hbm, ⟨9, _⟩ => ⟨S50001x128, .f32⟩
  | .hbm, ⟨10, _⟩ => ⟨S_, .i32⟩
  | .hbm, ⟨11, _⟩ => ⟨S50000x32, .i32⟩
  | .hbm, ⟨12, _⟩ => ⟨S50000x32, .i1⟩
  | .hbm, ⟨13, _⟩ => ⟨S_, .i32⟩
  | .hbm, ⟨14, _⟩ => ⟨S50000x32, .i32⟩
  | .hbm, ⟨15, _⟩ => ⟨S50000x32, .i32⟩
  | .hbm, ⟨16, _⟩ => ⟨S50000x32, .i32⟩
  | .hbm, ⟨17, _⟩ => ⟨S50000x32x1, .i32⟩
  | .hbm, ⟨18, _⟩ => ⟨S50000x32x128, .f32⟩
  | .hbm, ⟨19, _⟩ => ⟨S_, .f32⟩
  | .hbm, ⟨20, _⟩ => ⟨S50000x128, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000, .f32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x1, .f32⟩
  | .hbm, ⟨51, _⟩ => ⟨S50000x1, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  concatenates_S50000x128_S1x128_S50001x128_d0 : Shape.Concatenates [S50000x128, S1x128] S50001x128 0
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  reducesTo_S50000x32x128_S50000x128_d1 : S50000x32x128.ReducesTo [1] S50000x128
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50001x128_S50000x32x1_S50000x32x128_2_0_n_n_0_2_1128_wf : GatherDims.WF S50001x128 S50000x32x1 S50000x32x128 [2] [0] [] [0] [] 2 ![1, 128]
  dot_S50000x128_S128x128_S50000x128_1_0_0_1_n_n_wf : DotDims.WF S50000x128 S128x128 S50000x128 [1] [0] [0] [1] [] []

variable [Facts₀]

def gather_S50001x128_S50000x32x1_S50000x32x128_2_0_n_n_0_2_1128 : GatherDims S50001x128 S50000x32x1 S50000x32x128 where
  offsetDims := [2]
  collapsedSliceDims := [0]
  operandBatchingDims := []
  startIndicesBatchingDims := []
  startIndexMap := [0]
  indexVectorDim := 2
  sliceSizes := ![1, 128]
  wf := gather_S50001x128_S50000x32x1_S50000x32x128_2_0_n_n_0_2_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The function both programs compute, index by index, over the extended reals.

  A node table x : [50000, 128], neighbour lists e : [50000, 32] of row numbers (a number that is not below 50000 names no
  node and contributes nothing), a scalar eps, a weight W : [128, 128] and vectors b, gamma, beta : [128].

    h[n, c]   = (1 + eps) * x[n, c] + sum over k of (x[e[n, k], c] if e[n, k] < 50000, else 0)
    y[n, q]   = (sum over k of h[n, k] * W[k, q]) + b[q]
    mu[n]     = (sum over q of y[n, q]) / 128
    d[n, q]   = y[n, q] - mu[n]
    var[n]    = (sum over q of d[n, q] * d[n, q]) / 128
    out[n, q] = d[n, q] * rsqrt(var[n] + 1e-5) * gamma[q] + beta[q]

  The float literals stay as their words: the same word stands on both sides and is never evaluated.
-/
import Idealize.ShloMosaic.PureOps.Ideal
import Idealize.ShloMosaic.Lib.ValueIdx

noncomputable section

namespace Cert.Spec

open Idealize.ShloMosaic Idealize.ShloMosaic.ValueIdx

abbrev SX : Shape := ⟨2, ![50000, 128]⟩
abbrev SE : Shape := ⟨2, ![50000, 32]⟩
abbrev SW : Shape := ⟨2, ![128, 128]⟩
abbrev SV : Shape := ⟨1, ![128]⟩
abbrev SOne : Shape := ⟨1, ![1]⟩

/-- What neighbour slot k of node n adds to column c: the table's row the slot names, or nothing when the slot
    names no node. -/
def nb (x : SX.Idx → EReal) (e : SE.Idx → BitVec 32) (n : Fin 50000) (k : Fin 32) (c : Fin 128) : EReal :=
  if h : (e (ix2 n k)).toNat < 50000 then x (ix2 (⟨(e (ix2 n k)).toNat, h⟩ : Fin 50000) c) else 0

/-- The residual combine: (1 + eps) times the node's own row plus its neighbours' rows. -/
def hval (x : SX.Idx → EReal) (e : SE.Idx → BitVec 32) (eps : SOne.Idx → EReal) (n : Fin 50000) (c : Fin 128) : EReal :=
  (Ideal.ofBits .f32 0x3F800000#32 + eps (ix1 (0 : Fin 1))) * x (ix2 n c) + ∑ k : Fin 32, nb x e n k c

/-- One row through the linear layer. -/
def yrow (hrow : Fin 128 → EReal) (W : SW.Idx → EReal) (b : SV.Idx → EReal) (q : Fin 128) : EReal :=
  (∑ k : Fin 128, hrow k * W (ix2 k q)) + b (ix1 q)

/-- The mean of a row of 128. -/
def mean128 (y : Fin 128 → EReal) : EReal := Ideal.div (∑ q : Fin 128, y q) (Ideal.ofBits .f32 0x43000000#32)

/-- One row normalised: centred, scaled by the reciprocal root of its variance plus 1e-5, then the affine map. -/
def lnRow (y : Fin 128 → EReal) (gamma beta : SV.Idx → EReal) (q : Fin 128) : EReal :=
  (y q - mean128 y) * Ideal.rsqrt (mean128 (fun q' => (y q' - mean128 y) * (y q' - mean128 y)) + Ideal.ofBits .f32 0x3727C5AC#32)
    * gamma (ix1 q) + beta (ix1 q)

/-- The combined table h as an array. -/
def harr (x : SX.Idx → EReal) (e : SE.Idx → BitVec 32) (eps : SOne.Idx → EReal) : SX.Idx → EReal :=
  fun i => hval x e eps (i 0) (i 1)

/-- The linear layer and the row normalisation of ANY table h, as an array: entry (n, q) depends on row n of h only. -/
def outOf (h : SX.Idx → EReal) (W : SW.Idx → EReal) (b gamma beta : SV.Idx → EReal) : SX.Idx → EReal :=
  fun i => lnRow (yrow (fun k => h (ix2 (i 0) k)) W b) gamma beta (i 1)

/-- The whole result as an array. -/
def G (x : SX.Idx → EReal) (e : SE.Idx → BitVec 32) (eps : SOne.Idx → EReal) (W : SW.Idx → EReal)
    (b gamma beta : SV.Idx → EReal) : SX.Idx → EReal :=
  outOf (harr x e eps) W b gamma beta

theorem harr_ix2 (x : SX.Idx → EReal) (e : SE.Idx → BitVec 32) (eps : SOne.Idx → EReal) (n : Fin 50000) (c : Fin 128) :
    harr x e eps (ix2 n c) = hval x e eps n c := rfl

theorem outOf_ix2 (h : SX.Idx → EReal) (W : SW.Idx → EReal) (b gamma beta : SV.Idx → EReal) (n : Fin 50000) (q : Fin 128) :
    outOf h W b gamma beta (ix2 n q) = lnRow (yrow (fun k => h (ix2 n k)) W b) gamma beta q := rfl

end Cert.Spec

end
-- ==== Proof.PreFacts.lean ====
/-
  What the precondition says about the neighbour lists: its last conjunct is "every neighbour index is at least 0", read
  signed; a 32-bit word that is not negative is below 2^31 as a natural number.
-/
import proofs.«424014_j70935679861205_3_alg».proof.Pre_finite_inputs
import Idealize.ShloMosaic.Lib.ReduceAll
import Idealize.ShloMosaic.Lib.Affine
import Idealize.ShloMosaic.Lib.StableHlo.Predicate
import Idealize.ShloMosaic.Lib.ValueIdx

noncomputable section

namespace Cert.PreFacts

open Idealize.ShloMosaic Idealize.ShloMosaic.ValueIdx Cert.Pre_finite_inputs

variable [Cert.Pre_finite_inputs.Facts]

instance : Subsingleton S_.Idx := ⟨fun a b => funext fun d => d.elim0⟩

/-- A word that is at least 0 when read signed is below 2^31. -/
theorem toNat_lt_of_sge_zero (a : BitVec 32) (h : IntOp.cmpi .sge a 0#32 = 1#1) : a.toNat < 2 ^ 31 := by
  unfold IntOp.cmpi at h
  have h' : (0#32 : BitVec 32).sle a = true := (StableHlo.Predicate.ofBool_eq_one_iff _).mp h
  have h0 : (0#32 : BitVec 32).toInt = 0 := by decide
  simp only [BitVec.sle, h0, decide_eq_true_eq] at h'
  rw [BitVec.toInt_eq_toNat_cond] at h'
  have := a.isLt
  split at h' <;> omega

/-- Under the precondition every neighbour index is below 2^31 as a natural number (it is not negative). -/
theorem nonneg_of_pre (x0 : FVec Ideal S50000x128 .f32) (x1 : IVec S50000x32 32) (x2 : FVec Ideal S1 .f32)
    (x3 : FVec Ideal S128x128 .f32) (x4 x5 x6 : FVec Ideal S128 .f32)
    (h : fn (F := Ideal) x0 x1 x2 x3 x4 x5 x6 = fun _ => 1#1) (i : S50000x32.Idx) : (x1 i).toNat < 2 ^ 31 := by
  have h0 := congrFun h ValueIdx.ix0
  dsimp only [fn, fn_part1] at h0
  have h1 := (IntOp.andi_eq_one.mp h0).2
  have h2 := Host.reduce_andi_all _ _ _ _ _ h1 i
  exact toNat_lt_of_sge_zero _ h2

end Cert.PreFacts

end
-- ==== Proof.Assembly.lean ====
/-
  The algebraic claim from its three parts: what the kernel's program hands its launch (the combined table h and the
  weight), what the launch leaves in the output array (the linear layer and the row normalisation of the staged table),
  and the reference's result as the same function of the arguments. The two runs then end at one array.
-/
import proofs.«424014_j70935679861205_3_alg».proof.Defs
import proofs.«424014_j70935679861205_3_alg».proof.Proof.Gen.KernelIdeal.Value
import proofs.«424014_j70935679861205_3_alg».proof.Proof.Gen.ReferenceIdeal.Run
import proofs.«424014_j70935679861205_3_alg».proof.Proof.Gen.ReferenceIdeal.Read
import proofs.«424014_j70935679861205_3_alg».proof.Proof.Spec
import proofs.«424014_j70935679861205_3_alg».proof.Proof.PreFacts

noncomputable section

namespace Cert.Assembly

open Idealize.ShloMosaic Idealize.ShloMosaic.TcCoe Idealize.ShloMosaic.ValueIdx Idealize.SL.Sem

variable [hKernelIdeal : Cert.KernelIdeal.Facts] [hReferenceIdeal : Cert.ReferenceIdeal.Facts]
  [hPre_finite_inputs : Cert.Pre_finite_inputs.Facts]

/-- The two idealized programs end at the specification's array. -/
theorem algebraic_of
    (hVh : ∀ (m : (ℓ : Loc Cert.KernelIdeal.nD Cert.KernelIdeal.τ Cert.KernelIdeal.sig) → Buf (Elt Ideal) ℓ)
      (c : Dev Cert.KernelIdeal.nD),
      (∀ (n : Fin 50000) (k : Fin 32),
        ((m ((c : Thread Cert.KernelIdeal.nD Cert.KernelIdeal.τ).loc Cert.KernelIdeal.main_arg1) : Cert.KernelIdeal.S50000x32.Idx → BitVec 32) (ix2 n k)).toNat < 2 ^ 31) →
      (Cert.KernelIdeal.Gen.V m c Cert.KernelIdeal.main_v200 : Cert.KernelIdeal.S50000x128.Idx → EReal)
        = Cert.Spec.harr (m ((c : Thread Cert.KernelIdeal.nD Cert.KernelIdeal.τ).loc Cert.KernelIdeal.main_arg0)) (m ((c : Thread Cert.KernelIdeal.nD Cert.KernelIdeal.τ).loc Cert.KernelIdeal.main_arg1))
            (m ((c : Thread Cert.KernelIdeal.nD Cert.KernelIdeal.τ).loc Cert.KernelIdeal.main_arg2)))
    (hVw : ∀ (m : (ℓ : Loc Cert.KernelIdeal.nD Cert.KernelIdeal.τ Cert.KernelIdeal.sig) → Buf (Elt Ideal) ℓ)
      (c : Dev Cert.KernelIdeal.nD),
      (Cert.KernelIdeal.Gen.V m c Cert.KernelIdeal.main_v201 : Cert.KernelIdeal.S128x128.Idx → EReal)
        = m ((c : Thread Cert.KernelIdeal.nD Cert.KernelIdeal.τ).loc Cert.KernelIdeal.main_arg3))
    (hfinal : ∀ (m : (ℓ : Loc Cert.KernelIdeal.nD Cert.KernelIdeal.τ Cert.KernelIdeal.sig) → Buf (Elt Ideal) ℓ)
      (c : Dev Cert.KernelIdeal.nD),
      ((Cert.KernelIdeal.Gen.dats m 0 c).arrAt 5 Cert.KernelIdeal.cfg0.N : Cert.KernelIdeal.S50000x128.Idx → EReal)
        = Cert.Spec.outOf (Cert.KernelIdeal.Gen.V m c Cert.KernelIdeal.main_v200)
            (Cert.KernelIdeal.Gen.V m c Cert.KernelIdeal.main_v201) (Cert.KernelIdeal.Gen.V m c Cert.KernelIdeal.main_arg4)
            (Cert.KernelIdeal.Gen.V m c Cert.KernelIdeal.main_arg5) (Cert.KernelIdeal.Gen.V m c Cert.KernelIdeal.main_arg6))
    (href : ∀ (x0 : Cert.ReferenceIdeal.S50000x128.Idx → EReal) (x1 : Cert.ReferenceIdeal.S50000x32.Idx → BitVec 32)
      (x2 : Cert.ReferenceIdeal.S1.Idx → EReal) (x3 : Cert.ReferenceIdeal.S128x128.Idx → EReal)
      (x4 x5 x6 : Cert.ReferenceIdeal.S128.Idx → EReal),
      (∀ (n : Fin 50000) (k : Fin 32), (x1 (ix2 n k)).toNat < 2 ^ 31) →
      Cert.ReferenceIdeal.Read.val_main_v43 (F := Ideal) x0 x1 x2 x3 x4 x5 x6 = Cert.Spec.G x0 x1 x2 x3 x4 x5 x6) :
    Cert.algebraic_KernelIdeal_ReferenceIdeal := by
  intro m ρ m' ρ' hpre hagree
  have hnn : ∀ (c : Dev Cert.KernelIdeal.nD) (n : Fin 50000) (k : Fin 32),
      ((m ((c : Thread Cert.KernelIdeal.nD Cert.KernelIdeal.τ).loc Cert.KernelIdeal.main_arg1) : Cert.KernelIdeal.S50000x32.Idx → BitVec 32) (ix2 n k)).toNat < 2 ^ 31 :=
    fun c n k => Cert.PreFacts.nonneg_of_pre _ _ _ _ _ _ _ (hpre c) (ix2 n k)
  refine ⟨fun c => Cert.Spec.G (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4))
      (m ((c : Thread Cert.KernelIdeal.nD Cert.KernelIdeal.τ).loc Cert.KernelIdeal.main_arg5)) (m ((c : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.Value.run_blocks (F := Ideal) m ρ)
    rw [hfinal m c, hVh m c (hnn c), hVw m c, Cert.KernelIdeal.Gen.V_main_arg4 m c, Cert.KernelIdeal.Gen.V_main_arg5 m c,
      Cert.KernelIdeal.Gen.V_main_arg6 m c]
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v43_eq, (hagree c).1, (hagree c).2.1, (hagree c).2.2.1, (hagree c).2.2.2.1,
      (hagree c).2.2.2.2.1, (hagree c).2.2.2.2.2.1, (hagree c).2.2.2.2.2.2]
    exact href _ _ _ _ _ _ _ (hnn c)

end Cert.Assembly

end
-- ==== Proof.SlotFacts.lean ====
/-
  Word-level facts about one neighbour slot. A slot word w that is not negative (below 2^31 as a natural number) is
  clipped into [0, 50000]; it names a node exactly when the clipped word is below 50000; the row that is read is the
  clipped word kept inside [0, 49999]. For such a word the wrap of a negative index (add the table's height where the
  word is negative) changes nothing, the range test of the row read holds, and a gather's clamp leaves the row as it is.
-/
import Idealize.ShloMosaic.PureOps.Ideal
import Idealize.ShloMosaic.Lib.StableHlo.Predicate

namespace Cert.SlotFacts

open Idealize.ShloMosaic

/-- The slot word clipped into [0, 50000]: the larger of 0 and w, then the smaller of 50000 and that. -/
def clipW (w : BitVec 32) : BitVec 32 := IntOp.minsi 50000#32 (IntOp.maxsi 0#32 w)

/-- The bit saying the slot names a node: the clipped word is below 50000. -/
def validW (w : BitVec 32) : BitVec 1 := IntOp.cmpi .slt (clipW w) 50000#32

/-- The row read: the clipped word kept at most 49999. -/
def safeW (w : BitVec 32) : BitVec 32 := IntOp.minsi (clipW w) 49999#32

/-- A word below 2^31 is not negative: the larger of 0 and it is the word. -/
theorem maxsi_zero (w : BitVec 32) (hw : w.toNat < 2 ^ 31) : IntOp.maxsi 0#32 w = w := by
  unfold IntOp.maxsi
  have hti : w.toInt = w.toNat := StableHlo.Predicate.toInt_eq_toNat_of_lt hw
  have h0 : (0#32 : BitVec 32).toInt = 0 := by decide
  split <;> rename_i hc <;> simp only [BitVec.slt, hti, h0, decide_eq_true_eq] at hc
  · omega
  · rfl

/-- The signed minimum of two words below 2^31 is the minimum of their values. -/
theorem minsi_toNat (a b : BitVec 32) (ha : a.toNat < 2 ^ 31) (hb : b.toNat < 2 ^ 31) :
    (IntOp.minsi a b).toNat = min a.toNat b.toNat := by
  unfold IntOp.minsi
  have hta : a.toInt = a.toNat := StableHlo.Predicate.toInt_eq_toNat_of_lt ha
  have htb : b.toInt = b.toNat := StableHlo.Predicate.toInt_eq_toNat_of_lt hb
  split <;> rename_i hc <;> simp only [BitVec.slt, hta, htb, decide_eq_true_eq] at hc <;> omega

theorem clipW_toNat (w : BitVec 32) (hw : w.toNat < 2 ^ 31) : (clipW w).toNat = min w.toNat 50000 := by
  unfold clipW
  rw [maxsi_zero w hw, minsi_toNat _ _ (by decide) hw]
  have h5 : (50000#32 : BitVec 32).toNat = 50000 := by decide
  rw [h5]
  exact Nat.min_comm _ _

theorem clipW_lt (w : BitVec 32) (hw : w.toNat < 2 ^ 31) : (clipW w).toNat < 2 ^ 31 := by
  rw [clipW_toNat w hw]; omega

theorem validW_eq_one_iff (w : BitVec 32) (hw : w.toNat < 2 ^ 31) : validW w = 1#1 ↔ w.toNat < 50000 := by
  unfold validW
  rw [StableHlo.Predicate.slt_iff_toNat (clipW_lt w hw) (by decide), clipW_toNat w hw]
  have h5 : (50000#32 : BitVec 32).toNat = 50000 := by decide
  rw [h5]
  omega

theorem safeW_toNat (w : BitVec 32) (hw : w.toNat < 2 ^ 31) : (safeW w).toNat = min w.toNat 49999 := by
  unfold safeW
  rw [minsi_toNat _ _ (clipW_lt w hw) (by decide), clipW_toNat w hw]
  have h4 : (49999#32 : BitVec 32).toNat = 49999 := by decide
  rw [h4]
  omega

theorem safeW_lt (w : BitVec 32) (hw : w.toNat < 2 ^ 31) : (safeW w).toNat < 2 ^ 31 := by
  rw [safeW_toNat w hw]; omega

/-- The negative-index wrap by the table's height 50000 leaves the row word as it is. -/
theorem safeW_wrap (w : BitVec 32) (hw : w.toNat < 2 ^ 31) :
    Scalar.select (IntOp.cmpi .slt (safeW w) 0#32) (IntOp.addi (safeW w) 50000#32) (safeW w) = safeW w := by
  unfold Scalar.select
  refine if_neg fun h => ?_
  exact Nat.not_lt_zero _ ((StableHlo.Predicate.slt_iff_toNat (safeW_lt w hw) (by decide)).mp h)

/-- The row word passes the range test 0 ≤ · ≤ 49999. -/
theorem safeW_inrange (w : BitVec 32) (hw : w.toNat < 2 ^ 31) :
    IntOp.andi (IntOp.cmpi .sge (safeW w) 0#32) (IntOp.cmpi .sle (safeW w) 49999#32) = 1#1 := by
  have h1 : IntOp.cmpi .sge (safeW w) 0#32 = 1#1 :=
    (StableHlo.Predicate.sge_iff_toNat (safeW_lt w hw) (by decide)).mpr (Nat.zero_le _)
  have h4 : (49999#32 : BitVec 32).toNat = 49999 := by decide
  have h2 : IntOp.cmpi .sle (safeW w) 49999#32 = 1#1 :=
    (StableHlo.Predicate.sle_iff_toNat (safeW_lt w hw) (by decide)).mpr (by rw [safeW_toNat w hw, h4]; omega)
  rw [h1, h2]
  decide

/-- A gather's clamp into [0, 49999] of the row word, read signed, is the slot word kept at most 49999. -/
theorem safeW_row (w : BitVec 32) (hw : w.toNat < 2 ^ 31) :
    min (safeW w).toInt.toNat (50000 - 1) = min w.toNat 49999 := by
  rw [StableHlo.Predicate.toInt_eq_toNat_of_lt (safeW_lt w hw), Int.toNat_natCast, safeW_toNat w hw]
  omega

/-- The reference's negative-index wrap by the padded table's height 50001 leaves a non-negative slot word as it is. -/
theorem ref_wrap (w : BitVec 32) (hw : w.toNat < 2 ^ 31) :
    Scalar.select (IntOp.cmpi .slt w 0#32) (IntOp.addi w 50001#32) w = w := by
  unfold Scalar.select
  refine if_neg fun h => ?_
  exact Nat.not_lt_zero _ ((StableHlo.Predicate.slt_iff_toNat hw (by decide)).mp h)

/-- The reference's gather clamps the slot word, read signed, into [0, 50000]. -/
theorem ref_row (w : BitVec 32) (hw : w.toNat < 2 ^ 31) :
    min w.toInt.toNat (50001 - 1) = min w.toNat 50000 := by
  rw [StableHlo.Predicate.toInt_eq_toNat_of_lt hw, Int.toNat_natCast]

end Cert.SlotFacts
-- ==== Proof.KSlotInv.lean ====
/-
  What holds between two neighbour slots of the kernel's host program, stated over the VALUES of five arrays: the node
  table, the bits saying which slots name a node, the rows the slots read, the column of rows of the slot about to be
  added, and the running sum.

  Before slot j is added (j slots are in the sum already):
    the table is the argument x;
    the bit of slot (n, k) is validW of the slot's word e[n, k], and the row read there is safeW of that word;
    the column about to be used holds, at n, the row safeW (e[n, j]) (nothing is said once all 32 slots are in);
    the running sum at (n, c) is (1 + eps) * x[n, c] plus what the slots k < j of node n add to column c.
  With all 32 slots in, the running sum is the combined table h of the specification.
-/
import proofs.«424014_j70935679861205_3_alg».proof.Proof.Spec
import proofs.«424014_j70935679861205_3_alg».proof.Proof.SlotFacts
import Mathlib.Algebra.BigOperators.Fin

noncomputable section

namespace Cert.KSlot

open Idealize.ShloMosaic Idealize.ShloMosaic.ValueIdx Cert.Spec

/-- The state of the neighbour sum before slot `j`: `a0` the table, `v2` the bits, `v4` the rows, `col` the column of
    rows of slot `j`, `acc` the running sum over the slots before `j`. -/
structure Inv (x : SX.Idx → EReal) (e : SE.Idx → BitVec 32) (eps : SOne.Idx → EReal) (j : ℕ)
    (a0 : SX.Idx → EReal) (v2 : SE.Idx → BitVec 1) (v4 : SE.Idx → BitVec 32)
    (col : (⟨1, ![50000]⟩ : Shape).Idx → BitVec 32) (acc : SX.Idx → EReal) : Prop where
  /-- The table is the argument. -/
  table : a0 = x
  /-- Each slot's bit is the validity bit of its word. -/
  valid : ∀ (n : Fin 50000) (k : Fin 32), v2 (ix2 n k) = SlotFacts.validW (e (ix2 n k))
  /-- Each slot's row is the row word of its word. -/
  rows : ∀ (n : Fin 50000) (k : Fin 32), v4 (ix2 n k) = SlotFacts.safeW (e (ix2 n k))
  /-- The column about to be used is slot `j`'s column of rows. -/
  column : ∀ (h : j < 32) (n : Fin 50000), col (ix1 n) = SlotFacts.safeW (e (ix2 n (⟨j, h⟩ : Fin 32)))
  /-- The running sum holds the residual and the slots before `j`. -/
  sum : ∀ (n : Fin 50000) (c : Fin 128), acc (ix2 n c)
      = (Ideal.ofBits .f32 0x3F800000#32 + eps (ix1 (0 : Fin 1))) * x (ix2 n c)
        + ∑ k ∈ Finset.range j, if h : k < 32 then nb x e n (⟨k, h⟩ : Fin 32) c else 0

/-- With all 32 slots in, the running sum is the combined table. -/
theorem Inv.harr {x : SX.Idx → EReal} {e : SE.Idx → BitVec 32} {eps : SOne.Idx → EReal}
    {a0 : SX.Idx → EReal} {v2 : SE.Idx → BitVec 1} {v4 : SE.Idx → BitVec 32}
    {col : (⟨1, ![50000]⟩ : Shape).Idx → BitVec 32} {acc : SX.Idx → EReal}
    (I : Inv x e eps 32 a0 v2 v4 col acc) : acc = Spec.harr x e eps := by
  funext i
  obtain ⟨n, c, rfl⟩ : ∃ (n : Fin 50000) (c : Fin 128), i = ix2 n c := ⟨i 0, i 1, eq_ix2 i⟩
  rw [I.sum n c, Spec.harr_ix2]
  unfold Spec.hval
  refine congrArg (fun s : EReal => (Ideal.ofBits .f32 0x3F800000#32 + eps (ix1 (0 : Fin 1))) * x (ix2 n c) + s) ?_
  rw [← Fin.sum_univ_eq_sum_range (fun k => if h : k < 32 then nb x e n (⟨k, h⟩ : Fin 32) c else 0) 32]
  exact Finset.sum_congr rfl fun k _ => dif_pos k.isLt

end Cert.KSlot

end
-- ==== Proof.KHostEnds.lean ====
/-
  The two ends of the kernel's host program. Its first three stretches, over any starting contents, leave the node
  table as it was and hold, slot by slot, the bit saying the slot names a node, the row the slot reads, the first
  slot's rows as a column, and the residual (1 + eps) x. Its last stretch hands the launch the weight in another float
  format, which at the extended reals is the weight argument itself.
-/
import proofs.«424014_j70935679861205_3_alg».proof.Proof.Gen.KernelIdeal.Frame
import proofs.«424014_j70935679861205_3_alg».proof.Proof.Spec
import proofs.«424014_j70935679861205_3_alg».proof.Proof.SlotFacts
import Idealize.ShloMosaic.Lib.Pipeline.Value

noncomputable section

namespace Cert.KHostEnds

open Cert.KernelIdeal Cert.KernelIdeal.Gen Idealize.ShloMosaic Idealize.ShloMosaic.TcCoe Idealize.ShloMosaic.ValueIdx

section Layout

variable {α : Type}

/-- Column 0 of a [50000, 32] array, sliced out as [50000, 1] and cast to [50000], read at n: the array at (n, 0). -/
theorem col0_apply (Z : S50000x32.Idx → α) (hs : S50000x32.Slices ![0, 0] S50000x1) (hc : S50000x1.ShapeCasts S50000)
    (n : Fin 50000) :
    shapeCast S50000 (extractStridedSlice S50000x1 ![0, 0] Z hs) hc (ix1 n) = Z (ix2 n (0 : Fin 32)) := by
  rw [shapeCast_apply _ hc (ix1 n) (ix2 n (0 : Fin 1)) (by
    rw [Shape.rowMajor_val_two, Shape.rowMajor_val_one]
    show n.val * 1 + 0 = n.val
    omega)]
  exact extractStridedSlice_apply _ Z hs _ (ix2 n (0 : Fin 32)) (fun a => by
    match a with
    | ⟨0, _⟩ => show n.val = 0 + n.val; omega
    | ⟨1, _⟩ => rfl)

/-- A one-element vector cast to a scalar reads the element. -/
theorem scalar_of_one (v : S1.Idx → α) (hc : S1.ShapeCasts S_) (j : S_.Idx) :
    shapeCast S_ v hc j = v (ix1 (0 : Fin 1)) :=
  shapeCast_apply v hc j (ix1 (0 : Fin 1)) (by
    rw [Shape.rowMajor_val_one]
    exact (Shape.rowMajorPi_zero _ _).symm)

end Layout

section Prologue

variable (M : Valuation τ sig (Elt Ideal))

/-- The contents after the first three stretches, from contents M. -/
local notation "X0" => StableHlo.after hostOps0_2 (StableHlo.after hostOps0_1 (StableHlo.after hostOps0 M))

open StableHlo in
/-- The node table is as it was. -/
theorem prologue_arg0 : X0 (Proc.devRef .tc main_arg0) = M (Proc.devRef .tc main_arg0) := by
  after_results

open StableHlo in
/-- The bit saying a slot names a node. -/
theorem prologue_valid (i : S50000x32.Idx) :
    (X0 (Proc.devRef .tc main_v2) : S50000x32.Idx → BitVec 1) i
      = Cert.SlotFacts.validW ((M (Proc.devRef .tc main_arg1) : S50000x32.Idx → BitVec 32) i) := by
  after_results
  simp only [TRef.ofBuf, TRef.toBuf, cast_eq]
  rfl

open StableHlo in
/-- The row a slot reads. -/
theorem prologue_rows (i : S50000x32.Idx) :
    (X0 (Proc.devRef .tc main_v4) : S50000x32.Idx → BitVec 32) i
      = Cert.SlotFacts.safeW ((M (Proc.devRef .tc main_arg1) : S50000x32.Idx → BitVec 32) i) := by
  after_results
  simp only [TRef.ofBuf, TRef.toBuf, cast_eq]
  rfl

open StableHlo in
/-- The rows the first slot reads, as a column. -/
theorem prologue_col0 (n : Fin 50000) :
    (X0 (Proc.devRef .tc main_v10) : S50000.Idx → BitVec 32) (ix1 n)
      = Cert.SlotFacts.safeW ((M (Proc.devRef .tc main_arg1) : S50000x32.Idx → BitVec 32) (ix2 n (0 : Fin 32))) := by
  after_results
  simp only [TRef.ofBuf, TRef.toBuf, cast_eq]
  refine (col0_apply _ _ _ n).trans ?_
  rfl

open StableHlo in
/-- The residual (1 + eps) x. -/
theorem prologue_resid (n : Fin 50000) (c : Fin 128) :
    (X0 (Proc.devRef .tc main_v8) : S50000x128.Idx → EReal) (ix2 n c)
      = (Ideal.ofBits .f32 0x3F800000#32 + (M (Proc.devRef .tc main_arg2) : S1.Idx → EReal) (ix1 (0 : Fin 1)))
          * (M (Proc.devRef .tc main_arg0) : S50000x128.Idx → EReal) (ix2 n c) := by
  after_results
  refine congrArg (· * (M (Proc.devRef .tc main_arg0) : S50000x128.Idx → EReal) (ix2 n c)) ?_
  refine congrArg (Ideal.ofBits .f32 0x3F800000#32 + ·) ?_
  exact scalar_of_one (M (Proc.devRef .tc main_arg2) : S1.Idx → EReal) _ _

end Prologue

section Weight

/-- Every stretch of the host program but the last, in order. -/
def stretchesBeforeLast : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129]

/-- The host program is its stretches before the last, then the last. -/
theorem stretches_split :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130] : List (HloOp τ sig (Elt Ideal)))
      = List.flatten stretchesBeforeLast ++ hostOps0_130 := by
  show List.flatten (stretchesBeforeLast ++ [hostOps0_130]) = _
  rw [List.flatten_append, List.flatten_singleton]

open StableHlo in
/-- The last stretch hands on the weight it finds, in another float format: at the extended reals, the weight. -/
theorem last_stretch_weight (W : Valuation τ sig (Elt Ideal)) :
    (StableHlo.after hostOps0_130 W (Proc.devRef .tc main_v201) : S128x128.Idx → EReal)
      = StableHlo.after hostOps0_130 W (Proc.devRef .tc main_arg3) := by
  after_results
  rfl

/-- The weight the launch's second window stages is the weight argument. -/
theorem V_w (m : (ℓ : Loc nD τ sig) → Buf (Elt Ideal) ℓ) (c : Dev nD) :
    (V m c main_v201 : S128x128.Idx → EReal) = m ((c : Thread nD τ).loc main_arg3) := by
  have h3 : (V m c main_arg3 : S128x128.Idx → EReal) = m ((c : Thread nD τ).loc main_arg3) := V_main_arg3 m c
  unfold V at h3 ⊢
  rw [stretches_split, StableHlo.after_append] at h3 ⊢
  rw [← h3]
  exact last_stretch_weight _

end Weight

end Cert.KHostEnds

end
-- ==== Proof.LibGatherRows.lean ====
/-
  A gather of whole rows of a rank-2 table, read at an index.

  What `x[idx]` of a table `x : [N, C]` at a column of integers `idx : [R]` is as a gather (StableHLO's `gather`, the
  function `Host.gather`): offset_dims `[1]`, collapsed_slice_dims `[0]`, start_index_map `[0]`, index_vector_dim `1` and
  slice_sizes `[1, C]` over the indices as `[R, 1]`. Result element `(n, c)` is the table at row `idx[n, 0]` and column
  `c`, the start word read as a signed integer and clamped into `[0, N − 1]`, as the gather clamps every start index so
  that the slice fits: on the row axis the slice has one row, so the start may be any row; on the column axis the slice
  is the whole row, the start index map does not name it, and the offset coordinate is the result's column.
-/
import Idealize.ShloMosaic.Lib.ValueIdx

noncomputable section

namespace Cert.Lib.GatherRows

open Idealize.ShloMosaic Idealize.ShloMosaic.ValueIdx

variable {α : Type}

/-- The dimension numbers of a gather of whole rows: an operand `[N, C]`, start indices `[R, 1]` and a result `[R, C]`;
    the row axis is collapsed and is the one the start index names, the column axis is the result's offset axis, and a
    slice is one row. Their conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index that result index `(n, c)` reads its one start word at: `(n, 0)`, whatever the column. -/
theorem rowDims_siIdx {N R C : Nat}
    (wf : GatherDims.WF ⟨2, ![N, C]⟩ ⟨2, ![R, 1]⟩ ⟨2, ![R, C]⟩ [1] [0] [] [0] [] 1 ![1, C]) (n : Fin R) (c : Fin C) :
    (rowDims N R C wf).siIdx (ix2 n c) ⟨List.idxOf (0 : Fin 2) (rowDims N R C wf).startIndexMap,
        List.idxOf_lt_length_iff.2 (List.mem_singleton.mpr rfl)⟩ = ix2 n (0 : Fin 1) := by
  funext b
  refine Fin.ext ?_
  match b with
  | ⟨0, _⟩ => rfl
  | ⟨1, _⟩ => rfl

/-- THE GATHER OF ROWS READ AT `(n, c)`: the table at the row of the start word `idx[n, 0]`, read signed and clamped into
    `[0, N − 1]`, and at column `c`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (n : Fin R) (c : Fin C) :
    Host.gather (rowDims N R C wf) x idx (ix2 n c)
      = x (ix2 ⟨min (idx (ix2 n (0 : Fin 1))).toInt.toNat (N - 1), by omega⟩ c) := by
  unfold Host.gather
  congr 1
  funext a
  refine Fin.ext ?_
  have h10 : ¬ (1 : Fin 2) = 0 := by decide
  match a with
  | ⟨0, _⟩ =>
    -- the row axis: the clamped start word, no batching coordinate, no offset (the axis is collapsed)
    show (rowDims N R C wf).start (ix2 n c) idx 0 + (rowDims N R C wf).batchCoord (ix2 n c) 0
      + (rowDims N R C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl),
      rowDims_siIdx wf n c]
    rfl
  | ⟨1, _⟩ =>
    -- the column axis: no start (the start index map does not name it), no batching coordinate, the offset `c`
    show (rowDims N R C wf).start (ix2 n c) idx 1 + (rowDims N R C wf).batchCoord (ix2 n c) 1
      + (rowDims N R C wf).offCoord (ix2 n c) 1 = c.val
    rw [GatherDims.batchCoord_eq_zero _ _ _ List.not_mem_nil]
    unfold GatherDims.start
    rw [dif_neg (show ¬ (1 : Fin 2) ∈ (rowDims N R C wf).startIndexMap from fun h => h10 (List.mem_singleton.mp h))]
    simp only [Nat.add_zero, Nat.zero_add]
    unfold GatherDims.offCoord
    rw [dif_pos (show (1 : Fin 2) ∈ (rowDims N R C wf).sKept from
      (GatherDims.mem_sKept _ _).mpr ⟨fun h => h10 (List.mem_singleton.mp h), List.not_mem_nil⟩)]
    rfl

end Cert.Lib.GatherRows

end
-- ==== Proof.LibAndAll.lean ====
import Idealize.ShloMosaic.PureOps.Reduce

/-!
# A conjunction over an axis that holds everywhere

`Lib/ReduceAll.lean` of the library reads a `stablehlo.reduce` with body `and` from its result to its operand: if
the result is true at `j`, every operand element that drops to `j` is true.  This file has the converse for a
reduction that starts from `true`: if EVERY element of the operand is true, the result is true at every index,
whatever the axes reduced.
-/

namespace Idealize.ShloMosaic

namespace IntOp

/-- A left fold of `and` from `true` over elements that are all `true` is `true`. -/
theorem foldl_andi_of_all {ι : Type} (f : ι → BitVec 1) :
    ∀ l : List ι, (∀ n ∈ l, f n = 1#1) → l.foldl (fun r n => andi r (f n)) 1#1 = 1#1
  | [], _ => rfl
  | a :: l, h => by
    have e : andi 1#1 (f a) = 1#1 := by rw [h a (List.mem_cons_self ..)]; decide
    rw [List.foldl_cons, e]
    exact foldl_andi_of_all f l fun n hn => h n (List.mem_cons_of_mem _ hn)

end IntOp

namespace Host

variable {s t u : Shape} {axes : List (Fin s.rank)}

/-- A `stablehlo.reduce` with body `and`, started from `true`, of an operand that is `true` everywhere, is `true`
    at every index of the result. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact IntOp.foldl_andi_of_all x _ fun n _ => hx n

end Host

end Idealize.ShloMosaic
-- ==== Proof.KSlotMath.lean ====
/-
  One neighbour slot of the kernel's host program as a function of VALUES, and what it does to the neighbour sum.

  A slot's column of row words `col : [50000]` (each word the row safeW of the slot word, see SlotFacts) goes through
  the table lookup: a negative word is wrapped by the table's height (never taken here), the words are laid out as
  `[50000, 1]`, the range test 0 ≤ · ≤ 49999 is reduced with "and" along the unit axis (always true here), the table's
  rows are gathered, and not-a-number stands where the test fails (nowhere). The gathered row n is the table's row
  min (w n) 49999 for the slot word w n. The slot's validity bits (a column of the bits array) then keep that row where
  the slot names a node and put zero elsewhere, which is what the specification's `nb` adds, and the result is added
  to the running sum. The next slot's column is the corresponding column of the rows array, cut and flattened.

  All of it is stated once, for a slot number that is a variable; the per-slot modules only read the kernel's host
  operations as these functions.
-/
import proofs.«424014_j70935679861205_3_alg».proof.Proof.Gen.KernelIdeal
import proofs.«424014_j70935679861205_3_alg».proof.Proof.KSlotInv
import proofs.«424014_j70935679861205_3_alg».proof.Proof.LibGatherRows
import proofs.«424014_j70935679861205_3_alg».proof.Proof.LibAndAll
import Idealize.ShloMosaic.Lib.ValueLayout
import Idealize.ShloMosaic.Lib.IdealHost

noncomputable section

namespace Cert.KSlot

open Cert.KernelIdeal Cert.KernelIdeal.Gen Idealize.ShloMosaic Idealize.ShloMosaic.ValueIdx Cert.Spec

/-! ## The slot's host operations as functions of values -/

/-- The start indices of the lookup: the column of row words, a negative word wrapped by the table's height, as a
    `[50000, 1]` array. -/
def wrapIdx (col : IVec S50000 32) : IVec S50000x1 32 :=
  broadcastInDim S50000x1 ![0] bcast_S50000_S50000x1_0
    (select (cmpi .slt col (broadcastInDim S50000 ![] bcast_S_S50000 (constantI S_ 32 0#32)))
      (addi col (broadcastInDim S50000 ![] bcast_S_S50000 (constantI S_ 32 50000#32))) col)

/-- The range test of the lookup: 0 ≤ start index ≤ 49999, elementwise. -/
def inRange (col : IVec S50000 32) : IVec S50000x1 1 :=
  andi (cmpi .sge (wrapIdx col) (broadcastInDim S50000x1 ![] bcast_S_S50000x1 (constantI S_ 32 0#32)))
    (cmpi .sle (wrapIdx col) (broadcastInDim S50000x1 ![0, 1] bcast_S1x1_S50000x1_0_1
      (broadcastInDim S1x1 ![1] bcast_S1_S1x1_1 (constantI S1 32 49999#32))))

/-- The table's rows taken at a column of row words: the gathered rows where the range test holds, not-a-number
    elsewhere. -/
def takeRows (x : FVec Ideal S50000x128 .f32) (col : IVec S50000 32) : FVec Ideal S50000x128 .f32 :=
  select
    (broadcastInDim S50000x128 ![0] bcast_S50000_S50000x128_0
      (Host.reduce IntOp.andi (inRange col) (constantI S_ 1 1#1) reducesTo_S50000x1_S50000_d1 h_S_))
    (Host.gather gather_S50000x128_S50000x1_S50000x128_1_0_n_n_0_1_1128 x (wrapIdx col))
    (broadcastInDim S50000x128 ![] bcast_S_S50000x128 (constant (F := Ideal) S_ .f32 0x7FC00000#32))

/-- One slot added to the running sum: the taken rows kept where the slot's bit (column `o` of the bits) is set, zero
    elsewhere. -/
def slotSum (o : ℕ) (hs : S50000x32.Slices ![0, o] S50000x1) (acc x : FVec Ideal S50000x128 .f32)
    (v2 : IVec S50000x32 1) (col : IVec S50000 32) : FVec Ideal S50000x128 .f32 :=
  addf acc
    (select
      (broadcastInDim S50000x128 ![0, 1] bcast_S50000x1_S50000x128_0_1 (extractStridedSlice S50000x1 ![0, o] v2 hs))
      (takeRows x col)
      (broadcastInDim S50000x128 ![] bcast_S_S50000x128 (constant (F := Ideal) S_ .f32 0x00000000#32)))

/-- A slot's column of row words: column `o` of the rows, cut and flattened. -/
def nextCol (o : ℕ) (hs : S50000x32.Slices ![0, o] S50000x1) (v4 : IVec S50000x32 32) : IVec S50000 32 :=
  shapeCast S50000 (extractStridedSlice S50000x1 ![0, o] v4 hs) shapeCasts_S50000x1_S50000

/-! ## Read at an index -/

/-- The start index of row n is the row word itself: a row word is never negative, so the wrap leaves it. -/
theorem wrapIdx_apply (col : IVec S50000 32) (w : Fin 50000 → BitVec 32) (hw : ∀ n, (w n).toNat < 2 ^ 31)
    (hcol : ∀ n : Fin 50000, col (ix1 n) = SlotFacts.safeW (w n)) (n : Fin 50000) (q : Fin 1) :
    wrapIdx col (ix2 n q) = SlotFacts.safeW (w n) := by
  unfold wrapIdx
  refine (broadcastInDim_apply _ _ _ (ix2 n q) (ix1 n) (fun a => ?_)).trans ?_
  · match a with
    | ⟨0, _⟩ => rfl
  · show Scalar.select (IntOp.cmpi .slt (col (ix1 n)) 0#32) (IntOp.addi (col (ix1 n)) 50000#32) (col (ix1 n)) = _
    rw [hcol n]
    exact SlotFacts.safeW_wrap (w n) (hw n)

/-- The range test holds at every start index. -/
theorem inRange_apply (col : IVec S50000 32) (w : Fin 50000 → BitVec 32) (hw : ∀ n, (w n).toNat < 2 ^ 31)
    (hcol : ∀ n : Fin 50000, col (ix1 n) = SlotFacts.safeW (w n)) (i : S50000x1.Idx) : inRange col i = 1#1 := by
  obtain ⟨n, q, rfl⟩ : ∃ (n : Fin 50000) (q : Fin 1), i = ix2 n q := ⟨i 0, i 1, eq_ix2 i⟩
  show IntOp.andi (IntOp.cmpi .sge (wrapIdx col (ix2 n q)) 0#32) (IntOp.cmpi .sle (wrapIdx col (ix2 n q)) 49999#32) = 1#1
  rw [wrapIdx_apply col w hw hcol n q]
  exact SlotFacts.safeW_inrange (w n) (hw n)

/-- The lookup reads, at (n, c), the table at row min (w n) 49999 and column c. -/
theorem takeRows_apply (x : FVec Ideal S50000x128 .f32) (col : IVec S50000 32) (w : Fin 50000 → BitVec 32)
    (hw : ∀ n, (w n).toNat < 2 ^ 31) (hcol : ∀ n : Fin 50000, col (ix1 n) = SlotFacts.safeW (w n))
    (n : Fin 50000) (c : Fin 128) :
    takeRows x col (ix2 n c) = x (ix2 (⟨min (w n).toNat 49999, by omega⟩ : Fin 50000) c) := by
  unfold takeRows
  rw [select_apply]
  have hbit : broadcastInDim S50000x128 ![0] bcast_S50000_S50000x128_0
      (Host.reduce IntOp.andi (inRange col) (constantI S_ 1 1#1) reducesTo_S50000x1_S50000_d1 h_S_) (ix2 n c) = 1#1 := by
    refine (broadcastInDim_apply _ _ _ (ix2 n c) (ix1 n) (fun a => ?_)).trans ?_
    · match a with
      | ⟨0, _⟩ => rfl
    · exact Host.reduce_andi_of_all _ _ _ _ rfl (inRange_apply col w hw hcol) _
  rw [hbit, select_one]
  refine (Cert.Lib.GatherRows.gather_row_apply (N := 50000) (R := 50000) (C := 128) (by decide)
    gather_S50000x128_S50000x1_S50000x128_1_0_n_n_0_1_1128_wf x (wrapIdx col) n c).trans ?_
  refine congrArg (fun r : Fin 50000 => x (ix2 r c)) (Fin.ext ?_)
  show min (wrapIdx col (ix2 n (0 : Fin 1))).toInt.toNat (50000 - 1) = min (w n).toNat 49999
  rw [wrapIdx_apply col w hw hcol n 0]
  exact SlotFacts.safeW_row (w n) (hw n)

/-- One slot added, read at (n, c): the running sum plus the table's row the slot word names, or nothing when the
    word names no node. -/
theorem slotSum_apply (o : ℕ) (hs : S50000x32.Slices ![0, o] S50000x1) (k : Fin 32) (hk : k.val = o)
    (acc x : FVec Ideal S50000x128 .f32) (v2 : IVec S50000x32 1) (col : IVec S50000 32)
    (w : Fin 50000 → BitVec 32) (hw : ∀ n, (w n).toNat < 2 ^ 31)
    (hcol : ∀ n : Fin 50000, col (ix1 n) = SlotFacts.safeW (w n))
    (hv : ∀ n : Fin 50000, v2 (ix2 n k) = SlotFacts.validW (w n)) (n : Fin 50000) (c : Fin 128) :
    slotSum o hs acc x v2 col (ix2 n c)
      = acc (ix2 n c) + if h : (w n).toNat < 50000 then x (ix2 (⟨(w n).toNat, h⟩ : Fin 50000) c) else 0 := by
  unfold slotSum
  rw [addf_apply, select_apply, takeRows_apply x col w hw hcol n c]
  have hbit : broadcastInDim S50000x128 ![0, 1] bcast_S50000x1_S50000x128_0_1
      (extractStridedSlice S50000x1 ![0, o] v2 hs) (ix2 n c) = SlotFacts.validW (w n) := by
    refine (broadcastInDim_apply _ _ _ (ix2 n c) (ix2 n (0 : Fin 1)) (fun a => ?_)).trans ?_
    · match a with
      | ⟨0, _⟩ => rfl
      | ⟨1, _⟩ => rfl
    · exact (slice2_axis1_apply o v2 hs n (0 : Fin 1) k (by simpa using hk)).trans (hv n)
  rw [hbit]
  refine congrArg (acc (ix2 n c) + ·) ?_
  by_cases h : (w n).toNat < 50000
  · rw [(SlotFacts.validW_eq_one_iff (w n) (hw n)).mpr h, select_one, dif_pos h]
    exact congrArg (fun r : Fin 50000 => x (ix2 r c)) (Fin.ext (by show min (w n).toNat 49999 = (w n).toNat; omega))
  · rw [eq_zero_of_ne_one (fun h1 => h ((SlotFacts.validW_eq_one_iff (w n) (hw n)).mp h1)), select_zero, dif_neg h]
    exact Ideal.ofBits_zero_f32

/-- The column of row words of slot k, read at n: the rows array at (n, k). -/
theorem nextCol_apply (o : ℕ) (hs : S50000x32.Slices ![0, o] S50000x1) (k : Fin 32) (hk : k.val = o)
    (v4 : IVec S50000x32 32) (n : Fin 50000) : nextCol o hs v4 (ix1 n) = v4 (ix2 n k) := by
  unfold nextCol
  refine (shapeCast_apply _ _ (ix1 n) (ix2 n (0 : Fin 1)) ?_).trans
    (slice2_axis1_apply o v4 hs n (0 : Fin 1) k (by simpa using hk))
  rw [Shape.rowMajor_val_two, Shape.rowMajor_val_one]
  show n.val * 1 + 0 = n.val
  omega

/-! ## The invariant across one slot -/

/-- Adding slot j carries the invariant from j to j + 1: the bits, the rows and the table stay, the running sum takes
    slot j's term, and the column handed on is slot (j + 1)'s column of the rows. -/
theorem Inv.step {x : SX.Idx → EReal} {e : SE.Idx → BitVec 32} {eps : SOne.Idx → EReal} {j : ℕ}
    {a0 : SX.Idx → EReal} {v2 : SE.Idx → BitVec 1} {v4 : SE.Idx → BitVec 32}
    {col : (⟨1, ![50000]⟩ : Shape).Idx → BitVec 32} {acc : SX.Idx → EReal}
    (I : Inv x e eps j a0 v2 v4 col acc) (hj : j < 32)
    (hnn : ∀ (n : Fin 50000) (k : Fin 32), (e (ix2 n k)).toNat < 2 ^ 31)
    (hs : S50000x32.Slices ![0, j] S50000x1) (col' : (⟨1, ![50000]⟩ : Shape).Idx → BitVec 32)
    (hcol' : ∀ (h : j + 1 < 32) (n : Fin 50000), col' (ix1 n) = v4 (ix2 n (⟨j + 1, h⟩ : Fin 32))) :
    Inv x e eps (j + 1) a0 v2 v4 col' (slotSum j hs acc a0 v2 col) where
  table := I.table
  valid := I.valid
  rows := I.rows
  column := fun h n => (hcol' h n).trans (I.rows n ⟨j + 1, h⟩)
  sum := fun n c => by
    rw [slotSum_apply j hs ⟨j, hj⟩ rfl acc a0 v2 col (fun n => e (ix2 n (⟨j, hj⟩ : Fin 32)))
      (fun n => hnn n ⟨j, hj⟩) (I.column hj) (fun n => I.valid n ⟨j, hj⟩) n c, I.sum n c, Finset.sum_range_succ,
      dif_pos hj, I.table, add_assoc]
    rfl

end Cert.KSlot

end
-- ==== Proof.KSlotStep00.lean ====
/-
  Neighbour slot 0 of the kernel's host program. The slot's four stretches of host operations read the table's rows that the
  slot's column of row words names, keep each row only where the slot names a node (zero elsewhere), add the result to
  the running sum and, while a next slot exists, cut its column of row words: they carry the invariant of the
  neighbour sum from before slot 0 to before slot 1.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step00

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_6 (after hostOps0_5 (after hostOps0_4 (after hostOps0_3 X))) (Proc.devRef .tc main_arg0)
      = X (Proc.devRef .tc main_arg0) := by
  after_results_simp

/-- The slot's stretches do not write the validity bits. -/
theorem bits_kept (X : Valuation τ sig (Elt Ideal)) :
    after hostOps0_6 (after hostOps0_5 (after hostOps0_4 (after hostOps0_3 X))) (Proc.devRef .tc main_v2)
      = X (Proc.devRef .tc main_v2) := by
  after_results_simp

/-- The slot's stretches do not write the rows. -/
theorem rows_kept (X : Valuation τ sig (Elt Ideal)) :
    after hostOps0_6 (after hostOps0_5 (after hostOps0_4 (after hostOps0_3 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_6 (after hostOps0_5 (after hostOps0_4 (after hostOps0_3 X))) (Proc.devRef .tc main_v14)
      = slotSum (0 : ℕ) slices_S50000x32_S50000x1_0_0 (X (Proc.devRef .tc main_v8)) (X (Proc.devRef .tc main_arg0))
          (X (Proc.devRef .tc main_v2)) (X (Proc.devRef .tc main_v10)) := by
  after_results_simp
  simp only [TRef.ofBuf, TRef.toBuf, cast_eq]
  rfl

/-- The next slot's column is `nextCol` of the rows. -/
theorem next_column (X : Valuation τ sig (Elt Ideal)) :
    after hostOps0_6 (after hostOps0_5 (after hostOps0_4 (after hostOps0_3 X))) (Proc.devRef .tc main_v16)
      = nextCol (1 : ℕ) slices_S50000x32_S50000x1_0_1 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (0 : ℕ) (X (Proc.devRef .tc main_arg0)) (X (Proc.devRef .tc main_v2)) (X (Proc.devRef .tc main_v4))
      (X (Proc.devRef .tc main_v10)) (X (Proc.devRef .tc main_v8))) :
    Inv x e eps (1 : ℕ)
      (after hostOps0_6 (after hostOps0_5 (after hostOps0_4 (after hostOps0_3 X))) (Proc.devRef .tc main_arg0))
      (after hostOps0_6 (after hostOps0_5 (after hostOps0_4 (after hostOps0_3 X))) (Proc.devRef .tc main_v2))
      (after hostOps0_6 (after hostOps0_5 (after hostOps0_4 (after hostOps0_3 X))) (Proc.devRef .tc main_v4))
      (after hostOps0_6 (after hostOps0_5 (after hostOps0_4 (after hostOps0_3 X))) (Proc.devRef .tc main_v16))
      (after hostOps0_6 (after hostOps0_5 (after hostOps0_4 (after hostOps0_3 X))) (Proc.devRef .tc main_v14)) := by
  rw [table_kept X, bits_kept X, rows_kept X, sum_next X]
  refine I.step (by decide) hnn slices_S50000x32_S50000x1_0_0 _ (fun h n => ?_)
  exact (congrFun (next_column X) (ix1 n)).trans (nextCol_apply (1 : ℕ) slices_S50000x32_S50000x1_0_1 ⟨(1 : ℕ), h⟩ rfl _ n)

end Cert.KSlot.Step00

end
-- ==== Proof.KSlotStep01.lean ====
/-
  Neighbour slot 1 of the kernel's host program. The slot's four stretches of host operations read the table's rows that the
  slot's column of row words names, keep each row only where the slot names a node (zero elsewhere), add the result to
  the running sum and, while a next slot exists, cut its column of row words: they carry the invariant of the
  neighbour sum from before slot 1 to before slot 2.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step01

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_10 (after hostOps0_9 (after hostOps0_8 (after hostOps0_7 X))) (Proc.devRef .tc main_arg0)
      = X (Proc.devRef .tc main_arg0) := by
  after_results_simp

/-- The slot's stretches do not write the validity bits. -/
theorem bits_kept (X : Valuation τ sig (Elt Ideal)) :
    after hostOps0_10 (after hostOps0_9 (after hostOps0_8 (after hostOps0_7 X))) (Proc.devRef .tc main_v2)
      = X (Proc.devRef .tc main_v2) := by
  after_results_simp

/-- The slot's stretches do not write the rows. -/
theorem rows_kept (X : Valuation τ sig (Elt Ideal)) :
    after hostOps0_10 (after hostOps0_9 (after hostOps0_8 (after hostOps0_7 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_10 (after hostOps0_9 (after hostOps0_8 (after hostOps0_7 X))) (Proc.devRef .tc main_v20)
      = slotSum (1 : ℕ) slices_S50000x32_S50000x1_0_1 (X (Proc.devRef .tc main_v14)) (X (Proc.devRef .tc main_arg0))
          (X (Proc.devRef .tc main_v2)) (X (Proc.devRef .tc main_v16)) := by
  after_results_simp
  simp only [TRef.ofBuf, TRef.toBuf, cast_eq]
  rfl

/-- The next slot's column is `nextCol` of the rows. -/
theorem next_column (X : Valuation τ sig (Elt Ideal)) :
    after hostOps0_10 (after hostOps0_9 (after hostOps0_8 (after hostOps0_7 X))) (Proc.devRef .tc main_v22)
      = nextCol (2 : ℕ) slices_S50000x32_S50000x1_0_2 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (1 : ℕ) (X (Proc.devRef .tc main_arg0)) (X (Proc.devRef .tc main_v2)) (X (Proc.devRef .tc main_v4))
      (X (Proc.devRef .tc main_v16)) (X (Proc.devRef .tc main_v14))) :
    Inv x e eps (2 : ℕ)
      (after hostOps0_10 (after hostOps0_9 (after hostOps0_8 (after hostOps0_7 X))) (Proc.devRef .tc main_arg0))
      (after hostOps0_10 (after hostOps0_9 (after hostOps0_8 (after hostOps0_7 X))) (Proc.devRef .tc main_v2))
      (after hostOps0_10 (after hostOps0_9 (after hostOps0_8 (after hostOps0_7 X))) (Proc.devRef .tc main_v4))
      (after hostOps0_10 (after hostOps0_9 (after hostOps0_8 (after hostOps0_7 X))) (Proc.devRef .tc main_v22))
      (after hostOps0_10 (after hostOps0_9 (after hostOps0_8 (after hostOps0_7 X))) (Proc.devRef .tc main_v20)) := by
  rw [table_kept X, bits_kept X, rows_kept X, sum_next X]
  refine I.step (by decide) hnn slices_S50000x32_S50000x1_0_1 _ (fun h n => ?_)
  exact (congrFun (next_column X) (ix1 n)).trans (nextCol_apply (2 : ℕ) slices_S50000x32_S50000x1_0_2 ⟨(2 : ℕ), h⟩ rfl _ n)

end Cert.KSlot.Step01

end
-- ==== Proof.KSlotStep02.lean ====
/-
  Neighbour slot 2 of the kernel's host program. The slot's four stretches of host operations read the table's rows that the
  slot's column of row words names, keep each row only where the slot names a node (zero elsewhere), add the result to
  the running sum and, while a next slot exists, cut its column of row words: they carry the invariant of the
  neighbour sum from before slot 2 to before slot 3.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step02

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_14 (after hostOps0_13 (after hostOps0_12 (after hostOps0_11 X))) (Proc.devRef .tc main_arg0)
      = X (Proc.devRef .tc main_arg0) := by
  after_results_simp

/-- The slot's stretches do not write the validity bits. -/
theorem bits_kept (X : Valuation τ sig (Elt Ideal)) :
    after hostOps0_14 (after hostOps0_13 (after hostOps0_12 (after hostOps0_11 X))) (Proc.devRef .tc main_v2)
      = X (Proc.devRef .tc main_v2) := by
  after_results_simp

/-- The slot's stretches do not write the rows. -/
theorem rows_kept (X : Valuation τ sig (Elt Ideal)) :
    after hostOps0_14 (after hostOps0_13 (after hostOps0_12 (after hostOps0_11 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_14 (after hostOps0_13 (after hostOps0_12 (after hostOps0_11 X))) (Proc.devRef .tc main_v26)
      = slotSum (2 : ℕ) slices_S50000x32_S50000x1_0_2 (X (Proc.devRef .tc main_v20)) (X (Proc.devRef .tc main_arg0))
          (X (Proc.devRef .tc main_v2)) (X (Proc.devRef .tc main_v22)) := by
  after_results_simp
  simp only [TRef.ofBuf, TRef.toBuf, cast_eq]
  rfl

/-- The next slot's column is `nextCol` of the rows. -/
theorem next_column (X : Valuation τ sig (Elt Ideal)) :
    after hostOps0_14 (after hostOps0_13 (after hostOps0_12 (after hostOps0_11 X))) (Proc.devRef .tc main_v28)
      = nextCol (3 : ℕ) slices_S50000x32_S50000x1_0_3 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (2 : ℕ) (X (Proc.devRef .tc main_arg0)) (X (Proc.devRef .tc main_v2)) (X (Proc.devRef .tc main_v4))
      (X (Proc.devRef .tc main_v22)) (X (Proc.devRef .tc main_v20))) :
    Inv x e eps (3 : ℕ)
      (after hostOps0_14 (after hostOps0_13 (after hostOps0_12 (after hostOps0_11 X))) (Proc.devRef .tc main_arg0))
      (after hostOps0_14 (after hostOps0_13 (after hostOps0_12 (after hostOps0_11 X))) (Proc.devRef .tc main_v2))
      (after hostOps0_14 (after hostOps0_13 (after hostOps0_12 (after hostOps0_11 X))) (Proc.devRef .tc main_v4))
      (after hostOps0_14 (after hostOps0_13 (after hostOps0_12 (after hostOps0_11 X))) (Proc.devRef .tc main_v28))
      (after hostOps0_14 (after hostOps0_13 (after hostOps0_12 (after hostOps0_11 X))) (Proc.devRef .tc main_v26)) := by
  rw [table_kept X, bits_kept X, rows_kept X, sum_next X]
  refine I.step (by decide) hnn slices_S50000x32_S50000x1_0_2 _ (fun h n => ?_)
  exact (congrFun (next_column X) (ix1 n)).trans (nextCol_apply (3 : ℕ) slices_S50000x32_S50000x1_0_3 ⟨(3 : ℕ), h⟩ rfl _ n)

end Cert.KSlot.Step02

end
-- ==== Proof.KSlotStep03.lean ====
/-
  Neighbour slot 3 of the kernel's host program. The slot's four stretches of host operations read the table's rows that the
  slot's column of row words names, keep each row only where the slot names a node (zero elsewhere), add the result to
  the running sum and, while a next slot exists, cut its column of row words: they carry the invariant of the
  neighbour sum from before slot 3 to before slot 4.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step03

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_18 (after hostOps0_17 (after hostOps0_16 (after hostOps0_15 X))) (Proc.devRef .tc main_arg0)
      = X (Proc.devRef .tc main_arg0) := by
  after_results_simp

/-- The slot's stretches do not write the validity bits. -/
theorem bits_kept (X : Valuation τ sig (Elt Ideal)) :
    after hostOps0_18 (after hostOps0_17 (after hostOps0_16 (after hostOps0_15 X))) (Proc.devRef .tc main_v2)
      = X (Proc.devRef .tc main_v2) := by
  after_results_simp

/-- The slot's stretches do not write the rows. -/
theorem rows_kept (X : Valuation τ sig (Elt Ideal)) :
    after hostOps0_18 (after hostOps0_17 (after hostOps0_16 (after hostOps0_15 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_18 (after hostOps0_17 (after hostOps0_16 (after hostOps0_15 X))) (Proc.devRef .tc main_v32)
      = slotSum (3 : ℕ) slices_S50000x32_S50000x1_0_3 (X (Proc.devRef .tc main_v26)) (X (Proc.devRef .tc main_arg0))
          (X (Proc.devRef .tc main_v2)) (X (Proc.devRef .tc main_v28)) := by
  after_results_simp
  simp only [TRef.ofBuf, TRef.toBuf, cast_eq]
  rfl

/-- The next slot's column is `nextCol` of the rows. -/
theorem next_column (X : Valuation τ sig (Elt Ideal)) :
    after hostOps0_18 (after hostOps0_17 (after hostOps0_16 (after hostOps0_15 X))) (Proc.devRef .tc main_v34)
      = nextCol (4 : ℕ) slices_S50000x32_S50000x1_0_4 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (3 : ℕ) (X (Proc.devRef .tc main_arg0)) (X (Proc.devRef .tc main_v2)) (X (Proc.devRef .tc main_v4))
      (X (Proc.devRef .tc main_v28)) (X (Proc.devRef .tc main_v26))) :
    Inv x e eps (4 : ℕ)
      (after hostOps0_18 (after hostOps0_17 (after hostOps0_16 (after hostOps0_15 X))) (Proc.devRef .tc main_arg0))
      (after hostOps0_18 (after hostOps0_17 (after hostOps0_16 (after hostOps0_15 X))) (Proc.devRef .tc main_v2))
      (after hostOps0_18 (after hostOps0_17 (after hostOps0_16 (after hostOps0_15 X))) (Proc.devRef .tc main_v4))
      (after hostOps0_18 (after hostOps0_17 (after hostOps0_16 (after hostOps0_15 X))) (Proc.devRef .tc main_v34))
      (after hostOps0_18 (after hostOps0_17 (after hostOps0_16 (after hostOps0_15 X))) (Proc.devRef .tc main_v32)) := by
  rw [table_kept X, bits_kept X, rows_kept X, sum_next X]
  refine I.step (by decide) hnn slices_S50000x32_S50000x1_0_3 _ (fun h n => ?_)
  exact (congrFun (next_column X) (ix1 n)).trans (nextCol_apply (4 : ℕ) slices_S50000x32_S50000x1_0_4 ⟨(4 : ℕ), h⟩ rfl _ n)

end Cert.KSlot.Step03

end
-- ==== Proof.KSlotStep04.lean ====
/-
  Neighbour slot 4 of the kernel's host program. The slot's four stretches of host operations read the table's rows that the
  slot's column of row words names, keep each row only where the slot names a node (zero elsewhere), add the result to
  the running sum and, while a next slot exists, cut its column of row words: they carry the invariant of the
  neighbour sum from before slot 4 to before slot 5.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step04

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_22 (after hostOps0_21 (after hostOps0_20 (after hostOps0_19 X))) (Proc.devRef .tc main_arg0)
      = X (Proc.devRef .tc main_arg0) := by
  after_results_simp

/-- The slot's stretches do not write the validity bits. -/
theorem bits_kept (X : Valuation τ sig (Elt Ideal)) :
    after hostOps0_22 (after hostOps0_21 (after hostOps0_20 (after hostOps0_19 X))) (Proc.devRef .tc main_v2)
      = X (Proc.devRef .tc main_v2) := by
  after_results_simp

/-- The slot's stretches do not write the rows. -/
theorem rows_kept (X : Valuation τ sig (Elt Ideal)) :
    after hostOps0_22 (after hostOps0_21 (after hostOps0_20 (after hostOps0_19 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_22 (after hostOps0_21 (after hostOps0_20 (after hostOps0_19 X))) (Proc.devRef .tc main_v38)
      = slotSum (4 : ℕ) slices_S50000x32_S50000x1_0_4 (X (Proc.devRef .tc main_v32)) (X (Proc.devRef .tc main_arg0))
          (X (Proc.devRef .tc main_v2)) (X (Proc.devRef .tc main_v34)) := by
  after_results_simp
  simp only [TRef.ofBuf, TRef.toBuf, cast_eq]
  rfl

/-- The next slot's column is `nextCol` of the rows. -/
theorem next_column (X : Valuation τ sig (Elt Ideal)) :
    after hostOps0_22 (after hostOps0_21 (after hostOps0_20 (after hostOps0_19 X))) (Proc.devRef .tc main_v40)
      = nextCol (5 : ℕ) slices_S50000x32_S50000x1_0_5 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (4 : ℕ) (X (Proc.devRef .tc main_arg0)) (X (Proc.devRef .tc main_v2)) (X (Proc.devRef .tc main_v4))
      (X (Proc.devRef .tc main_v34)) (X (Proc.devRef .tc main_v32))) :
    Inv x e eps (5 : ℕ)
      (after hostOps0_22 (after hostOps0_21 (after hostOps0_20 (after hostOps0_19 X))) (Proc.devRef .tc main_arg0))
      (after hostOps0_22 (after hostOps0_21 (after hostOps0_20 (after hostOps0_19 X))) (Proc.devRef .tc main_v2))
      (after hostOps0_22 (after hostOps0_21 (after hostOps0_20 (after hostOps0_19 X))) (Proc.devRef .tc main_v4))
      (after hostOps0_22 (after hostOps0_21 (after hostOps0_20 (after hostOps0_19 X))) (Proc.devRef .tc main_v40))
      (after hostOps0_22 (after hostOps0_21 (after hostOps0_20 (after hostOps0_19 X))) (Proc.devRef .tc main_v38)) := by
  rw [table_kept X, bits_kept X, rows_kept X, sum_next X]
  refine I.step (by decide) hnn slices_S50000x32_S50000x1_0_4 _ (fun h n => ?_)
  exact (congrFun (next_column X) (ix1 n)).trans (nextCol_apply (5 : ℕ) slices_S50000x32_S50000x1_0_5 ⟨(5 : ℕ), h⟩ rfl _ n)

end Cert.KSlot.Step04

end
-- ==== Proof.KSlotStep05.lean ====
/-
  Neighbour slot 5 of the kernel's host program. The slot's four stretches of host operations read the table's rows that the
  slot's column of row words names, keep each row only where the slot names a node (zero elsewhere), add the result to
  the running sum and, while a next slot exists, cut its column of row words: they carry the invariant of the
  neighbour sum from before slot 5 to before slot 6.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step05

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_26 (after hostOps0_25 (after hostOps0_24 (after hostOps0_23 X))) (Proc.devRef .tc main_arg0)
      = X (Proc.devRef .tc main_arg0) := by
  after_results_simp

/-- The slot's stretches do not write the validity bits. -/
theorem bits_kept (X : Valuation τ sig (Elt Ideal)) :
    after hostOps0_26 (after hostOps0_25 (after hostOps0_24 (after hostOps0_23 X))) (Proc.devRef .tc main_v2)
      = X (Proc.devRef .tc main_v2) := by
  after_results_simp

/-- The slot's stretches do not write the rows. -/
theorem rows_kept (X : Valuation τ sig (Elt Ideal)) :
    after hostOps0_26 (after hostOps0_25 (after hostOps0_24 (after hostOps0_23 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_26 (after hostOps0_25 (after hostOps0_24 (after hostOps0_23 X))) (Proc.devRef .tc main_v44)
      = slotSum (5 : ℕ) slices_S50000x32_S50000x1_0_5 (X (Proc.devRef .tc main_v38)) (X (Proc.devRef .tc main_arg0))
          (X (Proc.devRef .tc main_v2)) (X (Proc.devRef .tc main_v40)) := by
  after_results_simp
  simp only [TRef.ofBuf, TRef.toBuf, cast_eq]
  rfl

/-- The next slot's column is `nextCol` of the rows. -/
theorem next_column (X : Valuation τ sig (Elt Ideal)) :
    after hostOps0_26 (after hostOps0_25 (after hostOps0_24 (after hostOps0_23 X))) (Proc.devRef .tc main_v46)
      = nextCol (6 : ℕ) slices_S50000x32_S50000x1_0_6 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (5 : ℕ) (X (Proc.devRef .tc main_arg0)) (X (Proc.devRef .tc main_v2)) (X (Proc.devRef .tc main_v4))
      (X (Proc.devRef .tc main_v40)) (X (Proc.devRef .tc main_v38))) :
    Inv x e eps (6 : ℕ)
      (after hostOps0_26 (after hostOps0_25 (after hostOps0_24 (after hostOps0_23 X))) (Proc.devRef .tc main_arg0))
      (after hostOps0_26 (after hostOps0_25 (after hostOps0_24 (after hostOps0_23 X))) (Proc.devRef .tc main_v2))
      (after hostOps0_26 (after hostOps0_25 (after hostOps0_24 (after hostOps0_23 X))) (Proc.devRef .tc main_v4))
      (after hostOps0_26 (after hostOps0_25 (after hostOps0_24 (after hostOps0_23 X))) (Proc.devRef .tc main_v46))
      (after hostOps0_26 (after hostOps0_25 (after hostOps0_24 (after hostOps0_23 X))) (Proc.devRef .tc main_v44)) := by
  rw [table_kept X, bits_kept X, rows_kept X, sum_next X]
  refine I.step (by decide) hnn slices_S50000x32_S50000x1_0_5 _ (fun h n => ?_)
  exact (congrFun (next_column X) (ix1 n)).trans (nextCol_apply (6 : ℕ) slices_S50000x32_S50000x1_0_6 ⟨(6 : ℕ), h⟩ rfl _ n)

end Cert.KSlot.Step05

end
-- ==== Proof.KSlotStep06.lean ====
/-
  Neighbour slot 6 of the kernel's host program. The slot's four stretches of host operations read the table's rows that the
  slot's column of row words names, keep each row only where the slot names a node (zero elsewhere), add the result to
  the running sum and, while a next slot exists, cut its column of row words: they carry the invariant of the
  neighbour sum from before slot 6 to before slot 7.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step06

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_30 (after hostOps0_29 (after hostOps0_28 (after hostOps0_27 X))) (Proc.devRef .tc main_arg0)
      = X (Proc.devRef .tc main_arg0) := by
  after_results_simp

/-- The slot's stretches do not write the validity bits. -/
theorem bits_kept (X : Valuation τ sig (Elt Ideal)) :
    after hostOps0_30 (after hostOps0_29 (after hostOps0_28 (after hostOps0_27 X))) (Proc.devRef .tc main_v2)
      = X (Proc.devRef .tc main_v2) := by
  after_results_simp

/-- The slot's stretches do not write the rows. -/
theorem rows_kept (X : Valuation τ sig (Elt Ideal)) :
    after hostOps0_30 (after hostOps0_29 (after hostOps0_28 (after hostOps0_27 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_30 (after hostOps0_29 (after hostOps0_28 (after hostOps0_27 X))) (Proc.devRef .tc main_v50)
      = slotSum (6 : ℕ) slices_S50000x32_S50000x1_0_6 (X (Proc.devRef .tc main_v44)) (X (Proc.devRef .tc main_arg0))
          (X (Proc.devRef .tc main_v2)) (X (Proc.devRef .tc main_v46)) := by
  after_results_simp
  simp only [TRef.ofBuf, TRef.toBuf, cast_eq]
  rfl

/-- The next slot's column is `nextCol` of the rows. -/
theorem next_column (X : Valuation τ sig (Elt Ideal)) :
    after hostOps0_30 (after hostOps0_29 (after hostOps0_28 (after hostOps0_27 X))) (Proc.devRef .tc main_v52)
      = nextCol (7 : ℕ) slices_S50000x32_S50000x1_0_7 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (6 : ℕ) (X (Proc.devRef .tc main_arg0)) (X (Proc.devRef .tc main_v2)) (X (Proc.devRef .tc main_v4))
      (X (Proc.devRef .tc main_v46)) (X (Proc.devRef .tc main_v44))) :
    Inv x e eps (7 : ℕ)
      (after hostOps0_30 (after hostOps0_29 (after hostOps0_28 (after hostOps0_27 X))) (Proc.devRef .tc main_arg0))
      (after hostOps0_30 (after hostOps0_29 (after hostOps0_28 (after hostOps0_27 X))) (Proc.devRef .tc main_v2))
      (after hostOps0_30 (after hostOps0_29 (after hostOps0_28 (after hostOps0_27 X))) (Proc.devRef .tc main_v4))
      (after hostOps0_30 (after hostOps0_29 (after hostOps0_28 (after hostOps0_27 X))) (Proc.devRef .tc main_v52))
      (after hostOps0_30 (after hostOps0_29 (after hostOps0_28 (after hostOps0_27 X))) (Proc.devRef .tc main_v50)) := by
  rw [table_kept X, bits_kept X, rows_kept X, sum_next X]
  refine I.step (by decide) hnn slices_S50000x32_S50000x1_0_6 _ (fun h n => ?_)
  exact (congrFun (next_column X) (ix1 n)).trans (nextCol_apply (7 : ℕ) slices_S50000x32_S50000x1_0_7 ⟨(7 : ℕ), h⟩ rfl _ n)

end Cert.KSlot.Step06

end
-- ==== Proof.KSlotStep07.lean ====
/-
  Neighbour slot 7 of the kernel's host program. The slot's four stretches of host operations read the table's rows that the
  slot's column of row words names, keep each row only where the slot names a node (zero elsewhere), add the result to
  the running sum and, while a next slot exists, cut its column of row words: they carry the invariant of the
  neighbour sum from before slot 7 to before slot 8.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step07

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_34 (after hostOps0_33 (after hostOps0_32 (after hostOps0_31 X))) (Proc.devRef .tc main_arg0)
      = X (Proc.devRef .tc main_arg0) := by
  after_results_simp

/-- The slot's stretches do not write the validity bits. -/
theorem bits_kept (X : Valuation τ sig (Elt Ideal)) :
    after hostOps0_34 (after hostOps0_33 (after hostOps0_32 (after hostOps0_31 X))) (Proc.devRef .tc main_v2)
      = X (Proc.devRef .tc main_v2) := by
  after_results_simp

/-- The slot's stretches do not write the rows. -/
theorem rows_kept (X : Valuation τ sig (Elt Ideal)) :
    after hostOps0_34 (after hostOps0_33 (after hostOps0_32 (after hostOps0_31 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_34 (after hostOps0_33 (after hostOps0_32 (after hostOps0_31 X))) (Proc.devRef .tc main_v56)
      = slotSum (7 : ℕ) slices_S50000x32_S50000x1_0_7 (X (Proc.devRef .tc main_v50)) (X (Proc.devRef .tc main_arg0))
          (X (Proc.devRef .tc main_v2)) (X (Proc.devRef .tc main_v52)) := by
  after_results_simp
  simp only [TRef.ofBuf, TRef.toBuf, cast_eq]
  rfl

/-- The next slot's column is `nextCol` of the rows. -/
theorem next_column (X : Valuation τ sig (Elt Ideal)) :
    after hostOps0_34 (after hostOps0_33 (after hostOps0_32 (after hostOps0_31 X))) (Proc.devRef .tc main_v58)
      = nextCol (8 : ℕ) slices_S50000x32_S50000x1_0_8 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (7 : ℕ) (X (Proc.devRef .tc main_arg0)) (X (Proc.devRef .tc main_v2)) (X (Proc.devRef .tc main_v4))
      (X (Proc.devRef .tc main_v52)) (X (Proc.devRef .tc main_v50))) :
    Inv x e eps (8 : ℕ)
      (after hostOps0_34 (after hostOps0_33 (after hostOps0_32 (after hostOps0_31 X))) (Proc.devRef .tc main_arg0))
      (after hostOps0_34 (after hostOps0_33 (after hostOps0_32 (after hostOps0_31 X))) (Proc.devRef .tc main_v2))
      (after hostOps0_34 (after hostOps0_33 (after hostOps0_32 (after hostOps0_31 X))) (Proc.devRef .tc main_v4))
      (after hostOps0_34 (after hostOps0_33 (after hostOps0_32 (after hostOps0_31 X))) (Proc.devRef .tc main_v58))
      (after hostOps0_34 (after hostOps0_33 (after hostOps0_32 (after hostOps0_31 X))) (Proc.devRef .tc main_v56)) := by
  rw [table_kept X, bits_kept X, rows_kept X, sum_next X]
  refine I.step (by decide) hnn slices_S50000x32_S50000x1_0_7 _ (fun h n => ?_)
  exact (congrFun (next_column X) (ix1 n)).trans (nextCol_apply (8 : ℕ) slices_S50000x32_S50000x1_0_8 ⟨(8 : ℕ), h⟩ rfl _ n)

end Cert.KSlot.Step07

end
-- ==== Proof.KSlotStep08.lean ====
/-
  Neighbour slot 8 of the kernel's host program. The slot's four stretches of host operations read the table's rows that the
  slot's column of row words names, keep each row only where the slot names a node (zero elsewhere), add the result to
  the running sum and, while a next slot exists, cut its column of row words: they carry the invariant of the
  neighbour sum from before slot 8 to before slot 9.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step08

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_38 (after hostOps0_37 (after hostOps0_36 (after hostOps0_35 X))) (Proc.devRef .tc main_arg0)
      = X (Proc.devRef .tc main_arg0) := by
  after_results_simp

/-- The slot's stretches do not write the validity bits. -/
theorem bits_kept (X : Valuation τ sig (Elt Ideal)) :
    after hostOps0_38 (after hostOps0_37 (after hostOps0_36 (after hostOps0_35 X))) (Proc.devRef .tc main_v2)
      = X (Proc.devRef .tc main_v2) := by
  after_results_simp

/-- The slot's stretches do not write the rows. -/
theorem rows_kept (X : Valuation τ sig (Elt Ideal)) :
    after hostOps0_38 (after hostOps0_37 (after hostOps0_36 (after hostOps0_35 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_38 (after hostOps0_37 (after hostOps0_36 (after hostOps0_35 X))) (Proc.devRef .tc main_v62)
      = slotSum (8 : ℕ) slices_S50000x32_S50000x1_0_8 (X (Proc.devRef .tc main_v56)) (X (Proc.devRef .tc main_arg0))
          (X (Proc.devRef .tc main_v2)) (X (Proc.devRef .tc main_v58)) := by
  after_results_simp
  simp only [TRef.ofBuf, TRef.toBuf, cast_eq]
  rfl

/-- The next slot's column is `nextCol` of the rows. -/
theorem next_column (X : Valuation τ sig (Elt Ideal)) :
    after hostOps0_38 (after hostOps0_37 (after hostOps0_36 (after hostOps0_35 X))) (Proc.devRef .tc main_v64)
      = nextCol (9 : ℕ) slices_S50000x32_S50000x1_0_9 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (8 : ℕ) (X (Proc.devRef .tc main_arg0)) (X (Proc.devRef .tc main_v2)) (X (Proc.devRef .tc main_v4))
      (X (Proc.devRef .tc main_v58)) (X (Proc.devRef .tc main_v56))) :
    Inv x e eps (9 : ℕ)
      (after hostOps0_38 (after hostOps0_37 (after hostOps0_36 (after hostOps0_35 X))) (Proc.devRef .tc main_arg0))
      (after hostOps0_38 (after hostOps0_37 (after hostOps0_36 (after hostOps0_35 X))) (Proc.devRef .tc main_v2))
      (after hostOps0_38 (after hostOps0_37 (after hostOps0_36 (after hostOps0_35 X))) (Proc.devRef .tc main_v4))
      (after hostOps0_38 (after hostOps0_37 (after hostOps0_36 (after hostOps0_35 X))) (Proc.devRef .tc main_v64))
      (after hostOps0_38 (after hostOps0_37 (after hostOps0_36 (after hostOps0_35 X))) (Proc.devRef .tc main_v62)) := by
  rw [table_kept X, bits_kept X, rows_kept X, sum_next X]
  refine I.step (by decide) hnn slices_S50000x32_S50000x1_0_8 _ (fun h n => ?_)
  exact (congrFun (next_column X) (ix1 n)).trans (nextCol_apply (9 : ℕ) slices_S50000x32_S50000x1_0_9 ⟨(9 : ℕ), h⟩ rfl _ n)

end Cert.KSlot.Step08

end
-- ==== Proof.KSlotStep09.lean ====
/-
  Neighbour slot 9 of the kernel's host program. The slot's four stretches of host operations read the table's rows that the
  slot's column of row words names, keep each row only where the slot names a node (zero elsewhere), add the result to
  the running sum and, while a next slot exists, cut its column of row words: they carry the invariant of the
  neighbour sum from before slot 9 to before slot 10.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step09

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_42 (after hostOps0_41 (after hostOps0_40 (after hostOps0_39 X))) (Proc.devRef .tc main_arg0)
      = X (Proc.devRef .tc main_arg0) := by
  after_results_simp

/-- The slot's stretches do not write the validity bits. -/
theorem bits_kept (X : Valuation τ sig (Elt Ideal)) :
    after hostOps0_42 (after hostOps0_41 (after hostOps0_40 (after hostOps0_39 X))) (Proc.devRef .tc main_v2)
      = X (Proc.devRef .tc main_v2) := by
  after_results_simp

/-- The slot's stretches do not write the rows. -/
theorem rows_kept (X : Valuation τ sig (Elt Ideal)) :
    after hostOps0_42 (after hostOps0_41 (after hostOps0_40 (after hostOps0_39 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_42 (after hostOps0_41 (after hostOps0_40 (after hostOps0_39 X))) (Proc.devRef .tc main_v68)
      = slotSum (9 : ℕ) slices_S50000x32_S50000x1_0_9 (X (Proc.devRef .tc main_v62)) (X (Proc.devRef .tc main_arg0))
          (X (Proc.devRef .tc main_v2)) (X (Proc.devRef .tc main_v64)) := by
  after_results_simp
  simp only [TRef.ofBuf, TRef.toBuf, cast_eq]
  rfl

/-- The next slot's column is `nextCol` of the rows. -/
theorem next_column (X : Valuation τ sig (Elt Ideal)) :
    after hostOps0_42 (after hostOps0_41 (after hostOps0_40 (after hostOps0_39 X))) (Proc.devRef .tc main_v70)
      = nextCol (10 : ℕ) slices_S50000x32_S50000x1_0_10 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (9 : ℕ) (X (Proc.devRef .tc main_arg0)) (X (Proc.devRef .tc main_v2)) (X (Proc.devRef .tc main_v4))
      (X (Proc.devRef .tc main_v64)) (X (Proc.devRef .tc main_v62))) :
    Inv x e eps (10 : ℕ)
      (after hostOps0_42 (after hostOps0_41 (after hostOps0_40 (after hostOps0_39 X))) (Proc.devRef .tc main_arg0))
      (after hostOps0_42 (after hostOps0_41 (after hostOps0_40 (after hostOps0_39 X))) (Proc.devRef .tc main_v2))
      (after hostOps0_42 (after hostOps0_41 (after hostOps0_40 (after hostOps0_39 X))) (Proc.devRef .tc main_v4))
      (after hostOps0_42 (after hostOps0_41 (after hostOps0_40 (after hostOps0_39 X))) (Proc.devRef .tc main_v70))
      (after hostOps0_42 (after hostOps0_41 (after hostOps0_40 (after hostOps0_39 X))) (Proc.devRef .tc main_v68)) := by
  rw [table_kept X, bits_kept X, rows_kept X, sum_next X]
  refine I.step (by decide) hnn slices_S50000x32_S50000x1_0_9 _ (fun h n => ?_)
  exact (congrFun (next_column X) (ix1 n)).trans (nextCol_apply (10 : ℕ) slices_S50000x32_S50000x1_0_10 ⟨(10 : ℕ), h⟩ rfl _ n)

end Cert.KSlot.Step09

end
-- ==== Proof.KSlotStep10.lean ====
/-
  Neighbour slot 10 of the kernel's host program. The slot's four stretches of host operations read the table's rows that the
  slot's column of row words names, keep each row only where the slot names a node (zero elsewhere), add the result to
  the running sum and, while a next slot exists, cut its column of row words: they carry the invariant of the
  neighbour sum from before slot 10 to before slot 11.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step10

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_46 (after hostOps0_45 (after hostOps0_44 (after hostOps0_43 X))) (Proc.devRef .tc main_arg0)
      = X (Proc.devRef .tc main_arg0) := by
  after_results_simp

/-- The slot's stretches do not write the validity bits. -/
theorem bits_kept (X : Valuation τ sig (Elt Ideal)) :
    after hostOps0_46 (after hostOps0_45 (after hostOps0_44 (after hostOps0_43 X))) (Proc.devRef .tc main_v2)
      = X (Proc.devRef .tc main_v2) := by
  after_results_simp

/-- The slot's stretches do not write the rows. -/
theorem rows_kept (X : Valuation τ sig (Elt Ideal)) :
    after hostOps0_46 (after hostOps0_45 (after hostOps0_44 (after hostOps0_43 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_46 (after hostOps0_45 (after hostOps0_44 (after hostOps0_43 X))) (Proc.devRef .tc main_v74)
      = slotSum (10 : ℕ) slices_S50000x32_S50000x1_0_10 (X (Proc.devRef .tc main_v68)) (X (Proc.devRef .tc main_arg0))
          (X (Proc.devRef .tc main_v2)) (X (Proc.devRef .tc main_v70)) := by
  after_results_simp
  simp only [TRef.ofBuf, TRef.toBuf, cast_eq]
  rfl

/-- The next slot's column is `nextCol` of the rows. -/
theorem next_column (X : Valuation τ sig (Elt Ideal)) :
    after hostOps0_46 (after hostOps0_45 (after hostOps0_44 (after hostOps0_43 X))) (Proc.devRef .tc main_v76)
      = nextCol (11 : ℕ) slices_S50000x32_S50000x1_0_11 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (10 : ℕ) (X (Proc.devRef .tc main_arg0)) (X (Proc.devRef .tc main_v2)) (X (Proc.devRef .tc main_v4))
      (X (Proc.devRef .tc main_v70)) (X (Proc.devRef .tc main_v68))) :
    Inv x e eps (11 : ℕ)
      (after hostOps0_46 (after hostOps0_45 (after hostOps0_44 (after hostOps0_43 X))) (Proc.devRef .tc main_arg0))
      (after hostOps0_46 (after hostOps0_45 (after hostOps0_44 (after hostOps0_43 X))) (Proc.devRef .tc main_v2))
      (after hostOps0_46 (after hostOps0_45 (after hostOps0_44 (after hostOps0_43 X))) (Proc.devRef .tc main_v4))
      (after hostOps0_46 (after hostOps0_45 (after hostOps0_44 (after hostOps0_43 X))) (Proc.devRef .tc main_v76))
      (after hostOps0_46 (after hostOps0_45 (after hostOps0_44 (after hostOps0_43 X))) (Proc.devRef .tc main_v74)) := by
  rw [table_kept X, bits_kept X, rows_kept X, sum_next X]
  refine I.step (by decide) hnn slices_S50000x32_S50000x1_0_10 _ (fun h n => ?_)
  exact (congrFun (next_column X) (ix1 n)).trans (nextCol_apply (11 : ℕ) slices_S50000x32_S50000x1_0_11 ⟨(11 : ℕ), h⟩ rfl _ n)

end Cert.KSlot.Step10

end
-- ==== Proof.KSlotStep11.lean ====
/-
  Neighbour slot 11 of the kernel's host program. The slot's four stretches of host operations read the table's rows that the
  slot's column of row words names, keep each row only where the slot names a node (zero elsewhere), add the result to
  the running sum and, while a next slot exists, cut its column of row words: they carry the invariant of the
  neighbour sum from before slot 11 to before slot 12.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step11

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_50 (after hostOps0_49 (after hostOps0_48 (after hostOps0_47 X))) (Proc.devRef .tc main_arg0)
      = X (Proc.devRef .tc main_arg0) := by
  after_results_simp

/-- The slot's stretches do not write the validity bits. -/
theorem bits_kept (X : Valuation τ sig (Elt Ideal)) :
    after hostOps0_50 (after hostOps0_49 (after hostOps0_48 (after hostOps0_47 X))) (Proc.devRef .tc main_v2)
      = X (Proc.devRef .tc main_v2) := by
  after_results_simp

/-- The slot's stretches do not write the rows. -/
theorem rows_kept (X : Valuation τ sig (Elt Ideal)) :
    after hostOps0_50 (after hostOps0_49 (after hostOps0_48 (after hostOps0_47 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_50 (after hostOps0_49 (after hostOps0_48 (after hostOps0_47 X))) (Proc.devRef .tc main_v80)
      = slotSum (11 : ℕ) slices_S50000x32_S50000x1_0_11 (X (Proc.devRef .tc main_v74)) (X (Proc.devRef .tc main_arg0))
          (X (Proc.devRef .tc main_v2)) (X (Proc.devRef .tc main_v76)) := by
  after_results_simp
  simp only [TRef.ofBuf, TRef.toBuf, cast_eq]
  rfl

/-- The next slot's column is `nextCol` of the rows. -/
theorem next_column (X : Valuation τ sig (Elt Ideal)) :
    after hostOps0_50 (after hostOps0_49 (after hostOps0_48 (after hostOps0_47 X))) (Proc.devRef .tc main_v82)
      = nextCol (12 : ℕ) slices_S50000x32_S50000x1_0_12 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (11 : ℕ) (X (Proc.devRef .tc main_arg0)) (X (Proc.devRef .tc main_v2)) (X (Proc.devRef .tc main_v4))
      (X (Proc.devRef .tc main_v76)) (X (Proc.devRef .tc main_v74))) :
    Inv x e eps (12 : ℕ)
      (after hostOps0_50 (after hostOps0_49 (after hostOps0_48 (after hostOps0_47 X))) (Proc.devRef .tc main_arg0))
      (after hostOps0_50 (after hostOps0_49 (after hostOps0_48 (after hostOps0_47 X))) (Proc.devRef .tc main_v2))
      (after hostOps0_50 (after hostOps0_49 (after hostOps0_48 (after hostOps0_47 X))) (Proc.devRef .tc main_v4))
      (after hostOps0_50 (after hostOps0_49 (after hostOps0_48 (after hostOps0_47 X))) (Proc.devRef .tc main_v82))
      (after hostOps0_50 (after hostOps0_49 (after hostOps0_48 (after hostOps0_47 X))) (Proc.devRef .tc main_v80)) := by
  rw [table_kept X, bits_kept X, rows_kept X, sum_next X]
  refine I.step (by decide) hnn slices_S50000x32_S50000x1_0_11 _ (fun h n => ?_)
  exact (congrFun (next_column X) (ix1 n)).trans (nextCol_apply (12 : ℕ) slices_S50000x32_S50000x1_0_12 ⟨(12 : ℕ), h⟩ rfl _ n)

end Cert.KSlot.Step11

end
-- ==== Proof.KSlotStep12.lean ====
/-
  Neighbour slot 12 of the kernel's host program. The slot's four stretches of host operations read the table's rows that the
  slot's column of row words names, keep each row only where the slot names a node (zero elsewhere), add the result to
  the running sum and, while a next slot exists, cut its column of row words: they carry the invariant of the
  neighbour sum from before slot 12 to before slot 13.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step12

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_54 (after hostOps0_53 (after hostOps0_52 (after hostOps0_51 X))) (Proc.devRef .tc main_arg0)
      = X (Proc.devRef .tc main_arg0) := by
  after_results_simp

/-- The slot's stretches do not write the validity bits. -/
theorem bits_kept (X : Valuation τ sig (Elt Ideal)) :
    after hostOps0_54 (after hostOps0_53 (after hostOps0_52 (after hostOps0_51 X))) (Proc.devRef .tc main_v2)
      = X (Proc.devRef .tc main_v2) := by
  after_results_simp

/-- The slot's stretches do not write the rows. -/
theorem rows_kept (X : Valuation τ sig (Elt Ideal)) :
    after hostOps0_54 (after hostOps0_53 (after hostOps0_52 (after hostOps0_51 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_54 (after hostOps0_53 (after hostOps0_52 (after hostOps0_51 X))) (Proc.devRef .tc main_v86)
      = slotSum (12 : ℕ) slices_S50000x32_S50000x1_0_12 (X (Proc.devRef .tc main_v80)) (X (Proc.devRef .tc main_arg0))
          (X (Proc.devRef .tc main_v2)) (X (Proc.devRef .tc main_v82)) := by
  after_results_simp
  simp only [TRef.ofBuf, TRef.toBuf, cast_eq]
  rfl

/-- The next slot's column is `nextCol` of the rows. -/
theorem next_column (X : Valuation τ sig (Elt Ideal)) :
    after hostOps0_54 (after hostOps0_53 (after hostOps0_52 (after hostOps0_51 X))) (Proc.devRef .tc main_v88)
      = nextCol (13 : ℕ) slices_S50000x32_S50000x1_0_13 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (12 : ℕ) (X (Proc.devRef .tc main_arg0)) (X (Proc.devRef .tc main_v2)) (X (Proc.devRef .tc main_v4))
      (X (Proc.devRef .tc main_v82)) (X (Proc.devRef .tc main_v80))) :
    Inv x e eps (13 : ℕ)
      (after hostOps0_54 (after hostOps0_53 (after hostOps0_52 (after hostOps0_51 X))) (Proc.devRef .tc main_arg0))
      (after hostOps0_54 (after hostOps0_53 (after hostOps0_52 (after hostOps0_51 X))) (Proc.devRef .tc main_v2))
      (after hostOps0_54 (after hostOps0_53 (after hostOps0_52 (after hostOps0_51 X))) (Proc.devRef .tc main_v4))
      (after hostOps0_54 (after hostOps0_53 (after hostOps0_52 (after hostOps0_51 X))) (Proc.devRef .tc main_v88))
      (after hostOps0_54 (after hostOps0_53 (after hostOps0_52 (after hostOps0_51 X))) (Proc.devRef .tc main_v86)) := by
  rw [table_kept X, bits_kept X, rows_kept X, sum_next X]
  refine I.step (by decide) hnn slices_S50000x32_S50000x1_0_12 _ (fun h n => ?_)
  exact (congrFun (next_column X) (ix1 n)).trans (nextCol_apply (13 : ℕ) slices_S50000x32_S50000x1_0_13 ⟨(13 : ℕ), h⟩ rfl _ n)

end Cert.KSlot.Step12

end
-- ==== Proof.KSlotStep13.lean ====
/-
  Neighbour slot 13 of the kernel's host program. The slot's four stretches of host operations read the table's rows that the
  slot's column of row words names, keep each row only where the slot names a node (zero elsewhere), add the result to
  the running sum and, while a next slot exists, cut its column of row words: they carry the invariant of the
  neighbour sum from before slot 13 to before slot 14.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step13

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_58 (after hostOps0_57 (after hostOps0_56 (after hostOps0_55 X))) (Proc.devRef .tc main_arg0)
      = X (Proc.devRef .tc main_arg0) := by
  after_results_simp

/-- The slot's stretches do not write the validity bits. -/
theorem bits_kept (X : Valuation τ sig (Elt Ideal)) :
    after hostOps0_58 (after hostOps0_57 (after hostOps0_56 (after hostOps0_55 X))) (Proc.devRef .tc main_v2)
      = X (Proc.devRef .tc main_v2) := by
  after_results_simp

/-- The slot's stretches do not write the rows. -/
theorem rows_kept (X : Valuation τ sig (Elt Ideal)) :
    after hostOps0_58 (after hostOps0_57 (after hostOps0_56 (after hostOps0_55 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_58 (after hostOps0_57 (after hostOps0_56 (after hostOps0_55 X))) (Proc.devRef .tc main_v92)
      = slotSum (13 : ℕ) slices_S50000x32_S50000x1_0_13 (X (Proc.devRef .tc main_v86)) (X (Proc.devRef .tc main_arg0))
          (X (Proc.devRef .tc main_v2)) (X (Proc.devRef .tc main_v88)) := by
  after_results_simp
  simp only [TRef.ofBuf, TRef.toBuf, cast_eq]
  rfl

/-- The next slot's column is `nextCol` of the rows. -/
theorem next_column (X : Valuation τ sig (Elt Ideal)) :
    after hostOps0_58 (after hostOps0_57 (after hostOps0_56 (after hostOps0_55 X))) (Proc.devRef .tc main_v94)
      = nextCol (14 : ℕ) slices_S50000x32_S50000x1_0_14 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (13 : ℕ) (X (Proc.devRef .tc main_arg0)) (X (Proc.devRef .tc main_v2)) (X (Proc.devRef .tc main_v4))
      (X (Proc.devRef .tc main_v88)) (X (Proc.devRef .tc main_v86))) :
    Inv x e eps (14 : ℕ)
      (after hostOps0_58 (after hostOps0_57 (after hostOps0_56 (after hostOps0_55 X))) (Proc.devRef .tc main_arg0))
      (after hostOps0_58 (after hostOps0_57 (after hostOps0_56 (after hostOps0_55 X))) (Proc.devRef .tc main_v2))
      (after hostOps0_58 (after hostOps0_57 (after hostOps0_56 (after hostOps0_55 X))) (Proc.devRef .tc main_v4))
      (after hostOps0_58 (after hostOps0_57 (after hostOps0_56 (after hostOps0_55 X))) (Proc.devRef .tc main_v94))
      (after hostOps0_58 (after hostOps0_57 (after hostOps0_56 (after hostOps0_55 X))) (Proc.devRef .tc main_v92)) := by
  rw [table_kept X, bits_kept X, rows_kept X, sum_next X]
  refine I.step (by decide) hnn slices_S50000x32_S50000x1_0_13 _ (fun h n => ?_)
  exact (congrFun (next_column X) (ix1 n)).trans (nextCol_apply (14 : ℕ) slices_S50000x32_S50000x1_0_14 ⟨(14 : ℕ), h⟩ rfl _ n)

end Cert.KSlot.Step13

end
-- ==== Proof.KSlotStep14.lean ====
/-
  Neighbour slot 14 of the kernel's host program. The slot's four stretches of host operations read the table's rows that the
  slot's column of row words names, keep each row only where the slot names a node (zero elsewhere), add the result to
  the running sum and, while a next slot exists, cut its column of row words: they carry the invariant of the
  neighbour sum from before slot 14 to before slot 15.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step14

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_62 (after hostOps0_61 (after hostOps0_60 (after hostOps0_59 X))) (Proc.devRef .tc main_arg0)
      = X (Proc.devRef .tc main_arg0) := by
  after_results_simp

/-- The slot's stretches do not write the validity bits. -/
theorem bits_kept (X : Valuation τ sig (Elt Ideal)) :
    after hostOps0_62 (after hostOps0_61 (after hostOps0_60 (after hostOps0_59 X))) (Proc.devRef .tc main_v2)
      = X (Proc.devRef .tc main_v2) := by
  after_results_simp

/-- The slot's stretches do not write the rows. -/
theorem rows_kept (X : Valuation τ sig (Elt Ideal)) :
    after hostOps0_62 (after hostOps0_61 (after hostOps0_60 (after hostOps0_59 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_62 (after hostOps0_61 (after hostOps0_60 (after hostOps0_59 X))) (Proc.devRef .tc main_v98)
      = slotSum (14 : ℕ) slices_S50000x32_S50000x1_0_14 (X (Proc.devRef .tc main_v92)) (X (Proc.devRef .tc main_arg0))
          (X (Proc.devRef .tc main_v2)) (X (Proc.devRef .tc main_v94)) := by
  after_results_simp
  simp only [TRef.ofBuf, TRef.toBuf, cast_eq]
  rfl

/-- The next slot's column is `nextCol` of the rows. -/
theorem next_column (X : Valuation τ sig (Elt Ideal)) :
    after hostOps0_62 (after hostOps0_61 (after hostOps0_60 (after hostOps0_59 X))) (Proc.devRef .tc main_v100)
      = nextCol (15 : ℕ) slices_S50000x32_S50000x1_0_15 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (14 : ℕ) (X (Proc.devRef .tc main_arg0)) (X (Proc.devRef .tc main_v2)) (X (Proc.devRef .tc main_v4))
      (X (Proc.devRef .tc main_v94)) (X (Proc.devRef .tc main_v92))) :
    Inv x e eps (15 : ℕ)
      (after hostOps0_62 (after hostOps0_61 (after hostOps0_60 (after hostOps0_59 X))) (Proc.devRef .tc main_arg0))
      (after hostOps0_62 (after hostOps0_61 (after hostOps0_60 (after hostOps0_59 X))) (Proc.devRef .tc main_v2))
      (after hostOps0_62 (after hostOps0_61 (after hostOps0_60 (after hostOps0_59 X))) (Proc.devRef .tc main_v4))
      (after hostOps0_62 (after hostOps0_61 (after hostOps0_60 (after hostOps0_59 X))) (Proc.devRef .tc main_v100))
      (after hostOps0_62 (after hostOps0_61 (after hostOps0_60 (after hostOps0_59 X))) (Proc.devRef .tc main_v98)) := by
  rw [table_kept X, bits_kept X, rows_kept X, sum_next X]
  refine I.step (by decide) hnn slices_S50000x32_S50000x1_0_14 _ (fun h n => ?_)
  exact (congrFun (next_column X) (ix1 n)).trans (nextCol_apply (15 : ℕ) slices_S50000x32_S50000x1_0_15 ⟨(15 : ℕ), h⟩ rfl _ n)

end Cert.KSlot.Step14

end
-- ==== Proof.KSlotStep15.lean ====
/-
  Neighbour slot 15 of the kernel's host program. The slot's four stretches of host operations read the table's rows that the
  slot's column of row words names, keep each row only where the slot names a node (zero elsewhere), add the result to
  the running sum and, while a next slot exists, cut its column of row words: they carry the invariant of the
  neighbour sum from before slot 15 to before slot 16.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step15

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_66 (after hostOps0_65 (after hostOps0_64 (after hostOps0_63 X))) (Proc.devRef .tc main_arg0)
      = X (Proc.devRef .tc main_arg0) := by
  after_results_simp

/-- The slot's stretches do not write the validity bits. -/
theorem bits_kept (X : Valuation τ sig (Elt Ideal)) :
    after hostOps0_66 (after hostOps0_65 (after hostOps0_64 (after hostOps0_63 X))) (Proc.devRef .tc main_v2)
      = X (Proc.devRef .tc main_v2) := by
  after_results_simp

/-- The slot's stretches do not write the rows. -/
theorem rows_kept (X : Valuation τ sig (Elt Ideal)) :
    after hostOps0_66 (after hostOps0_65 (after hostOps0_64 (after hostOps0_63 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_66 (after hostOps0_65 (after hostOps0_64 (after hostOps0_63 X))) (Proc.devRef .tc main_v104)
      = slotSum (15 : ℕ) slices_S50000x32_S50000x1_0_15 (X (Proc.devRef .tc main_v98)) (X (Proc.devRef .tc main_arg0))
          (X (Proc.devRef .tc main_v2)) (X (Proc.devRef .tc main_v100)) := by
  after_results_simp
  simp only [TRef.ofBuf, TRef.toBuf, cast_eq]
  rfl

/-- The next slot's column is `nextCol` of the rows. -/
theorem next_column (X : Valuation τ sig (Elt Ideal)) :
    after hostOps0_66 (after hostOps0_65 (after hostOps0_64 (after hostOps0_63 X))) (Proc.devRef .tc main_v106)
      = nextCol (16 : ℕ) slices_S50000x32_S50000x1_0_16 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (15 : ℕ) (X (Proc.devRef .tc main_arg0)) (X (Proc.devRef .tc main_v2)) (X (Proc.devRef .tc main_v4))
      (X (Proc.devRef .tc main_v100)) (X (Proc.devRef .tc main_v98))) :
    Inv x e eps (16 : ℕ)
      (after hostOps0_66 (after hostOps0_65 (after hostOps0_64 (after hostOps0_63 X))) (Proc.devRef .tc main_arg0))
      (after hostOps0_66 (after hostOps0_65 (after hostOps0_64 (after hostOps0_63 X))) (Proc.devRef .tc main_v2))
      (after hostOps0_66 (after hostOps0_65 (after hostOps0_64 (after hostOps0_63 X))) (Proc.devRef .tc main_v4))
      (after hostOps0_66 (after hostOps0_65 (after hostOps0_64 (after hostOps0_63 X))) (Proc.devRef .tc main_v106))
      (after hostOps0_66 (after hostOps0_65 (after hostOps0_64 (after hostOps0_63 X))) (Proc.devRef .tc main_v104)) := by
  rw [table_kept X, bits_kept X, rows_kept X, sum_next X]
  refine I.step (by decide) hnn slices_S50000x32_S50000x1_0_15 _ (fun h n => ?_)
  exact (congrFun (next_column X) (ix1 n)).trans (nextCol_apply (16 : ℕ) slices_S50000x32_S50000x1_0_16 ⟨(16 : ℕ), h⟩ rfl _ n)

end Cert.KSlot.Step15

end
-- ==== Proof.KSlotStep16.lean ====
/-
  Neighbour slot 16 of the kernel's host program. The slot's four stretches of host operations read the table's rows that the
  slot's column of row words names, keep each row only where the slot names a node (zero elsewhere), add the result to
  the running sum and, while a next slot exists, cut its column of row words: they carry the invariant of the
  neighbour sum from before slot 16 to before slot 17.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step16

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_70 (after hostOps0_69 (after hostOps0_68 (after hostOps0_67 X))) (Proc.devRef .tc main_arg0)
      = X (Proc.devRef .tc main_arg0) := by
  after_results_simp

/-- The slot's stretches do not write the validity bits. -/
theorem bits_kept (X : Valuation τ sig (Elt Ideal)) :
    after hostOps0_70 (after hostOps0_69 (after hostOps0_68 (after hostOps0_67 X))) (Proc.devRef .tc main_v2)
      = X (Proc.devRef .tc main_v2) := by
  after_results_simp

/-- The slot's stretches do not write the rows. -/
theorem rows_kept (X : Valuation τ sig (Elt Ideal)) :
    after hostOps0_70 (after hostOps0_69 (after hostOps0_68 (after hostOps0_67 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_70 (after hostOps0_69 (after hostOps0_68 (after hostOps0_67 X))) (Proc.devRef .tc main_v110)
      = slotSum (16 : ℕ) slices_S50000x32_S50000x1_0_16 (X (Proc.devRef .tc main_v104)) (X (Proc.devRef .tc main_arg0))
          (X (Proc.devRef .tc main_v2)) (X (Proc.devRef .tc main_v106)) := by
  after_results_simp
  simp only [TRef.ofBuf, TRef.toBuf, cast_eq]
  rfl

/-- The next slot's column is `nextCol` of the rows. -/
theorem next_column (X : Valuation τ sig (Elt Ideal)) :
    after hostOps0_70 (after hostOps0_69 (after hostOps0_68 (after hostOps0_67 X))) (Proc.devRef .tc main_v112)
      = nextCol (17 : ℕ) slices_S50000x32_S50000x1_0_17 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (16 : ℕ) (X (Proc.devRef .tc main_arg0)) (X (Proc.devRef .tc main_v2)) (X (Proc.devRef .tc main_v4))
      (X (Proc.devRef .tc main_v106)) (X (Proc.devRef .tc main_v104))) :
    Inv x e eps (17 : ℕ)
      (after hostOps0_70 (after hostOps0_69 (after hostOps0_68 (after hostOps0_67 X))) (Proc.devRef .tc main_arg0))
      (after hostOps0_70 (after hostOps0_69 (after hostOps0_68 (after hostOps0_67 X))) (Proc.devRef .tc main_v2))
      (after hostOps0_70 (after hostOps0_69 (after hostOps0_68 (after hostOps0_67 X))) (Proc.devRef .tc main_v4))
      (after hostOps0_70 (after hostOps0_69 (after hostOps0_68 (after hostOps0_67 X))) (Proc.devRef .tc main_v112))
      (after hostOps0_70 (after hostOps0_69 (after hostOps0_68 (after hostOps0_67 X))) (Proc.devRef .tc main_v110)) := by
  rw [table_kept X, bits_kept X, rows_kept X, sum_next X]
  refine I.step (by decide) hnn slices_S50000x32_S50000x1_0_16 _ (fun h n => ?_)
  exact (congrFun (next_column X) (ix1 n)).trans (nextCol_apply (17 : ℕ) slices_S50000x32_S50000x1_0_17 ⟨(17 : ℕ), h⟩ rfl _ n)

end Cert.KSlot.Step16

end
-- ==== Proof.KSlotStep17.lean ====
/-
  Neighbour slot 17 of the kernel's host program. The slot's four stretches of host operations read the table's rows that the
  slot's column of row words names, keep each row only where the slot names a node (zero elsewhere), add the result to
  the running sum and, while a next slot exists, cut its column of row words: they carry the invariant of the
  neighbour sum from before slot 17 to before slot 18.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step17

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_74 (after hostOps0_73 (after hostOps0_72 (after hostOps0_71 X))) (Proc.devRef .tc main_arg0)
      = X (Proc.devRef .tc main_arg0) := by
  after_results_simp

/-- The slot's stretches do not write the validity bits. -/
theorem bits_kept (X : Valuation τ sig (Elt Ideal)) :
    after hostOps0_74 (after hostOps0_73 (after hostOps0_72 (after hostOps0_71 X))) (Proc.devRef .tc main_v2)
      = X (Proc.devRef .tc main_v2) := by
  after_results_simp

/-- The slot's stretches do not write the rows. -/
theorem rows_kept (X : Valuation τ sig (Elt Ideal)) :
    after hostOps0_74 (after hostOps0_73 (after hostOps0_72 (after hostOps0_71 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_74 (after hostOps0_73 (after hostOps0_72 (after hostOps0_71 X))) (Proc.devRef .tc main_v116)
      = slotSum (17 : ℕ) slices_S50000x32_S50000x1_0_17 (X (Proc.devRef .tc main_v110)) (X (Proc.devRef .tc main_arg0))
          (X (Proc.devRef .tc main_v2)) (X (Proc.devRef .tc main_v112)) := by
  after_results_simp
  simp only [TRef.ofBuf, TRef.toBuf, cast_eq]
  rfl

/-- The next slot's column is `nextCol` of the rows. -/
theorem next_column (X : Valuation τ sig (Elt Ideal)) :
    after hostOps0_74 (after hostOps0_73 (after hostOps0_72 (after hostOps0_71 X))) (Proc.devRef .tc main_v118)
      = nextCol (18 : ℕ) slices_S50000x32_S50000x1_0_18 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (17 : ℕ) (X (Proc.devRef .tc main_arg0)) (X (Proc.devRef .tc main_v2)) (X (Proc.devRef .tc main_v4))
      (X (Proc.devRef .tc main_v112)) (X (Proc.devRef .tc main_v110))) :
    Inv x e eps (18 : ℕ)
      (after hostOps0_74 (after hostOps0_73 (after hostOps0_72 (after hostOps0_71 X))) (Proc.devRef .tc main_arg0))
      (after hostOps0_74 (after hostOps0_73 (after hostOps0_72 (after hostOps0_71 X))) (Proc.devRef .tc main_v2))
      (after hostOps0_74 (after hostOps0_73 (after hostOps0_72 (after hostOps0_71 X))) (Proc.devRef .tc main_v4))
      (after hostOps0_74 (after hostOps0_73 (after hostOps0_72 (after hostOps0_71 X))) (Proc.devRef .tc main_v118))
      (after hostOps0_74 (after hostOps0_73 (after hostOps0_72 (after hostOps0_71 X))) (Proc.devRef .tc main_v116)) := by
  rw [table_kept X, bits_kept X, rows_kept X, sum_next X]
  refine I.step (by decide) hnn slices_S50000x32_S50000x1_0_17 _ (fun h n => ?_)
  exact (congrFun (next_column X) (ix1 n)).trans (nextCol_apply (18 : ℕ) slices_S50000x32_S50000x1_0_18 ⟨(18 : ℕ), h⟩ rfl _ n)

end Cert.KSlot.Step17

end
-- ==== Proof.KSlotStep18.lean ====
/-
  Neighbour slot 18 of the kernel's host program. The slot's four stretches of host operations read the table's rows that the
  slot's column of row words names, keep each row only where the slot names a node (zero elsewhere), add the result to
  the running sum and, while a next slot exists, cut its column of row words: they carry the invariant of the
  neighbour sum from before slot 18 to before slot 19.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step18

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_78 (after hostOps0_77 (after hostOps0_76 (after hostOps0_75 X))) (Proc.devRef .tc main_arg0)
      = X (Proc.devRef .tc main_arg0) := by
  after_results_simp

/-- The slot's stretches do not write the validity bits. -/
theorem bits_kept (X : Valuation τ sig (Elt Ideal)) :
    after hostOps0_78 (after hostOps0_77 (after hostOps0_76 (after hostOps0_75 X))) (Proc.devRef .tc main_v2)
      = X (Proc.devRef .tc main_v2) := by
  after_results_simp

/-- The slot's stretches do not write the rows. -/
theorem rows_kept (X : Valuation τ sig (Elt Ideal)) :
    after hostOps0_78 (after hostOps0_77 (after hostOps0_76 (after hostOps0_75 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_78 (after hostOps0_77 (after hostOps0_76 (after hostOps0_75 X))) (Proc.devRef .tc main_v122)
      = slotSum (18 : ℕ) slices_S50000x32_S50000x1_0_18 (X (Proc.devRef .tc main_v116)) (X (Proc.devRef .tc main_arg0))
          (X (Proc.devRef .tc main_v2)) (X (Proc.devRef .tc main_v118)) := by
  after_results_simp
  simp only [TRef.ofBuf, TRef.toBuf, cast_eq]
  rfl

/-- The next slot's column is `nextCol` of the rows. -/
theorem next_column (X : Valuation τ sig (Elt Ideal)) :
    after hostOps0_78 (after hostOps0_77 (after hostOps0_76 (after hostOps0_75 X))) (Proc.devRef .tc main_v124)
      = nextCol (19 : ℕ) slices_S50000x32_S50000x1_0_19 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (18 : ℕ) (X (Proc.devRef .tc main_arg0)) (X (Proc.devRef .tc main_v2)) (X (Proc.devRef .tc main_v4))
      (X (Proc.devRef .tc main_v118)) (X (Proc.devRef .tc main_v116))) :
    Inv x e eps (19 : ℕ)
      (after hostOps0_78 (after hostOps0_77 (after hostOps0_76 (after hostOps0_75 X))) (Proc.devRef .tc main_arg0))
      (after hostOps0_78 (after hostOps0_77 (after hostOps0_76 (after hostOps0_75 X))) (Proc.devRef .tc main_v2))
      (after hostOps0_78 (after hostOps0_77 (after hostOps0_76 (after hostOps0_75 X))) (Proc.devRef .tc main_v4))
      (after hostOps0_78 (after hostOps0_77 (after hostOps0_76 (after hostOps0_75 X))) (Proc.devRef .tc main_v124))
      (after hostOps0_78 (after hostOps0_77 (after hostOps0_76 (after hostOps0_75 X))) (Proc.devRef .tc main_v122)) := by
  rw [table_kept X, bits_kept X, rows_kept X, sum_next X]
  refine I.step (by decide) hnn slices_S50000x32_S50000x1_0_18 _ (fun h n => ?_)
  exact (congrFun (next_column X) (ix1 n)).trans (nextCol_apply (19 : ℕ) slices_S50000x32_S50000x1_0_19 ⟨(19 : ℕ), h⟩ rfl _ n)

end Cert.KSlot.Step18

end
-- ==== Proof.KSlotStep19.lean ====
/-
  Neighbour slot 19 of the kernel's host program. The slot's four stretches of host operations read the table's rows that the
  slot's column of row words names, keep each row only where the slot names a node (zero elsewhere), add the result to
  the running sum and, while a next slot exists, cut its column of row words: they carry the invariant of the
  neighbour sum from before slot 19 to before slot 20.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step19

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_82 (after hostOps0_81 (after hostOps0_80 (after hostOps0_79 X))) (Proc.devRef .tc main_arg0)
      = X (Proc.devRef .tc main_arg0) := by
  after_results_simp

/-- The slot's stretches do not write the validity bits. -/
theorem bits_kept (X : Valuation τ sig (Elt Ideal)) :
    after hostOps0_82 (after hostOps0_81 (after hostOps0_80 (after hostOps0_79 X))) (Proc.devRef .tc main_v2)
      = X (Proc.devRef .tc main_v2) := by
  after_results_simp

/-- The slot's stretches do not write the rows. -/
theorem rows_kept (X : Valuation τ sig (Elt Ideal)) :
    after hostOps0_82 (after hostOps0_81 (after hostOps0_80 (after hostOps0_79 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_82 (after hostOps0_81 (after hostOps0_80 (after hostOps0_79 X))) (Proc.devRef .tc main_v128)
      = slotSum (19 : ℕ) slices_S50000x32_S50000x1_0_19 (X (Proc.devRef .tc main_v122)) (X (Proc.devRef .tc main_arg0))
          (X (Proc.devRef .tc main_v2)) (X (Proc.devRef .tc main_v124)) := by
  after_results_simp
  simp only [TRef.ofBuf, TRef.toBuf, cast_eq]
  rfl

/-- The next slot's column is `nextCol` of the rows. -/
theorem next_column (X : Valuation τ sig (Elt Ideal)) :
    after hostOps0_82 (after hostOps0_81 (after hostOps0_80 (after hostOps0_79 X))) (Proc.devRef .tc main_v130)
      = nextCol (20 : ℕ) slices_S50000x32_S50000x1_0_20 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (19 : ℕ) (X (Proc.devRef .tc main_arg0)) (X (Proc.devRef .tc main_v2)) (X (Proc.devRef .tc main_v4))
      (X (Proc.devRef .tc main_v124)) (X (Proc.devRef .tc main_v122))) :
    Inv x e eps (20 : ℕ)
      (after hostOps0_82 (after hostOps0_81 (after hostOps0_80 (after hostOps0_79 X))) (Proc.devRef .tc main_arg0))
      (after hostOps0_82 (after hostOps0_81 (after hostOps0_80 (after hostOps0_79 X))) (Proc.devRef .tc main_v2))
      (after hostOps0_82 (after hostOps0_81 (after hostOps0_80 (after hostOps0_79 X))) (Proc.devRef .tc main_v4))
      (after hostOps0_82 (after hostOps0_81 (after hostOps0_80 (after hostOps0_79 X))) (Proc.devRef .tc main_v130))
      (after hostOps0_82 (after hostOps0_81 (after hostOps0_80 (after hostOps0_79 X))) (Proc.devRef .tc main_v128)) := by
  rw [table_kept X, bits_kept X, rows_kept X, sum_next X]
  refine I.step (by decide) hnn slices_S50000x32_S50000x1_0_19 _ (fun h n => ?_)
  exact (congrFun (next_column X) (ix1 n)).trans (nextCol_apply (20 : ℕ) slices_S50000x32_S50000x1_0_20 ⟨(20 : ℕ), h⟩ rfl _ n)

end Cert.KSlot.Step19

end
-- ==== Proof.KSlotStep20.lean ====
/-
  Neighbour slot 20 of the kernel's host program. The slot's four stretches of host operations read the table's rows that the
  slot's column of row words names, keep each row only where the slot names a node (zero elsewhere), add the result to
  the running sum and, while a next slot exists, cut its column of row words: they carry the invariant of the
  neighbour sum from before slot 20 to before slot 21.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step20

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_86 (after hostOps0_85 (after hostOps0_84 (after hostOps0_83 X))) (Proc.devRef .tc main_arg0)
      = X (Proc.devRef .tc main_arg0) := by
  after_results_simp

/-- The slot's stretches do not write the validity bits. -/
theorem bits_kept (X : Valuation τ sig (Elt Ideal)) :
    after hostOps0_86 (after hostOps0_85 (after hostOps0_84 (after hostOps0_83 X))) (Proc.devRef .tc main_v2)
      = X (Proc.devRef .tc main_v2) := by
  after_results_simp

/-- The slot's stretches do not write the rows. -/
theorem rows_kept (X : Valuation τ sig (Elt Ideal)) :
    after hostOps0_86 (after hostOps0_85 (after hostOps0_84 (after hostOps0_83 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_86 (after hostOps0_85 (after hostOps0_84 (after hostOps0_83 X))) (Proc.devRef .tc main_v134)
      = slotSum (20 : ℕ) slices_S50000x32_S50000x1_0_20 (X (Proc.devRef .tc main_v128)) (X (Proc.devRef .tc main_arg0))
          (X (Proc.devRef .tc main_v2)) (X (Proc.devRef .tc main_v130)) := by
  after_results_simp
  simp only [TRef.ofBuf, TRef.toBuf, cast_eq]
  rfl

/-- The next slot's column is `nextCol` of the rows. -/
theorem next_column (X : Valuation τ sig (Elt Ideal)) :
    after hostOps0_86 (after hostOps0_85 (after hostOps0_84 (after hostOps0_83 X))) (Proc.devRef .tc main_v136)
      = nextCol (21 : ℕ) slices_S50000x32_S50000x1_0_21 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (20 : ℕ) (X (Proc.devRef .tc main_arg0)) (X (Proc.devRef .tc main_v2)) (X (Proc.devRef .tc main_v4))
      (X (Proc.devRef .tc main_v130)) (X (Proc.devRef .tc main_v128))) :
    Inv x e eps (21 : ℕ)
      (after hostOps0_86 (after hostOps0_85 (after hostOps0_84 (after hostOps0_83 X))) (Proc.devRef .tc main_arg0))
      (after hostOps0_86 (after hostOps0_85 (after hostOps0_84 (after hostOps0_83 X))) (Proc.devRef .tc main_v2))
      (after hostOps0_86 (after hostOps0_85 (after hostOps0_84 (after hostOps0_83 X))) (Proc.devRef .tc main_v4))
      (after hostOps0_86 (after hostOps0_85 (after hostOps0_84 (after hostOps0_83 X))) (Proc.devRef .tc main_v136))
      (after hostOps0_86 (after hostOps0_85 (after hostOps0_84 (after hostOps0_83 X))) (Proc.devRef .tc main_v134)) := by
  rw [table_kept X, bits_kept X, rows_kept X, sum_next X]
  refine I.step (by decide) hnn slices_S50000x32_S50000x1_0_20 _ (fun h n => ?_)
  exact (congrFun (next_column X) (ix1 n)).trans (nextCol_apply (21 : ℕ) slices_S50000x32_S50000x1_0_21 ⟨(21 : ℕ), h⟩ rfl _ n)

end Cert.KSlot.Step20

end
-- ==== Proof.KSlotStep21.lean ====
/-
  Neighbour slot 21 of the kernel's host program. The slot's four stretches of host operations read the table's rows that the
  slot's column of row words names, keep each row only where the slot names a node (zero elsewhere), add the result to
  the running sum and, while a next slot exists, cut its column of row words: they carry the invariant of the
  neighbour sum from before slot 21 to before slot 22.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step21

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_90 (after hostOps0_89 (after hostOps0_88 (after hostOps0_87 X))) (Proc.devRef .tc main_arg0)
      = X (Proc.devRef .tc main_arg0) := by
  after_results_simp

/-- The slot's stretches do not write the validity bits. -/
theorem bits_kept (X : Valuation τ sig (Elt Ideal)) :
    after hostOps0_90 (after hostOps0_89 (after hostOps0_88 (after hostOps0_87 X))) (Proc.devRef .tc main_v2)
      = X (Proc.devRef .tc main_v2) := by
  after_results_simp

/-- The slot's stretches do not write the rows. -/
theorem rows_kept (X : Valuation τ sig (Elt Ideal)) :
    after hostOps0_90 (after hostOps0_89 (after hostOps0_88 (after hostOps0_87 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_90 (after hostOps0_89 (after hostOps0_88 (after hostOps0_87 X))) (Proc.devRef .tc main_v140)
      = slotSum (21 : ℕ) slices_S50000x32_S50000x1_0_21 (X (Proc.devRef .tc main_v134)) (X (Proc.devRef .tc main_arg0))
          (X (Proc.devRef .tc main_v2)) (X (Proc.devRef .tc main_v136)) := by
  after_results_simp
  simp only [TRef.ofBuf, TRef.toBuf, cast_eq]
  rfl

/-- The next slot's column is `nextCol` of the rows. -/
theorem next_column (X : Valuation τ sig (Elt Ideal)) :
    after hostOps0_90 (after hostOps0_89 (after hostOps0_88 (after hostOps0_87 X))) (Proc.devRef .tc main_v142)
      = nextCol (22 : ℕ) slices_S50000x32_S50000x1_0_22 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (21 : ℕ) (X (Proc.devRef .tc main_arg0)) (X (Proc.devRef .tc main_v2)) (X (Proc.devRef .tc main_v4))
      (X (Proc.devRef .tc main_v136)) (X (Proc.devRef .tc main_v134))) :
    Inv x e eps (22 : ℕ)
      (after hostOps0_90 (after hostOps0_89 (after hostOps0_88 (after hostOps0_87 X))) (Proc.devRef .tc main_arg0))
      (after hostOps0_90 (after hostOps0_89 (after hostOps0_88 (after hostOps0_87 X))) (Proc.devRef .tc main_v2))
      (after hostOps0_90 (after hostOps0_89 (after hostOps0_88 (after hostOps0_87 X))) (Proc.devRef .tc main_v4))
      (after hostOps0_90 (after hostOps0_89 (after hostOps0_88 (after hostOps0_87 X))) (Proc.devRef .tc main_v142))
      (after hostOps0_90 (after hostOps0_89 (after hostOps0_88 (after hostOps0_87 X))) (Proc.devRef .tc main_v140)) := by
  rw [table_kept X, bits_kept X, rows_kept X, sum_next X]
  refine I.step (by decide) hnn slices_S50000x32_S50000x1_0_21 _ (fun h n => ?_)
  exact (congrFun (next_column X) (ix1 n)).trans (nextCol_apply (22 : ℕ) slices_S50000x32_S50000x1_0_22 ⟨(22 : ℕ), h⟩ rfl _ n)

end Cert.KSlot.Step21

end
-- ==== Proof.KSlotStep22.lean ====
/-
  Neighbour slot 22 of the kernel's host program. The slot's four stretches of host operations read the table's rows that the
  slot's column of row words names, keep each row only where the slot names a node (zero elsewhere), add the result to
  the running sum and, while a next slot exists, cut its column of row words: they carry the invariant of the
  neighbour sum from before slot 22 to before slot 23.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step22

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_94 (after hostOps0_93 (after hostOps0_92 (after hostOps0_91 X))) (Proc.devRef .tc main_arg0)
      = X (Proc.devRef .tc main_arg0) := by
  after_results_simp

/-- The slot's stretches do not write the validity bits. -/
theorem bits_kept (X : Valuation τ sig (Elt Ideal)) :
    after hostOps0_94 (after hostOps0_93 (after hostOps0_92 (after hostOps0_91 X))) (Proc.devRef .tc main_v2)
      = X (Proc.devRef .tc main_v2) := by
  after_results_simp

/-- The slot's stretches do not write the rows. -/
theorem rows_kept (X : Valuation τ sig (Elt Ideal)) :
    after hostOps0_94 (after hostOps0_93 (after hostOps0_92 (after hostOps0_91 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_94 (after hostOps0_93 (after hostOps0_92 (after hostOps0_91 X))) (Proc.devRef .tc main_v146)
      = slotSum (22 : ℕ) slices_S50000x32_S50000x1_0_22 (X (Proc.devRef .tc main_v140)) (X (Proc.devRef .tc main_arg0))
          (X (Proc.devRef .tc main_v2)) (X (Proc.devRef .tc main_v142)) := by
  after_results_simp
  simp only [TRef.ofBuf, TRef.toBuf, cast_eq]
  rfl

/-- The next slot's column is `nextCol` of the rows. -/
theorem next_column (X : Valuation τ sig (Elt Ideal)) :
    after hostOps0_94 (after hostOps0_93 (after hostOps0_92 (after hostOps0_91 X))) (Proc.devRef .tc main_v148)
      = nextCol (23 : ℕ) slices_S50000x32_S50000x1_0_23 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (22 : ℕ) (X (Proc.devRef .tc main_arg0)) (X (Proc.devRef .tc main_v2)) (X (Proc.devRef .tc main_v4))
      (X (Proc.devRef .tc main_v142)) (X (Proc.devRef .tc main_v140))) :
    Inv x e eps (23 : ℕ)
      (after hostOps0_94 (after hostOps0_93 (after hostOps0_92 (after hostOps0_91 X))) (Proc.devRef .tc main_arg0))
      (after hostOps0_94 (after hostOps0_93 (after hostOps0_92 (after hostOps0_91 X))) (Proc.devRef .tc main_v2))
      (after hostOps0_94 (after hostOps0_93 (after hostOps0_92 (after hostOps0_91 X))) (Proc.devRef .tc main_v4))
      (after hostOps0_94 (after hostOps0_93 (after hostOps0_92 (after hostOps0_91 X))) (Proc.devRef .tc main_v148))
      (after hostOps0_94 (after hostOps0_93 (after hostOps0_92 (after hostOps0_91 X))) (Proc.devRef .tc main_v146)) := by
  rw [table_kept X, bits_kept X, rows_kept X, sum_next X]
  refine I.step (by decide) hnn slices_S50000x32_S50000x1_0_22 _ (fun h n => ?_)
  exact (congrFun (next_column X) (ix1 n)).trans (nextCol_apply (23 : ℕ) slices_S50000x32_S50000x1_0_23 ⟨(23 : ℕ), h⟩ rfl _ n)

end Cert.KSlot.Step22

end
-- ==== Proof.KSlotStep23.lean ====
/-
  Neighbour slot 23 of the kernel's host program. The slot's four stretches of host operations read the table's rows that the
  slot's column of row words names, keep each row only where the slot names a node (zero elsewhere), add the result to
  the running sum and, while a next slot exists, cut its column of row words: they carry the invariant of the
  neighbour sum from before slot 23 to before slot 24.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step23

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_98 (after hostOps0_97 (after hostOps0_96 (after hostOps0_95 X))) (Proc.devRef .tc main_arg0)
      = X (Proc.devRef .tc main_arg0) := by
  after_results_simp

/-- The slot's stretches do not write the validity bits. -/
theorem bits_kept (X : Valuation τ sig (Elt Ideal)) :
    after hostOps0_98 (after hostOps0_97 (after hostOps0_96 (after hostOps0_95 X))) (Proc.devRef .tc main_v2)
      = X (Proc.devRef .tc main_v2) := by
  after_results_simp

/-- The slot's stretches do not write the rows. -/
theorem rows_kept (X : Valuation τ sig (Elt Ideal)) :
    after hostOps0_98 (after hostOps0_97 (after hostOps0_96 (after hostOps0_95 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_98 (after hostOps0_97 (after hostOps0_96 (after hostOps0_95 X))) (Proc.devRef .tc main_v152)
      = slotSum (23 : ℕ) slices_S50000x32_S50000x1_0_23 (X (Proc.devRef .tc main_v146)) (X (Proc.devRef .tc main_arg0))
          (X (Proc.devRef .tc main_v2)) (X (Proc.devRef .tc main_v148)) := by
  after_results_simp
  simp only [TRef.ofBuf, TRef.toBuf, cast_eq]
  rfl

/-- The next slot's column is `nextCol` of the rows. -/
theorem next_column (X : Valuation τ sig (Elt Ideal)) :
    after hostOps0_98 (after hostOps0_97 (after hostOps0_96 (after hostOps0_95 X))) (Proc.devRef .tc main_v154)
      = nextCol (24 : ℕ) slices_S50000x32_S50000x1_0_24 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (23 : ℕ) (X (Proc.devRef .tc main_arg0)) (X (Proc.devRef .tc main_v2)) (X (Proc.devRef .tc main_v4))
      (X (Proc.devRef .tc main_v148)) (X (Proc.devRef .tc main_v146))) :
    Inv x e eps (24 : ℕ)
      (after hostOps0_98 (after hostOps0_97 (after hostOps0_96 (after hostOps0_95 X))) (Proc.devRef .tc main_arg0))
      (after hostOps0_98 (after hostOps0_97 (after hostOps0_96 (after hostOps0_95 X))) (Proc.devRef .tc main_v2))
      (after hostOps0_98 (after hostOps0_97 (after hostOps0_96 (after hostOps0_95 X))) (Proc.devRef .tc main_v4))
      (after hostOps0_98 (after hostOps0_97 (after hostOps0_96 (after hostOps0_95 X))) (Proc.devRef .tc main_v154))
      (after hostOps0_98 (after hostOps0_97 (after hostOps0_96 (after hostOps0_95 X))) (Proc.devRef .tc main_v152)) := by
  rw [table_kept X, bits_kept X, rows_kept X, sum_next X]
  refine I.step (by decide) hnn slices_S50000x32_S50000x1_0_23 _ (fun h n => ?_)
  exact (congrFun (next_column X) (ix1 n)).trans (nextCol_apply (24 : ℕ) slices_S50000x32_S50000x1_0_24 ⟨(24 : ℕ), h⟩ rfl _ n)

end Cert.KSlot.Step23

end
-- ==== Proof.KSlotStep24.lean ====
/-
  Neighbour slot 24 of the kernel's host program. The slot's four stretches of host operations read the table's rows that the
  slot's column of row words names, keep each row only where the slot names a node (zero elsewhere), add the result to
  the running sum and, while a next slot exists, cut its column of row words: they carry the invariant of the
  neighbour sum from before slot 24 to before slot 25.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step24

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_102 (after hostOps0_101 (after hostOps0_100 (after hostOps0_99 X))) (Proc.devRef .tc main_arg0)
      = X (Proc.devRef .tc main_arg0) := by
  after_results_simp

/-- The slot's stretches do not write the validity bits. -/
theorem bits_kept (X : Valuation τ sig (Elt Ideal)) :
    after hostOps0_102 (after hostOps0_101 (after hostOps0_100 (after hostOps0_99 X))) (Proc.devRef .tc main_v2)
      = X (Proc.devRef .tc main_v2) := by
  after_results_simp

/-- The slot's stretches do not write the rows. -/
theorem rows_kept (X : Valuation τ sig (Elt Ideal)) :
    after hostOps0_102 (after hostOps0_101 (after hostOps0_100 (after hostOps0_99 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_102 (after hostOps0_101 (after hostOps0_100 (after hostOps0_99 X))) (Proc.devRef .tc main_v158)
      = slotSum (24 : ℕ) slices_S50000x32_S50000x1_0_24 (X (Proc.devRef .tc main_v152)) (X (Proc.devRef .tc main_arg0))
          (X (Proc.devRef .tc main_v2)) (X (Proc.devRef .tc main_v154)) := by
  after_results_simp
  simp only [TRef.ofBuf, TRef.toBuf, cast_eq]
  rfl

/-- The next slot's column is `nextCol` of the rows. -/
theorem next_column (X : Valuation τ sig (Elt Ideal)) :
    after hostOps0_102 (after hostOps0_101 (after hostOps0_100 (after hostOps0_99 X))) (Proc.devRef .tc main_v160)
      = nextCol (25 : ℕ) slices_S50000x32_S50000x1_0_25 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (24 : ℕ) (X (Proc.devRef .tc main_arg0)) (X (Proc.devRef .tc main_v2)) (X (Proc.devRef .tc main_v4))
      (X (Proc.devRef .tc main_v154)) (X (Proc.devRef .tc main_v152))) :
    Inv x e eps (25 : ℕ)
      (after hostOps0_102 (after hostOps0_101 (after hostOps0_100 (after hostOps0_99 X))) (Proc.devRef .tc main_arg0))
      (after hostOps0_102 (after hostOps0_101 (after hostOps0_100 (after hostOps0_99 X))) (Proc.devRef .tc main_v2))
      (after hostOps0_102 (after hostOps0_101 (after hostOps0_100 (after hostOps0_99 X))) (Proc.devRef .tc main_v4))
      (after hostOps0_102 (after hostOps0_101 (after hostOps0_100 (after hostOps0_99 X))) (Proc.devRef .tc main_v160))
      (after hostOps0_102 (after hostOps0_101 (after hostOps0_100 (after hostOps0_99 X))) (Proc.devRef .tc main_v158)) := by
  rw [table_kept X, bits_kept X, rows_kept X, sum_next X]
  refine I.step (by decide) hnn slices_S50000x32_S50000x1_0_24 _ (fun h n => ?_)
  exact (congrFun (next_column X) (ix1 n)).trans (nextCol_apply (25 : ℕ) slices_S50000x32_S50000x1_0_25 ⟨(25 : ℕ), h⟩ rfl _ n)

end Cert.KSlot.Step24

end
-- ==== Proof.KSlotStep25.lean ====
/-
  Neighbour slot 25 of the kernel's host program. The slot's four stretches of host operations read the table's rows that the
  slot's column of row words names, keep each row only where the slot names a node (zero elsewhere), add the result to
  the running sum and, while a next slot exists, cut its column of row words: they carry the invariant of the
  neighbour sum from before slot 25 to before slot 26.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step25

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_106 (after hostOps0_105 (after hostOps0_104 (after hostOps0_103 X))) (Proc.devRef .tc main_arg0)
      = X (Proc.devRef .tc main_arg0) := by
  after_results_simp

/-- The slot's stretches do not write the validity bits. -/
theorem bits_kept (X : Valuation τ sig (Elt Ideal)) :
    after hostOps0_106 (after hostOps0_105 (after hostOps0_104 (after hostOps0_103 X))) (Proc.devRef .tc main_v2)
      = X (Proc.devRef .tc main_v2) := by
  after_results_simp

/-- The slot's stretches do not write the rows. -/
theorem rows_kept (X : Valuation τ sig (Elt Ideal)) :
    after hostOps0_106 (after hostOps0_105 (after hostOps0_104 (after hostOps0_103 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_106 (after hostOps0_105 (after hostOps0_104 (after hostOps0_103 X))) (Proc.devRef .tc main_v164)
      = slotSum (25 : ℕ) slices_S50000x32_S50000x1_0_25 (X (Proc.devRef .tc main_v158)) (X (Proc.devRef .tc main_arg0))
          (X (Proc.devRef .tc main_v2)) (X (Proc.devRef .tc main_v160)) := by
  after_results_simp
  simp only [TRef.ofBuf, TRef.toBuf, cast_eq]
  rfl

/-- The next slot's column is `nextCol` of the rows. -/
theorem next_column (X : Valuation τ sig (Elt Ideal)) :
    after hostOps0_106 (after hostOps0_105 (after hostOps0_104 (after hostOps0_103 X))) (Proc.devRef .tc main_v166)
      = nextCol (26 : ℕ) slices_S50000x32_S50000x1_0_26 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (25 : ℕ) (X (Proc.devRef .tc main_arg0)) (X (Proc.devRef .tc main_v2)) (X (Proc.devRef .tc main_v4))
      (X (Proc.devRef .tc main_v160)) (X (Proc.devRef .tc main_v158))) :
    Inv x e eps (26 : ℕ)
      (after hostOps0_106 (after hostOps0_105 (after hostOps0_104 (after hostOps0_103 X))) (Proc.devRef .tc main_arg0))
      (after hostOps0_106 (after hostOps0_105 (after hostOps0_104 (after hostOps0_103 X))) (Proc.devRef .tc main_v2))
      (after hostOps0_106 (after hostOps0_105 (after hostOps0_104 (after hostOps0_103 X))) (Proc.devRef .tc main_v4))
      (after hostOps0_106 (after hostOps0_105 (after hostOps0_104 (after hostOps0_103 X))) (Proc.devRef .tc main_v166))
      (after hostOps0_106 (after hostOps0_105 (after hostOps0_104 (after hostOps0_103 X))) (Proc.devRef .tc main_v164)) := by
  rw [table_kept X, bits_kept X, rows_kept X, sum_next X]
  refine I.step (by decide) hnn slices_S50000x32_S50000x1_0_25 _ (fun h n => ?_)
  exact (congrFun (next_column X) (ix1 n)).trans (nextCol_apply (26 : ℕ) slices_S50000x32_S50000x1_0_26 ⟨(26 : ℕ), h⟩ rfl _ n)

end Cert.KSlot.Step25

end
-- ==== Proof.KSlotStep26.lean ====
/-
  Neighbour slot 26 of the kernel's host program. The slot's four stretches of host operations read the table's rows that the
  slot's column of row words names, keep each row only where the slot names a node (zero elsewhere), add the result to
  the running sum and, while a next slot exists, cut its column of row words: they carry the invariant of the
  neighbour sum from before slot 26 to before slot 27.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step26

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_110 (after hostOps0_109 (after hostOps0_108 (after hostOps0_107 X))) (Proc.devRef .tc main_arg0)
      = X (Proc.devRef .tc main_arg0) := by
  after_results_simp

/-- The slot's stretches do not write the validity bits. -/
theorem bits_kept (X : Valuation τ sig (Elt Ideal)) :
    after hostOps0_110 (after hostOps0_109 (after hostOps0_108 (after hostOps0_107 X))) (Proc.devRef .tc main_v2)
      = X (Proc.devRef .tc main_v2) := by
  after_results_simp

/-- The slot's stretches do not write the rows. -/
theorem rows_kept (X : Valuation τ sig (Elt Ideal)) :
    after hostOps0_110 (after hostOps0_109 (after hostOps0_108 (after hostOps0_107 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_110 (after hostOps0_109 (after hostOps0_108 (after hostOps0_107 X))) (Proc.devRef .tc main_v170)
      = slotSum (26 : ℕ) slices_S50000x32_S50000x1_0_26 (X (Proc.devRef .tc main_v164)) (X (Proc.devRef .tc main_arg0))
          (X (Proc.devRef .tc main_v2)) (X (Proc.devRef .tc main_v166)) := by
  after_results_simp
  simp only [TRef.ofBuf, TRef.toBuf, cast_eq]
  rfl

/-- The next slot's column is `nextCol` of the rows. -/
theorem next_column (X : Valuation τ sig (Elt Ideal)) :
    after hostOps0_110 (after hostOps0_109 (after hostOps0_108 (after hostOps0_107 X))) (Proc.devRef .tc main_v172)
      = nextCol (27 : ℕ) slices_S50000x32_S50000x1_0_27 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (26 : ℕ) (X (Proc.devRef .tc main_arg0)) (X (Proc.devRef .tc main_v2)) (X (Proc.devRef .tc main_v4))
      (X (Proc.devRef .tc main_v166)) (X (Proc.devRef .tc main_v164))) :
    Inv x e eps (27 : ℕ)
      (after hostOps0_110 (after hostOps0_109 (after hostOps0_108 (after hostOps0_107 X))) (Proc.devRef .tc main_arg0))
      (after hostOps0_110 (after hostOps0_109 (after hostOps0_108 (after hostOps0_107 X))) (Proc.devRef .tc main_v2))
      (after hostOps0_110 (after hostOps0_109 (after hostOps0_108 (after hostOps0_107 X))) (Proc.devRef .tc main_v4))
      (after hostOps0_110 (after hostOps0_109 (after hostOps0_108 (after hostOps0_107 X))) (Proc.devRef .tc main_v172))
      (after hostOps0_110 (after hostOps0_109 (after hostOps0_108 (after hostOps0_107 X))) (Proc.devRef .tc main_v170)) := by
  rw [table_kept X, bits_kept X, rows_kept X, sum_next X]
  refine I.step (by decide) hnn slices_S50000x32_S50000x1_0_26 _ (fun h n => ?_)
  exact (congrFun (next_column X) (ix1 n)).trans (nextCol_apply (27 : ℕ) slices_S50000x32_S50000x1_0_27 ⟨(27 : ℕ), h⟩ rfl _ n)

end Cert.KSlot.Step26

end
-- ==== Proof.KSlotStep27.lean ====
/-
  Neighbour slot 27 of the kernel's host program. The slot's four stretches of host operations read the table's rows that the
  slot's column of row words names, keep each row only where the slot names a node (zero elsewhere), add the result to
  the running sum and, while a next slot exists, cut its column of row words: they carry the invariant of the
  neighbour sum from before slot 27 to before slot 28.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step27

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_114 (after hostOps0_113 (after hostOps0_112 (after hostOps0_111 X))) (Proc.devRef .tc main_arg0)
      = X (Proc.devRef .tc main_arg0) := by
  after_results_simp

/-- The slot's stretches do not write the validity bits. -/
theorem bits_kept (X : Valuation τ sig (Elt Ideal)) :
    after hostOps0_114 (after hostOps0_113 (after hostOps0_112 (after hostOps0_111 X))) (Proc.devRef .tc main_v2)
      = X (Proc.devRef .tc main_v2) := by
  after_results_simp

/-- The slot's stretches do not write the rows. -/
theorem rows_kept (X : Valuation τ sig (Elt Ideal)) :
    after hostOps0_114 (after hostOps0_113 (after hostOps0_112 (after hostOps0_111 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_114 (after hostOps0_113 (after hostOps0_112 (after hostOps0_111 X))) (Proc.devRef .tc main_v176)
      = slotSum (27 : ℕ) slices_S50000x32_S50000x1_0_27 (X (Proc.devRef .tc main_v170)) (X (Proc.devRef .tc main_arg0))
          (X (Proc.devRef .tc main_v2)) (X (Proc.devRef .tc main_v172)) := by
  after_results_simp
  simp only [TRef.ofBuf, TRef.toBuf, cast_eq]
  rfl

/-- The next slot's column is `nextCol` of the rows. -/
theorem next_column (X : Valuation τ sig (Elt Ideal)) :
    after hostOps0_114 (after hostOps0_113 (after hostOps0_112 (after hostOps0_111 X))) (Proc.devRef .tc main_v178)
      = nextCol (28 : ℕ) slices_S50000x32_S50000x1_0_28 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (27 : ℕ) (X (Proc.devRef .tc main_arg0)) (X (Proc.devRef .tc main_v2)) (X (Proc.devRef .tc main_v4))
      (X (Proc.devRef .tc main_v172)) (X (Proc.devRef .tc main_v170))) :
    Inv x e eps (28 : ℕ)
      (after hostOps0_114 (after hostOps0_113 (after hostOps0_112 (after hostOps0_111 X))) (Proc.devRef .tc main_arg0))
      (after hostOps0_114 (after hostOps0_113 (after hostOps0_112 (after hostOps0_111 X))) (Proc.devRef .tc main_v2))
      (after hostOps0_114 (after hostOps0_113 (after hostOps0_112 (after hostOps0_111 X))) (Proc.devRef .tc main_v4))
      (after hostOps0_114 (after hostOps0_113 (after hostOps0_112 (after hostOps0_111 X))) (Proc.devRef .tc main_v178))
      (after hostOps0_114 (after hostOps0_113 (after hostOps0_112 (after hostOps0_111 X))) (Proc.devRef .tc main_v176)) := by
  rw [table_kept X, bits_kept X, rows_kept X, sum_next X]
  refine I.step (by decide) hnn slices_S50000x32_S50000x1_0_27 _ (fun h n => ?_)
  exact (congrFun (next_column X) (ix1 n)).trans (nextCol_apply (28 : ℕ) slices_S50000x32_S50000x1_0_28 ⟨(28 : ℕ), h⟩ rfl _ n)

end Cert.KSlot.Step27

end
-- ==== Proof.KSlotStep28.lean ====
/-
  Neighbour slot 28 of the kernel's host program. The slot's four stretches of host operations read the table's rows that the
  slot's column of row words names, keep each row only where the slot names a node (zero elsewhere), add the result to
  the running sum and, while a next slot exists, cut its column of row words: they carry the invariant of the
  neighbour sum from before slot 28 to before slot 29.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step28

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_118 (after hostOps0_117 (after hostOps0_116 (after hostOps0_115 X))) (Proc.devRef .tc main_arg0)
      = X (Proc.devRef .tc main_arg0) := by
  after_results_simp

/-- The slot's stretches do not write the validity bits. -/
theorem bits_kept (X : Valuation τ sig (Elt Ideal)) :
    after hostOps0_118 (after hostOps0_117 (after hostOps0_116 (after hostOps0_115 X))) (Proc.devRef .tc main_v2)
      = X (Proc.devRef .tc main_v2) := by
  after_results_simp

/-- The slot's stretches do not write the rows. -/
theorem rows_kept (X : Valuation τ sig (Elt Ideal)) :
    after hostOps0_118 (after hostOps0_117 (after hostOps0_116 (after hostOps0_115 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_118 (after hostOps0_117 (after hostOps0_116 (after hostOps0_115 X))) (Proc.devRef .tc main_v182)
      = slotSum (28 : ℕ) slices_S50000x32_S50000x1_0_28 (X (Proc.devRef .tc main_v176)) (X (Proc.devRef .tc main_arg0))
          (X (Proc.devRef .tc main_v2)) (X (Proc.devRef .tc main_v178)) := by
  after_results_simp
  simp only [TRef.ofBuf, TRef.toBuf, cast_eq]
  rfl

/-- The next slot's column is `nextCol` of the rows. -/
theorem next_column (X : Valuation τ sig (Elt Ideal)) :
    after hostOps0_118 (after hostOps0_117 (after hostOps0_116 (after hostOps0_115 X))) (Proc.devRef .tc main_v184)
      = nextCol (29 : ℕ) slices_S50000x32_S50000x1_0_29 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (28 : ℕ) (X (Proc.devRef .tc main_arg0)) (X (Proc.devRef .tc main_v2)) (X (Proc.devRef .tc main_v4))
      (X (Proc.devRef .tc main_v178)) (X (Proc.devRef .tc main_v176))) :
    Inv x e eps (29 : ℕ)
      (after hostOps0_118 (after hostOps0_117 (after hostOps0_116 (after hostOps0_115 X))) (Proc.devRef .tc main_arg0))
      (after hostOps0_118 (after hostOps0_117 (after hostOps0_116 (after hostOps0_115 X))) (Proc.devRef .tc main_v2))
      (after hostOps0_118 (after hostOps0_117 (after hostOps0_116 (after hostOps0_115 X))) (Proc.devRef .tc main_v4))
      (after hostOps0_118 (after hostOps0_117 (after hostOps0_116 (after hostOps0_115 X))) (Proc.devRef .tc main_v184))
      (after hostOps0_118 (after hostOps0_117 (after hostOps0_116 (after hostOps0_115 X))) (Proc.devRef .tc main_v182)) := by
  rw [table_kept X, bits_kept X, rows_kept X, sum_next X]
  refine I.step (by decide) hnn slices_S50000x32_S50000x1_0_28 _ (fun h n => ?_)
  exact (congrFun (next_column X) (ix1 n)).trans (nextCol_apply (29 : ℕ) slices_S50000x32_S50000x1_0_29 ⟨(29 : ℕ), h⟩ rfl _ n)

end Cert.KSlot.Step28

end
-- ==== Proof.KSlotStep29.lean ====
/-
  Neighbour slot 29 of the kernel's host program. The slot's four stretches of host operations read the table's rows that the
  slot's column of row words names, keep each row only where the slot names a node (zero elsewhere), add the result to
  the running sum and, while a next slot exists, cut its column of row words: they carry the invariant of the
  neighbour sum from before slot 29 to before slot 30.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step29

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_122 (after hostOps0_121 (after hostOps0_120 (after hostOps0_119 X))) (Proc.devRef .tc main_arg0)
      = X (Proc.devRef .tc main_arg0) := by
  after_results_simp

/-- The slot's stretches do not write the validity bits. -/
theorem bits_kept (X : Valuation τ sig (Elt Ideal)) :
    after hostOps0_122 (after hostOps0_121 (after hostOps0_120 (after hostOps0_119 X))) (Proc.devRef .tc main_v2)
      = X (Proc.devRef .tc main_v2) := by
  after_results_simp

/-- The slot's stretches do not write the rows. -/
theorem rows_kept (X : Valuation τ sig (Elt Ideal)) :
    after hostOps0_122 (after hostOps0_121 (after hostOps0_120 (after hostOps0_119 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_122 (after hostOps0_121 (after hostOps0_120 (after hostOps0_119 X))) (Proc.devRef .tc main_v188)
      = slotSum (29 : ℕ) slices_S50000x32_S50000x1_0_29 (X (Proc.devRef .tc main_v182)) (X (Proc.devRef .tc main_arg0))
          (X (Proc.devRef .tc main_v2)) (X (Proc.devRef .tc main_v184)) := by
  after_results_simp
  simp only [TRef.ofBuf, TRef.toBuf, cast_eq]
  rfl

/-- The next slot's column is `nextCol` of the rows. -/
theorem next_column (X : Valuation τ sig (Elt Ideal)) :
    after hostOps0_122 (after hostOps0_121 (after hostOps0_120 (after hostOps0_119 X))) (Proc.devRef .tc main_v190)
      = nextCol (30 : ℕ) slices_S50000x32_S50000x1_0_30 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (29 : ℕ) (X (Proc.devRef .tc main_arg0)) (X (Proc.devRef .tc main_v2)) (X (Proc.devRef .tc main_v4))
      (X (Proc.devRef .tc main_v184)) (X (Proc.devRef .tc main_v182))) :
    Inv x e eps (30 : ℕ)
      (after hostOps0_122 (after hostOps0_121 (after hostOps0_120 (after hostOps0_119 X))) (Proc.devRef .tc main_arg0))
      (after hostOps0_122 (after hostOps0_121 (after hostOps0_120 (after hostOps0_119 X))) (Proc.devRef .tc main_v2))
      (after hostOps0_122 (after hostOps0_121 (after hostOps0_120 (after hostOps0_119 X))) (Proc.devRef .tc main_v4))
      (after hostOps0_122 (after hostOps0_121 (after hostOps0_120 (after hostOps0_119 X))) (Proc.devRef .tc main_v190))
      (after hostOps0_122 (after hostOps0_121 (after hostOps0_120 (after hostOps0_119 X))) (Proc.devRef .tc main_v188)) := by
  rw [table_kept X, bits_kept X, rows_kept X, sum_next X]
  refine I.step (by decide) hnn slices_S50000x32_S50000x1_0_29 _ (fun h n => ?_)
  exact (congrFun (next_column X) (ix1 n)).trans (nextCol_apply (30 : ℕ) slices_S50000x32_S50000x1_0_30 ⟨(30 : ℕ), h⟩ rfl _ n)

end Cert.KSlot.Step29

end
-- ==== Proof.KSlotStep30.lean ====
/-
  Neighbour slot 30 of the kernel's host program. The slot's four stretches of host operations read the table's rows that the
  slot's column of row words names, keep each row only where the slot names a node (zero elsewhere), add the result to
  the running sum and, while a next slot exists, cut its column of row words: they carry the invariant of the
  neighbour sum from before slot 30 to before slot 31.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step30

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_126 (after hostOps0_125 (after hostOps0_124 (after hostOps0_123 X))) (Proc.devRef .tc main_arg0)
      = X (Proc.devRef .tc main_arg0) := by
  after_results_simp

/-- The slot's stretches do not write the validity bits. -/
theorem bits_kept (X : Valuation τ sig (Elt Ideal)) :
    after hostOps0_126 (after hostOps0_125 (after hostOps0_124 (after hostOps0_123 X))) (Proc.devRef .tc main_v2)
      = X (Proc.devRef .tc main_v2) := by
  after_results_simp

/-- The slot's stretches do not write the rows. -/
theorem rows_kept (X : Valuation τ sig (Elt Ideal)) :
    after hostOps0_126 (after hostOps0_125 (after hostOps0_124 (after hostOps0_123 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_126 (after hostOps0_125 (after hostOps0_124 (after hostOps0_123 X))) (Proc.devRef .tc main_v194)
      = slotSum (30 : ℕ) slices_S50000x32_S50000x1_0_30 (X (Proc.devRef .tc main_v188)) (X (Proc.devRef .tc main_arg0))
          (X (Proc.devRef .tc main_v2)) (X (Proc.devRef .tc main_v190)) := by
  after_results_simp
  simp only [TRef.ofBuf, TRef.toBuf, cast_eq]
  rfl

/-- The next slot's column is `nextCol` of the rows. -/
theorem next_column (X : Valuation τ sig (Elt Ideal)) :
    after hostOps0_126 (after hostOps0_125 (after hostOps0_124 (after hostOps0_123 X))) (Proc.devRef .tc main_v196)
      = nextCol (31 : ℕ) slices_S50000x32_S50000x1_0_31 (X (Proc.devRef .tc main_v4)) := by
  after_results_simp
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (30 : ℕ) (X (Proc.devRef .tc main_arg0)) (X (Proc.devRef .tc main_v2)) (X (Proc.devRef .tc main_v4))
      (X (Proc.devRef .tc main_v190)) (X (Proc.devRef .tc main_v188))) :
    Inv x e eps (31 : ℕ)
      (after hostOps0_126 (after hostOps0_125 (after hostOps0_124 (after hostOps0_123 X))) (Proc.devRef .tc main_arg0))
      (after hostOps0_126 (after hostOps0_125 (after hostOps0_124 (after hostOps0_123 X))) (Proc.devRef .tc main_v2))
      (after hostOps0_126 (after hostOps0_125 (after hostOps0_124 (after hostOps0_123 X))) (Proc.devRef .tc main_v4))
      (after hostOps0_126 (after hostOps0_125 (after hostOps0_124 (after hostOps0_123 X))) (Proc.devRef .tc main_v196))
      (after hostOps0_126 (after hostOps0_125 (after hostOps0_124 (after hostOps0_123 X))) (Proc.devRef .tc main_v194)) := by
  rw [table_kept X, bits_kept X, rows_kept X, sum_next X]
  refine I.step (by decide) hnn slices_S50000x32_S50000x1_0_30 _ (fun h n => ?_)
  exact (congrFun (next_column X) (ix1 n)).trans (nextCol_apply (31 : ℕ) slices_S50000x32_S50000x1_0_31 ⟨(31 : ℕ), h⟩ rfl _ n)

end Cert.KSlot.Step30

end
-- ==== Proof.KSlotStep31.lean ====
/-
  Neighbour slot 31 of the kernel's host program. The slot's four stretches of host operations read the table's rows that the
  slot's column of row words names, keep each row only where the slot names a node (zero elsewhere), add the result to
  the running sum and, while a next slot exists, cut its column of row words: they carry the invariant of the
  neighbour sum from before slot 31 to before slot 32.

  The stretches are read over an arbitrary valuation of the buffers: the table, the bits and the rows are not written;
  the new running sum is the function `slotSum` of the old one, the table, the bits and the slot's column; the next
  column is the function `nextCol` of the rows. What these functions are at an index is the general step `Inv.step`.
-/
import proofs.«424014_j70935679861205_3_alg».proof.Proof.Gen.KernelIdeal.Frame
import proofs.«424014_j70935679861205_3_alg».proof.Proof.KSlotInv
import proofs.«424014_j70935679861205_3_alg».proof.Proof.KSlotMath

noncomputable section

namespace Cert.KSlot.Step31

open Cert.KernelIdeal Cert.KernelIdeal.Gen Idealize.ShloMosaic Idealize.ShloMosaic.ValueIdx Idealize.ShloMosaic.StableHlo
open Cert.Spec

/-- The slot's stretches do not write the table. -/
theorem table_kept (X : Valuation τ sig (Elt Ideal)) :
    after hostOps0_130 (after hostOps0_129 (after hostOps0_128 (after hostOps0_127 X))) (Proc.devRef .tc main_arg0)
      = X (Proc.devRef .tc main_arg0) := by
  after_results_simp

/-- The slot's stretches do not write the validity bits. -/
theorem bits_kept (X : Valuation τ sig (Elt Ideal)) :
    after hostOps0_130 (after hostOps0_129 (after hostOps0_128 (after hostOps0_127 X))) (Proc.devRef .tc main_v2)
      = X (Proc.devRef .tc main_v2) := by
  after_results_simp

/-- The slot's stretches do not write the rows. -/
theorem rows_kept (X : Valuation τ sig (Elt Ideal)) :
    after hostOps0_130 (after hostOps0_129 (after hostOps0_128 (after hostOps0_127 X))) (Proc.devRef .tc main_v4)
      = X (Proc.devRef .tc main_v4) := by
  after_results_simp

/-- The running sum after the slot is `slotSum` of the running sum, the table, the bits and the slot's column before. -/
theorem sum_next (X : Valuation τ sig (Elt Ideal)) :
    after hostOps0_130 (after hostOps0_129 (after hostOps0_128 (after hostOps0_127 X))) (Proc.devRef .tc main_v200)
      = slotSum (31 : ℕ) slices_S50000x32_S50000x1_0_31 (X (Proc.devRef .tc main_v194)) (X (Proc.devRef .tc main_arg0))
          (X (Proc.devRef .tc main_v2)) (X (Proc.devRef .tc main_v196)) := by
  after_results_simp
  simp only [TRef.ofBuf, TRef.toBuf, cast_eq]
  rfl

/-- The slot's four stretches carry the invariant from this slot to the next, whatever the buffers held before. -/
theorem step {X : Valuation τ sig (Elt Ideal)} {x : SX.Idx → EReal} {e : SE.Idx → BitVec 32} {eps : SOne.Idx → EReal}
    (hnn : ∀ (n : Fin 50000) (k : Fin 32), (e (ix2 n k)).toNat < 2 ^ 31)
    (I : Inv x e eps (31 : ℕ) (X (Proc.devRef .tc main_arg0)) (X (Proc.devRef .tc main_v2)) (X (Proc.devRef .tc main_v4))
      (X (Proc.devRef .tc main_v196)) (X (Proc.devRef .tc main_v194))) :
    Inv x e eps (32 : ℕ)
      (after hostOps0_130 (after hostOps0_129 (after hostOps0_128 (after hostOps0_127 X))) (Proc.devRef .tc main_arg0))
      (after hostOps0_130 (after hostOps0_129 (after hostOps0_128 (after hostOps0_127 X))) (Proc.devRef .tc main_v2))
      (after hostOps0_130 (after hostOps0_129 (after hostOps0_128 (after hostOps0_127 X))) (Proc.devRef .tc main_v4))
      (after hostOps0_130 (after hostOps0_129 (after hostOps0_128 (after hostOps0_127 X))) (Proc.devRef .tc main_v196))
      (after hostOps0_130 (after hostOps0_129 (after hostOps0_128 (after hostOps0_127 X))) (Proc.devRef .tc main_v200)) := by
  rw [table_kept X, bits_kept X, rows_kept X, sum_next X]
  refine I.step (by decide) hnn slices_S50000x32_S50000x1_0_31 _ (fun h n => ?_)
  exact absurd h (by decide)

end Cert.KSlot.Step31

end
-- ==== Proof.KHost.lean ====
/-
  What the kernel's program hands its one launch: the combined table h (the residual (1 + eps) x with the 32 neighbour
  rows added one slot at a time, each slot's row kept only where the slot names a node) and the weight, which at the
  extended reals is the argument itself (a change of float format changes nothing there).

  The program's host operations come in 131 stretches: three that clip the slots, compute the validity bits, the rows
  to read and the residual, then four per slot (read the slot's rows, cut the slot's validity column, mask, add). The
  buffers after each group are named Y0 … Y32 here; one invariant says what the five buffers that matter hold before
  slot j — the table, the validity bits, the rows, the slot's column of rows, and the running sum: the residual plus
  the first j neighbour terms — and each slot's four stretches carry it from j to j + 1.
-/
import proofs.«424014_j70935679861205_3_alg».proof.Proof.Gen.KernelIdeal.Frame
import proofs.«424014_j70935679861205_3_alg».proof.Proof.Spec
import proofs.«424014_j70935679861205_3_alg».proof.Proof.SlotFacts
import proofs.«424014_j70935679861205_3_alg».proof.Proof.KSlotInv
import proofs.«424014_j70935679861205_3_alg».proof.Proof.KHostEnds
import proofs.«424014_j70935679861205_3_alg».proof.Proof.KSlotStep00
import proofs.«424014_j70935679861205_3_alg».proof.Proof.KSlotStep01
import proofs.«424014_j70935679861205_3_alg».proof.Proof.KSlotStep02
import proofs.«424014_j70935679861205_3_alg».proof.Proof.KSlotStep03
import proofs.«424014_j70935679861205_3_alg».proof.Proof.KSlotStep04
import proofs.«424014_j70935679861205_3_alg».proof.Proof.KSlotStep05
import proofs.«424014_j70935679861205_3_alg».proof.Proof.KSlotStep06
import proofs.«424014_j70935679861205_3_alg».proof.Proof.KSlotStep07
import proofs.«424014_j70935679861205_3_alg».proof.Proof.KSlotStep08
import proofs.«424014_j70935679861205_3_alg».proof.Proof.KSlotStep09
import proofs.«424014_j70935679861205_3_alg».proof.Proof.KSlotStep10
import proofs.«424014_j70935679861205_3_alg».proof.Proof.KSlotStep11
import proofs.«424014_j70935679861205_3_alg».proof.Proof.KSlotStep12
import proofs.«424014_j70935679861205_3_alg».proof.Proof.KSlotStep13
import proofs.«424014_j70935679861205_3_alg».proof.Proof.KSlotStep14
import proofs.«424014_j70935679861205_3_alg».proof.Proof.KSlotStep15
import proofs.«424014_j70935679861205_3_alg».proof.Proof.KSlotStep16
import proofs.«424014_j70935679861205_3_alg».proof.Proof.KSlotStep17
import proofs.«424014_j70935679861205_3_alg».proof.Proof.KSlotStep18
import proofs.«424014_j70935679861205_3_alg».proof.Proof.KSlotStep19
import proofs.«424014_j70935679861205_3_alg».proof.Proof.KSlotStep20
import proofs.«424014_j70935679861205_3_alg».proof.Proof.KSlotStep21
import proofs.«424014_j70935679861205_3_alg».proof.Proof.KSlotStep22
import proofs.«424014_j70935679861205_3_alg».proof.Proof.KSlotStep23
import proofs.«424014_j70935679861205_3_alg».proof.Proof.KSlotStep24
import proofs.«424014_j70935679861205_3_alg».proof.Proof.KSlotStep25
import proofs.«424014_j70935679861205_3_alg».proof.Proof.KSlotStep26
import proofs.«424014_j70935679861205_3_alg».proof.Proof.KSlotStep27
import proofs.«424014_j70935679861205_3_alg».proof.Proof.KSlotStep28
import proofs.«424014_j70935679861205_3_alg».proof.Proof.KSlotStep29
import proofs.«424014_j70935679861205_3_alg».proof.Proof.KSlotStep30
import proofs.«424014_j70935679861205_3_alg».proof.Proof.KSlotStep31

set_option maxRecDepth 16384

noncomputable section

namespace Cert.KHost

open Cert.KernelIdeal Cert.KernelIdeal.Gen Idealize.ShloMosaic Idealize.ShloMosaic.TcCoe Idealize.ShloMosaic.ValueIdx

/-- The buffers after the program's first three stretches: the clipped slots, the validity bits, the rows read, the
    residual and slot 0's column. -/
def Y0 (M : Valuation τ sig (Elt Ideal)) : Valuation τ sig (Elt Ideal) :=
  StableHlo.after (hostOps0_2 (F := Ideal)) (StableHlo.after (hostOps0_1 (F := Ideal)) (StableHlo.after (hostOps0 (F := Ideal)) M))
/-- The buffers after slot 0's four stretches. -/
def Y1 (M : Valuation τ sig (Elt Ideal)) : Valuation τ sig (Elt Ideal) :=
  StableHlo.after (hostOps0_6 (F := Ideal)) (StableHlo.after (hostOps0_5 (F := Ideal)) (StableHlo.after (hostOps0_4 (F := Ideal)) (StableHlo.after (hostOps0_3 (F := Ideal)) (Y0 M))))
/-- The buffers after slot 1's four stretches. -/
def Y2 (M : Valuation τ sig (Elt Ideal)) : Valuation τ sig (Elt Ideal) :=
  StableHlo.after (hostOps0_10 (F := Ideal)) (StableHlo.after (hostOps0_9 (F := Ideal)) (StableHlo.after (hostOps0_8 (F := Ideal)) (StableHlo.after (hostOps0_7 (F := Ideal)) (Y1 M))))
/-- The buffers after slot 2's four stretches. -/
def Y3 (M : Valuation τ sig (Elt Ideal)) : Valuation τ sig (Elt Ideal) :=
  StableHlo.after (hostOps0_14 (F := Ideal)) (StableHlo.after (hostOps0_13 (F := Ideal)) (StableHlo.after (hostOps0_12 (F := Ideal)) (StableHlo.after (hostOps0_11 (F := Ideal)) (Y2 M))))
/-- The buffers after slot 3's four stretches. -/
def Y4 (M : Valuation τ sig (Elt Ideal)) : Valuation τ sig (Elt Ideal) :=
  StableHlo.after (hostOps0_18 (F := Ideal)) (StableHlo.after (hostOps0_17 (F := Ideal)) (StableHlo.after (hostOps0_16 (F := Ideal)) (StableHlo.after (hostOps0_15 (F := Ideal)) (Y3 M))))
/-- The buffers after slot 4's four stretches. -/
def Y5 (M : Valuation τ sig (Elt Ideal)) : Valuation τ sig (Elt Ideal) :=
  StableHlo.after (hostOps0_22 (F := Ideal)) (StableHlo.after (hostOps0_21 (F := Ideal)) (StableHlo.after (hostOps0_20 (F := Ideal)) (StableHlo.after (hostOps0_19 (F := Ideal)) (Y4 M))))
/-- The buffers after slot 5's four stretches. -/
def Y6 (M : Valuation τ sig (Elt Ideal)) : Valuation τ sig (Elt Ideal) :=
  StableHlo.after (hostOps0_26 (F := Ideal)) (StableHlo.after (hostOps0_25 (F := Ideal)) (StableHlo.after (hostOps0_24 (F := Ideal)) (StableHlo.after (hostOps0_23 (F := Ideal)) (Y5 M))))
/-- The buffers after slot 6's four stretches. -/
def Y7 (M : Valuation τ sig (Elt Ideal)) : Valuation τ sig (Elt Ideal) :=
  StableHlo.after (hostOps0_30 (F := Ideal)) (StableHlo.after (hostOps0_29 (F := Ideal)) (StableHlo.after (hostOps0_28 (F := Ideal)) (StableHlo.after (hostOps0_27 (F := Ideal)) (Y6 M))))
/-- The buffers after slot 7's four stretches. -/
def Y8 (M : Valuation τ sig (Elt Ideal)) : Valuation τ sig (Elt Ideal) :=
  StableHlo.after (hostOps0_34 (F := Ideal)) (StableHlo.after (hostOps0_33 (F := Ideal)) (StableHlo.after (hostOps0_32 (F := Ideal)) (StableHlo.after (hostOps0_31 (F := Ideal)) (Y7 M))))
/-- The buffers after slot 8's four stretches. -/
def Y9 (M : Valuation τ sig (Elt Ideal)) : Valuation τ sig (Elt Ideal) :=
  StableHlo.after (hostOps0_38 (F := Ideal)) (StableHlo.after (hostOps0_37 (F := Ideal)) (StableHlo.after (hostOps0_36 (F := Ideal)) (StableHlo.after (hostOps0_35 (F := Ideal)) (Y8 M))))
/-- The buffers after slot 9's four stretches. -/
def Y10 (M : Valuation τ sig (Elt Ideal)) : Valuation τ sig (Elt Ideal) :=
  StableHlo.after (hostOps0_42 (F := Ideal)) (StableHlo.after (hostOps0_41 (F := Ideal)) (StableHlo.after (hostOps0_40 (F := Ideal)) (StableHlo.after (hostOps0_39 (F := Ideal)) (Y9 M))))
/-- The buffers after slot 10's four stretches. -/
def Y11 (M : Valuation τ sig (Elt Ideal)) : Valuation τ sig (Elt Ideal) :=
  StableHlo.after (hostOps0_46 (F := Ideal)) (StableHlo.after (hostOps0_45 (F := Ideal)) (StableHlo.after (hostOps0_44 (F := Ideal)) (StableHlo.after (hostOps0_43 (F := Ideal)) (Y10 M))))
/-- The buffers after slot 11's four stretches. -/
def Y12 (M : Valuation τ sig (Elt Ideal)) : Valuation τ sig (Elt Ideal) :=
  StableHlo.after (hostOps0_50 (F := Ideal)) (StableHlo.after (hostOps0_49 (F := Ideal)) (StableHlo.after (hostOps0_48 (F := Ideal)) (StableHlo.after (hostOps0_47 (F := Ideal)) (Y11 M))))
/-- The buffers after slot 12's four stretches. -/
def Y13 (M : Valuation τ sig (Elt Ideal)) : Valuation τ sig (Elt Ideal) :=
  StableHlo.after (hostOps0_54 (F := Ideal)) (StableHlo.after (hostOps0_53 (F := Ideal)) (StableHlo.after (hostOps0_52 (F := Ideal)) (StableHlo.after (hostOps0_51 (F := Ideal)) (Y12 M))))
/-- The buffers after slot 13's four stretches. -/
def Y14 (M : Valuation τ sig (Elt Ideal)) : Valuation τ sig (Elt Ideal) :=
  StableHlo.after (hostOps0_58 (F := Ideal)) (StableHlo.after (hostOps0_57 (F := Ideal)) (StableHlo.after (hostOps0_56 (F := Ideal)) (StableHlo.after (hostOps0_55 (F := Ideal)) (Y13 M))))
/-- The buffers after slot 14's four stretches. -/
def Y15 (M : Valuation τ sig (Elt Ideal)) : Valuation τ sig (Elt Ideal) :=
  StableHlo.after (hostOps0_62 (F := Ideal)) (StableHlo.after (hostOps0_61 (F := Ideal)) (StableHlo.after (hostOps0_60 (F := Ideal)) (StableHlo.after (hostOps0_59 (F := Ideal)) (Y14 M))))
/-- The buffers after slot 15's four stretches. -/
def Y16 (M : Valuation τ sig (Elt Ideal)) : Valuation τ sig (Elt Ideal) :=
  StableHlo.after (hostOps0_66 (F := Ideal)) (StableHlo.after (hostOps0_65 (F := Ideal)) (StableHlo.after (hostOps0_64 (F := Ideal)) (StableHlo.after (hostOps0_63 (F := Ideal)) (Y15 M))))
/-- The buffers after slot 16's four stretches. -/
def Y17 (M : Valuation τ sig (Elt Ideal)) : Valuation τ sig (Elt Ideal) :=
  StableHlo.after (hostOps0_70 (F := Ideal)) (StableHlo.after (hostOps0_69 (F := Ideal)) (StableHlo.after (hostOps0_68 (F := Ideal)) (StableHlo.after (hostOps0_67 (F := Ideal)) (Y16 M))))
/-- The buffers after slot 17's four stretches. -/
def Y18 (M : Valuation τ sig (Elt Ideal)) : Valuation τ sig (Elt Ideal) :=
  StableHlo.after (hostOps0_74 (F := Ideal)) (StableHlo.after (hostOps0_73 (F := Ideal)) (StableHlo.after (hostOps0_72 (F := Ideal)) (StableHlo.after (hostOps0_71 (F := Ideal)) (Y17 M))))
/-- The buffers after slot 18's four stretches. -/
def Y19 (M : Valuation τ sig (Elt Ideal)) : Valuation τ sig (Elt Ideal) :=
  StableHlo.after (hostOps0_78 (F := Ideal)) (StableHlo.after (hostOps0_77 (F := Ideal)) (StableHlo.after (hostOps0_76 (F := Ideal)) (StableHlo.after (hostOps0_75 (F := Ideal)) (Y18 M))))
/-- The buffers after slot 19's four stretches. -/
def Y20 (M : Valuation τ sig (Elt Ideal)) : Valuation τ sig (Elt Ideal) :=
  StableHlo.after (hostOps0_82 (F := Ideal)) (StableHlo.after (hostOps0_81 (F := Ideal)) (StableHlo.after (hostOps0_80 (F := Ideal)) (StableHlo.after (hostOps0_79 (F := Ideal)) (Y19 M))))
/-- The buffers after slot 20's four stretches. -/
def Y21 (M : Valuation τ sig (Elt Ideal)) : Valuation τ sig (Elt Ideal) :=
  StableHlo.after (hostOps0_86 (F := Ideal)) (StableHlo.after (hostOps0_85 (F := Ideal)) (StableHlo.after (hostOps0_84 (F := Ideal)) (StableHlo.after (hostOps0_83 (F := Ideal)) (Y20 M))))
/-- The buffers after slot 21's four stretches. -/
def Y22 (M : Valuation τ sig (Elt Ideal)) : Valuation τ sig (Elt Ideal) :=
  StableHlo.after (hostOps0_90 (F := Ideal)) (StableHlo.after (hostOps0_89 (F := Ideal)) (StableHlo.after (hostOps0_88 (F := Ideal)) (StableHlo.after (hostOps0_87 (F := Ideal)) (Y21 M))))
/-- The buffers after slot 22's four stretches. -/
def Y23 (M : Valuation τ sig (Elt Ideal)) : Valuation τ sig (Elt Ideal) :=
  StableHlo.after (hostOps0_94 (F := Ideal)) (StableHlo.after (hostOps0_93 (F := Ideal)) (StableHlo.after (hostOps0_92 (F := Ideal)) (StableHlo.after (hostOps0_91 (F := Ideal)) (Y22 M))))
/-- The buffers after slot 23's four stretches. -/
def Y24 (M : Valuation τ sig (Elt Ideal)) : Valuation τ sig (Elt Ideal) :=
  StableHlo.after (hostOps0_98 (F := Ideal)) (StableHlo.after (hostOps0_97 (F := Ideal)) (StableHlo.after (hostOps0_96 (F := Ideal)) (StableHlo.after (hostOps0_95 (F := Ideal)) (Y23 M))))
/-- The buffers after slot 24's four stretches. -/
def Y25 (M : Valuation τ sig (Elt Ideal)) : Valuation τ sig (Elt Ideal) :=
  StableHlo.after (hostOps0_102 (F := Ideal)) (StableHlo.after (hostOps0_101 (F := Ideal)) (StableHlo.after (hostOps0_100 (F := Ideal)) (StableHlo.after (hostOps0_99 (F := Ideal)) (Y24 M))))
/-- The buffers after slot 25's four stretches. -/
def Y26 (M : Valuation τ sig (Elt Ideal)) : Valuation τ sig (Elt Ideal) :=
  StableHlo.after (hostOps0_106 (F := Ideal)) (StableHlo.after (hostOps0_105 (F := Ideal)) (StableHlo.after (hostOps0_104 (F := Ideal)) (StableHlo.after (hostOps0_103 (F := Ideal)) (Y25 M))))
/-- The buffers after slot 26's four stretches. -/
def Y27 (M : Valuation τ sig (Elt Ideal)) : Valuation τ sig (Elt Ideal) :=
  StableHlo.after (hostOps0_110 (F := Ideal)) (StableHlo.after (hostOps0_109 (F := Ideal)) (StableHlo.after (hostOps0_108 (F := Ideal)) (StableHlo.after (hostOps0_107 (F := Ideal)) (Y26 M))))
/-- The buffers after slot 27's four stretches. -/
def Y28 (M : Valuation τ sig (Elt Ideal)) : Valuation τ sig (Elt Ideal) :=
  StableHlo.after (hostOps0_114 (F := Ideal)) (StableHlo.after (hostOps0_113 (F := Ideal)) (StableHlo.after (hostOps0_112 (F := Ideal)) (StableHlo.after (hostOps0_111 (F := Ideal)) (Y27 M))))
/-- The buffers after slot 28's four stretches. -/
def Y29 (M : Valuation τ sig (Elt Ideal)) : Valuation τ sig (Elt Ideal) :=
  StableHlo.after (hostOps0_118 (F := Ideal)) (StableHlo.after (hostOps0_117 (F := Ideal)) (StableHlo.after (hostOps0_116 (F := Ideal)) (StableHlo.after (hostOps0_115 (F := Ideal)) (Y28 M))))
/-- The buffers after slot 29's four stretches. -/
def Y30 (M : Valuation τ sig (Elt Ideal)) : Valuation τ sig (Elt Ideal) :=
  StableHlo.after (hostOps0_122 (F := Ideal)) (StableHlo.after (hostOps0_121 (F := Ideal)) (StableHlo.after (hostOps0_120 (F := Ideal)) (StableHlo.after (hostOps0_119 (F := Ideal)) (Y29 M))))
/-- The buffers after slot 30's four stretches. -/
def Y31 (M : Valuation τ sig (Elt Ideal)) : Valuation τ sig (Elt Ideal) :=
  StableHlo.after (hostOps0_126 (F := Ideal)) (StableHlo.after (hostOps0_125 (F := Ideal)) (StableHlo.after (hostOps0_124 (F := Ideal)) (StableHlo.after (hostOps0_123 (F := Ideal)) (Y30 M))))
/-- The buffers after slot 31's four stretches. -/
def Y32 (M : Valuation τ sig (Elt Ideal)) : Valuation τ sig (Elt Ideal) :=
  StableHlo.after (hostOps0_130 (F := Ideal)) (StableHlo.after (hostOps0_129 (F := Ideal)) (StableHlo.after (hostOps0_128 (F := Ideal)) (StableHlo.after (hostOps0_127 (F := Ideal)) (Y31 M))))

/-- The buffers the launch finds are the buffers after the last group of stretches. -/
theorem V_split (m : (ℓ : Loc nD τ sig) → Buf (Elt Ideal) ℓ) (c : Dev nD) (r : Ref sig .tc) :
    V m c r = Y32 (fun b => m (c, b)) r := by
  show StableHlo.after (List.flatten _) _ _ = _
  simp only [Y32, Y31, Y30, Y29, Y28, Y27, Y26, Y25, Y24, Y23, Y22, Y21, Y20, Y19, Y18, Y17, Y16, Y15, Y14, Y13, Y12, Y11, Y10, Y9, Y8, Y7, Y6, Y5, Y4, Y3, Y2, Y1, Y0, List.flatten_cons, List.flatten_nil, List.append_nil, StableHlo.after_append]

/-- After all 32 slots the running sum holds the residual plus all 32 neighbour terms. -/
theorem inv_all (M : Valuation τ sig (Elt Ideal))
    (hnn : ∀ (n : Fin 50000) (k : Fin 32),
      ((M (Proc.devRef .tc main_arg1) : S50000x32.Idx → BitVec 32) (ix2 n k)).toNat < 2 ^ 31) :
    Cert.KSlot.Inv (M (Proc.devRef .tc main_arg0)) (M (Proc.devRef .tc main_arg1)) (M (Proc.devRef .tc main_arg2)) 32
      (Y32 M (Proc.devRef .tc main_arg0)) (Y32 M (Proc.devRef .tc main_v2)) (Y32 M (Proc.devRef .tc main_v4)) (Y32 M (Proc.devRef .tc main_v196)) (Y32 M (Proc.devRef .tc main_v200)) := by
  generalize hx : (M (Proc.devRef .tc main_arg0) : S50000x128.Idx → EReal) = x
  generalize he : (M (Proc.devRef .tc main_arg1) : S50000x32.Idx → BitVec 32) = e at hnn
  generalize heps : (M (Proc.devRef .tc main_arg2) : S1.Idx → EReal) = eps
  have i0 : Cert.KSlot.Inv x e eps 0 (Y0 M (Proc.devRef .tc main_arg0)) (Y0 M (Proc.devRef .tc main_v2)) (Y0 M (Proc.devRef .tc main_v4)) (Y0 M (Proc.devRef .tc main_v10)) (Y0 M (Proc.devRef .tc main_v8)) := by
    refine ⟨?_, ?_, ?_, ?_, ?_⟩
    · rw [← hx]; exact Cert.KHostEnds.prologue_arg0 M
    · intro n k; rw [← he]; exact Cert.KHostEnds.prologue_valid M (ix2 n k)
    · intro n k; rw [← he]; exact Cert.KHostEnds.prologue_rows M (ix2 n k)
    · intro h n; rw [← he]; exact Cert.KHostEnds.prologue_col0 M n
    · intro n c
      rw [Finset.sum_range_zero, add_zero, ← hx, ← heps]
      exact Cert.KHostEnds.prologue_resid M n c
  have i1 : Cert.KSlot.Inv x e eps 1 (Y1 M (Proc.devRef .tc main_arg0)) (Y1 M (Proc.devRef .tc main_v2)) (Y1 M (Proc.devRef .tc main_v4)) (Y1 M (Proc.devRef .tc main_v16)) (Y1 M (Proc.devRef .tc main_v14)) :=
    Cert.KSlot.Step00.step hnn i0
  have i2 : Cert.KSlot.Inv x e eps 2 (Y2 M (Proc.devRef .tc main_arg0)) (Y2 M (Proc.devRef .tc main_v2)) (Y2 M (Proc.devRef .tc main_v4)) (Y2 M (Proc.devRef .tc main_v22)) (Y2 M (Proc.devRef .tc main_v20)) :=
    Cert.KSlot.Step01.step hnn i1
  have i3 : Cert.KSlot.Inv x e eps 3 (Y3 M (Proc.devRef .tc main_arg0)) (Y3 M (Proc.devRef .tc main_v2)) (Y3 M (Proc.devRef .tc main_v4)) (Y3 M (Proc.devRef .tc main_v28)) (Y3 M (Proc.devRef .tc main_v26)) :=
    Cert.KSlot.Step02.step hnn i2
  have i4 : Cert.KSlot.Inv x e eps 4 (Y4 M (Proc.devRef .tc main_arg0)) (Y4 M (Proc.devRef .tc main_v2)) (Y4 M (Proc.devRef .tc main_v4)) (Y4 M (Proc.devRef .tc main_v34)) (Y4 M (Proc.devRef .tc main_v32)) :=
    Cert.KSlot.Step03.step hnn i3
  have i5 : Cert.KSlot.Inv x e eps 5 (Y5 M (Proc.devRef .tc main_arg0)) (Y5 M (Proc.devRef .tc main_v2)) (Y5 M (Proc.devRef .tc main_v4)) (Y5 M (Proc.devRef .tc main_v40)) (Y5 M (Proc.devRef .tc main_v38)) :=
    Cert.KSlot.Step04.step hnn i4
  have i6 : Cert.KSlot.Inv x e eps 6 (Y6 M (Proc.devRef .tc main_arg0)) (Y6 M (Proc.devRef .tc main_v2)) (Y6 M (Proc.devRef .tc main_v4)) (Y6 M (Proc.devRef .tc main_v46)) (Y6 M (Proc.devRef .tc main_v44)) :=
    Cert.KSlot.Step05.step hnn i5
  have i7 : Cert.KSlot.Inv x e eps 7 (Y7 M (Proc.devRef .tc main_arg0)) (Y7 M (Proc.devRef .tc main_v2)) (Y7 M (Proc.devRef .tc main_v4)) (Y7 M (Proc.devRef .tc main_v52)) (Y7 M (Proc.devRef .tc main_v50)) :=
    Cert.KSlot.Step06.step hnn i6
  have i8 : Cert.KSlot.Inv x e eps 8 (Y8 M (Proc.devRef .tc main_arg0)) (Y8 M (Proc.devRef .tc main_v2)) (Y8 M (Proc.devRef .tc main_v4)) (Y8 M (Proc.devRef .tc main_v58)) (Y8 M (Proc.devRef .tc main_v56)) :=
    Cert.KSlot.Step07.step hnn i7
  have i9 : Cert.KSlot.Inv x e eps 9 (Y9 M (Proc.devRef .tc main_arg0)) (Y9 M (Proc.devRef .tc main_v2)) (Y9 M (Proc.devRef .tc main_v4)) (Y9 M (Proc.devRef .tc main_v64)) (Y9 M (Proc.devRef .tc main_v62)) :=
    Cert.KSlot.Step08.step hnn i8
  have i10 : Cert.KSlot.Inv x e eps 10 (Y10 M (Proc.devRef .tc main_arg0)) (Y10 M (Proc.devRef .tc main_v2)) (Y10 M (Proc.devRef .tc main_v4)) (Y10 M (Proc.devRef .tc main_v70)) (Y10 M (Proc.devRef .tc main_v68)) :=
    Cert.KSlot.Step09.step hnn i9
  have i11 : Cert.KSlot.Inv x e eps 11 (Y11 M (Proc.devRef .tc main_arg0)) (Y11 M (Proc.devRef .tc main_v2)) (Y11 M (Proc.devRef .tc main_v4)) (Y11 M (Proc.devRef .tc main_v76)) (Y11 M (Proc.devRef .tc main_v74)) :=
    Cert.KSlot.Step10.step hnn i10
  have i12 : Cert.KSlot.Inv x e eps 12 (Y12 M (Proc.devRef .tc main_arg0)) (Y12 M (Proc.devRef .tc main_v2)) (Y12 M (Proc.devRef .tc main_v4)) (Y12 M (Proc.devRef .tc main_v82)) (Y12 M (Proc.devRef .tc main_v80)) :=
    Cert.KSlot.Step11.step hnn i11
  have i13 : Cert.KSlot.Inv x e eps 13 (Y13 M (Proc.devRef .tc main_arg0)) (Y13 M (Proc.devRef .tc main_v2)) (Y13 M (Proc.devRef .tc main_v4)) (Y13 M (Proc.devRef .tc main_v88)) (Y13 M (Proc.devRef .tc main_v86)) :=
    Cert.KSlot.Step12.step hnn i12
  have i14 : Cert.KSlot.Inv x e eps 14 (Y14 M (Proc.devRef .tc main_arg0)) (Y14 M (Proc.devRef .tc main_v2)) (Y14 M (Proc.devRef .tc main_v4)) (Y14 M (Proc.devRef .tc main_v94)) (Y14 M (Proc.devRef .tc main_v92)) :=
    Cert.KSlot.Step13.step hnn i13
  have i15 : Cert.KSlot.Inv x e eps 15 (Y15 M (Proc.devRef .tc main_arg0)) (Y15 M (Proc.devRef .tc main_v2)) (Y15 M (Proc.devRef .tc main_v4)) (Y15 M (Proc.devRef .tc main_v100)) (Y15 M (Proc.devRef .tc main_v98)) :=
    Cert.KSlot.Step14.step hnn i14
  have i16 : Cert.KSlot.Inv x e eps 16 (Y16 M (Proc.devRef .tc main_arg0)) (Y16 M (Proc.devRef .tc main_v2)) (Y16 M (Proc.devRef .tc main_v4)) (Y16 M (Proc.devRef .tc main_v106)) (Y16 M (Proc.devRef .tc main_v104)) :=
    Cert.KSlot.Step15.step hnn i15
  have i17 : Cert.KSlot.Inv x e eps 17 (Y17 M (Proc.devRef .tc main_arg0)) (Y17 M (Proc.devRef .tc main_v2)) (Y17 M (Proc.devRef .tc main_v4)) (Y17 M (Proc.devRef .tc main_v112)) (Y17 M (Proc.devRef .tc main_v110)) :=
    Cert.KSlot.Step16.step hnn i16
  have i18 : Cert.KSlot.Inv x e eps 18 (Y18 M (Proc.devRef .tc main_arg0)) (Y18 M (Proc.devRef .tc main_v2)) (Y18 M (Proc.devRef .tc main_v4)) (Y18 M (Proc.devRef .tc main_v118)) (Y18 M (Proc.devRef .tc main_v116)) :=
    Cert.KSlot.Step17.step hnn i17
  have i19 : Cert.KSlot.Inv x e eps 19 (Y19 M (Proc.devRef .tc main_arg0)) (Y19 M (Proc.devRef .tc main_v2)) (Y19 M (Proc.devRef .tc main_v4)) (Y19 M (Proc.devRef .tc main_v124)) (Y19 M (Proc.devRef .tc main_v122)) :=
    Cert.KSlot.Step18.step hnn i18
  have i20 : Cert.KSlot.Inv x e eps 20 (Y20 M (Proc.devRef .tc main_arg0)) (Y20 M (Proc.devRef .tc main_v2)) (Y20 M (Proc.devRef .tc main_v4)) (Y20 M (Proc.devRef .tc main_v130)) (Y20 M (Proc.devRef .tc main_v128)) :=
    Cert.KSlot.Step19.step hnn i19
  have i21 : Cert.KSlot.Inv x e eps 21 (Y21 M (Proc.devRef .tc main_arg0)) (Y21 M (Proc.devRef .tc main_v2)) (Y21 M (Proc.devRef .tc main_v4)) (Y21 M (Proc.devRef .tc main_v136)) (Y21 M (Proc.devRef .tc main_v134)) :=
    Cert.KSlot.Step20.step hnn i20
  have i22 : Cert.KSlot.Inv x e eps 22 (Y22 M (Proc.devRef .tc main_arg0)) (Y22 M (Proc.devRef .tc main_v2)) (Y22 M (Proc.devRef .tc main_v4)) (Y22 M (Proc.devRef .tc main_v142)) (Y22 M (Proc.devRef .tc main_v140)) :=
    Cert.KSlot.Step21.step hnn i21
  have i23 : Cert.KSlot.Inv x e eps 23 (Y23 M (Proc.devRef .tc main_arg0)) (Y23 M (Proc.devRef .tc main_v2)) (Y23 M (Proc.devRef .tc main_v4)) (Y23 M (Proc.devRef .tc main_v148)) (Y23 M (Proc.devRef .tc main_v146)) :=
    Cert.KSlot.Step22.step hnn i22
  have i24 : Cert.KSlot.Inv x e eps 24 (Y24 M (Proc.devRef .tc main_arg0)) (Y24 M (Proc.devRef .tc main_v2)) (Y24 M (Proc.devRef .tc main_v4)) (Y24 M (Proc.devRef .tc main_v154)) (Y24 M (Proc.devRef .tc main_v152)) :=
    Cert.KSlot.Step23.step hnn i23
  have i25 : Cert.KSlot.Inv x e eps 25 (Y25 M (Proc.devRef .tc main_arg0)) (Y25 M (Proc.devRef .tc main_v2)) (Y25 M (Proc.devRef .tc main_v4)) (Y25 M (Proc.devRef .tc main_v160)) (Y25 M (Proc.devRef .tc main_v158)) :=
    Cert.KSlot.Step24.step hnn i24
  have i26 : Cert.KSlot.Inv x e eps 26 (Y26 M (Proc.devRef .tc main_arg0)) (Y26 M (Proc.devRef .tc main_v2)) (Y26 M (Proc.devRef .tc main_v4)) (Y26 M (Proc.devRef .tc main_v166)) (Y26 M (Proc.devRef .tc main_v164)) :=
    Cert.KSlot.Step25.step hnn i25
  have i27 : Cert.KSlot.Inv x e eps 27 (Y27 M (Proc.devRef .tc main_arg0)) (Y27 M (Proc.devRef .tc main_v2)) (Y27 M (Proc.devRef .tc main_v4)) (Y27 M (Proc.devRef .tc main_v172)) (Y27 M (Proc.devRef .tc main_v170)) :=
    Cert.KSlot.Step26.step hnn i26
  have i28 : Cert.KSlot.Inv x e eps 28 (Y28 M (Proc.devRef .tc main_arg0)) (Y28 M (Proc.devRef .tc main_v2)) (Y28 M (Proc.devRef .tc main_v4)) (Y28 M (Proc.devRef .tc main_v178)) (Y28 M (Proc.devRef .tc main_v176)) :=
    Cert.KSlot.Step27.step hnn i27
  have i29 : Cert.KSlot.Inv x e eps 29 (Y29 M (Proc.devRef .tc main_arg0)) (Y29 M (Proc.devRef .tc main_v2)) (Y29 M (Proc.devRef .tc main_v4)) (Y29 M (Proc.devRef .tc main_v184)) (Y29 M (Proc.devRef .tc main_v182)) :=
    Cert.KSlot.Step28.step hnn i28
  have i30 : Cert.KSlot.Inv x e eps 30 (Y30 M (Proc.devRef .tc main_arg0)) (Y30 M (Proc.devRef .tc main_v2)) (Y30 M (Proc.devRef .tc main_v4)) (Y30 M (Proc.devRef .tc main_v190)) (Y30 M (Proc.devRef .tc main_v188)) :=
    Cert.KSlot.Step29.step hnn i29
  have i31 : Cert.KSlot.Inv x e eps 31 (Y31 M (Proc.devRef .tc main_arg0)) (Y31 M (Proc.devRef .tc main_v2)) (Y31 M (Proc.devRef .tc main_v4)) (Y31 M (Proc.devRef .tc main_v196)) (Y31 M (Proc.devRef .tc main_v194)) :=
    Cert.KSlot.Step30.step hnn i30
  have i32 : Cert.KSlot.Inv x e eps 32 (Y32 M (Proc.devRef .tc main_arg0)) (Y32 M (Proc.devRef .tc main_v2)) (Y32 M (Proc.devRef .tc main_v4)) (Y32 M (Proc.devRef .tc main_v196)) (Y32 M (Proc.devRef .tc main_v200)) :=
    Cert.KSlot.Step31.step hnn i31
  exact i32

/-- The table the launch's first window stages is the combined table h of the arguments, when no neighbour slot is
    negative. -/
theorem V_h (m : (ℓ : Loc nD τ sig) → Buf (Elt Ideal) ℓ) (c : Dev nD)
    (hnn : ∀ (n : Fin 50000) (k : Fin 32),
      ((m ((c : Thread nD τ).loc main_arg1) : S50000x32.Idx → BitVec 32) (ix2 n k)).toNat < 2 ^ 31) :
    (V m c main_v200 : S50000x128.Idx → EReal)
      = Cert.Spec.harr (m ((c : Thread nD τ).loc main_arg0)) (m ((c : Thread nD τ).loc main_arg1))
          (m ((c : Thread nD τ).loc main_arg2)) := by
  rw [V_split]
  exact (inv_all (fun b => m (c, b)) hnn).harr

/-- The weight the launch's second window stages is the weight argument. -/
theorem V_w (m : (ℓ : Loc nD τ sig) → Buf (Elt Ideal) ℓ) (c : Dev nD) :
    (V m c main_v201 : S128x128.Idx → EReal) = m ((c : Thread nD τ).loc main_arg3) :=
  Cert.KHostEnds.V_w m c

end Cert.KHost

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.KBody.lean ====
/-
  The kernel body's arithmetic, read at one entry of its block.

  The body takes a block of 5000 rows of the table, the weight, and three vectors of 128. It forms the linear layer
  y = block @ W + b, then for every row its mean (the lane sum over 128 divided by the literal 128), the centred row
  d = y - mean, the mean of d * d, the reciprocal root of that plus the literal 1e-5, and d * rsqrt * gamma + beta.
  Per-row scalars are kept as a column [5000, 1] and spread back over the 128 lanes; a vector of 128 is viewed as
  one row [1, 128] and spread over the 5000 rows. Read at (r, q), every stage is the specification's formula for row r.
-/
import proofs.«424014_j70935679861205_3_alg».proof.Proof.Gen.KernelIdeal.Skeleton
import proofs.«424014_j70935679861205_3_alg».proof.Proof.Spec
import proofs.«424014_j70935679861205_3_alg».proof.Proof.LibMatmulPlain
import Idealize.ShloMosaic.Lib.Pipeline.Value
import Idealize.ShloMosaic.Lib.ValueLayout

noncomputable section

namespace Cert.KBody

open Cert.KernelIdeal Cert.KernelIdeal.Gen Idealize.ShloMosaic Idealize.ShloMosaic.ValueIdx

/-! ## Columns: a vector viewed as one column, and a column spread over the lanes -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The stages of the body -/

/-- A vector of 128 viewed as one row and spread over the 5000 rows of a block. -/
def rowSpread (v : FVec Ideal S128 .f32) : FVec Ideal S5000x128 .f32 :=
  broadcastTo S5000x128 (shapeCast S1x128 v shapeCasts_S128_S1x128) broadcasts_S1x128_S5000x128

/-- A column of per-row scalars spread over the 128 lanes. -/
def colSpread (m : FVec Ideal S5000x1 .f32) : FVec Ideal S5000x128 .f32 :=
  broadcastTo S5000x128 m broadcasts_S5000x1_S5000x128

/-- The linear layer on a block: the block times the weight, plus the bias on every row. -/
def lin (v0 : Vec Ideal S5000x128 .f32) (v3 : Vec Ideal S128x128 .bf16) (v6 : Vec Ideal S128 .f32) : FVec Ideal S5000x128 .f32 :=
  addf (matmul dot_S5000x128_S128x128_S5000x128_1_0_0_1_n_n none
      (truncf .bf16 (shapeCast S5000x128 v0 shapeCasts_S5000x128_S5000x128 : FVec Ideal S5000x128 .f32) bitsLt_bf16_f32)
      (shapeCast S128x128 v3 shapeCasts_S128x128_S128x128 : FVec Ideal S128x128 .bf16) (constant S5000x128 .f32 0x00000000#32))
    (rowSpread v6)

/-- Every row's mean over its 128 lanes, as a column. -/
def meanCol (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 (Scalar.ofBits .f32 0x43000000#32))

/-- Every row minus its mean. -/
def centred (y : FVec Ideal S5000x128 .f32) : FVec Ideal S5000x128 .f32 := subf y (colSpread (meanCol y))

/-- The reciprocal root of every row's variance plus the literal 1e-5, as a column. -/
def rstdCol (y : FVec Ideal S5000x128 .f32) : FVec Ideal S5000x1 .f32 :=
  rsqrt (addf (meanCol (mulf (centred y) (centred y))) (broadcast S5000x1 (Scalar.ofBits .f32 0x3727C5AC#32)))

/-- The row normalisation of a block with its affine map. -/
def norm (y : FVec Ideal S5000x128 .f32) (g b : FVec Ideal S128 .f32) : FVec Ideal S5000x128 .f32 :=
  addf (mulf (mulf (centred y) (colSpread (rstdCol y))) (rowSpread g)) (rowSpread b)

/-- The body's result is the normalisation of the linear layer. -/
theorem pay_eq (v0 : Vec Ideal S5000x128 .f32) (v3 : Vec Ideal S128x128 .bf16) (v6 v26 v30 : Vec Ideal S128 .f32) :
    k0_pay1 (F := Ideal) v0 v3 v6 v26 v30 = norm (lin v0 v3 v6) v26 v30 := rfl

/-! ## The stages at an entry (r, q) -/

theorem rowSpread_apply (v : FVec Ideal S128 .f32) (r : Fin 5000) (q : Fin 128) : rowSpread v (ix2 r q) = v (ix1 q) :=
  (broadcastTo_1b_ab_apply _ broadcasts_S1x128_S5000x128 r q).trans (shapeCast_a_1a_apply v shapeCasts_S128_S1x128 (0 : Fin 1) q)

theorem colSpread_apply (m : FVec Ideal S5000x1 .f32) (r : Fin 5000) (q : Fin 128) :
    colSpread m (ix2 r q) = m (ix2 r (0 : Fin 1)) :=
  broadcastTo_a1_ab_apply m broadcasts_S5000x1_S5000x128 r q

/-- The linear layer at (r, q) is the specification's, of row r of the block. -/
theorem lin_apply (v0 : Vec Ideal S5000x128 .f32) (v3 : Vec Ideal S128x128 .bf16) (v6 : Vec Ideal S128 .f32) (r : Fin 5000) (q : Fin 128) :
    lin v0 v3 v6 (ix2 r q) = Cert.Spec.yrow (fun k => v0 (ix2 r k)) v3 v6 q := by
  unfold lin Cert.Spec.yrow
  rw [addf_apply, rowSpread_apply]
  refine congrArg (· + v6 (ix1 q)) ?_
  refine (Cert.Lib.MatmulPlain.matmul_zero_apply dot_S5000x128_S128x128_S5000x128_1_0_0_1_n_n rfl rfl rfl rfl rfl rfl none _ _ r q).trans ?_
  refine Finset.sum_congr rfl fun k _ => ?_
  rw [shapeCast_self, shapeCast_self]
  rfl

/-- The lane sum of row r. -/
theorem laneSum_apply (y : FVec Ideal S5000x128 .f32) (r : Fin 5000) :
    multiReduction .add [1] S5000 y 0x00000000#32 reduces_S5000x128_S5000 (.inl rfl) rfl (ix1 r) = ∑ k : Fin 128, y (ix2 r k) := by
  refine (Ideal.multiReduction_add_single y 0x00000000#32 reduces_S5000x128_S5000 (.inl rfl) rfl (ix1 r)).trans ?_
  refine Finset.sum_congr rfl fun k _ => congrArg y ?_
  funext a; apply Fin.ext
  match a with
  | ⟨0, _⟩ => rfl
  | ⟨1, _⟩ => rfl

/-- The mean column at row r is the specification's mean of row r. -/
theorem meanCol_apply (y : FVec Ideal S5000x128 .f32) (r : Fin 5000) (u : Fin 1) :
    meanCol y (ix2 r u) = Cert.Spec.mean128 (fun k => y (ix2 r k)) := by
  unfold meanCol Cert.Spec.mean128
  refine congrArg (fun s => Ideal.div s (Ideal.ofBits .f32 0x43000000#32)) ?_
  exact (shapeCast_a_a1_apply _ shapeCasts_S5000_S5000x1 r u).trans (laneSum_apply y r)

theorem centred_apply (y : FVec Ideal S5000x128 .f32) (r : Fin 5000) (q : Fin 128) :
    centred y (ix2 r q) = y (ix2 r q) - Cert.Spec.mean128 (fun k => y (ix2 r k)) := by
  unfold centred
  rw [subf_apply, colSpread_apply, meanCol_apply]

theorem rstdCol_apply (y : FVec Ideal S5000x128 .f32) (r : Fin 5000) (u : Fin 1) :
    rstdCol y (ix2 r u) = Ideal.rsqrt (Cert.Spec.mean128 (fun q' => (y (ix2 r q') - Cert.Spec.mean128 (fun k => y (ix2 r k)))
        * (y (ix2 r q') - Cert.Spec.mean128 (fun k => y (ix2 r k)))) + Ideal.ofBits .f32 0x3727C5AC#32) := by
  unfold rstdCol
  show Ideal.rsqrt (meanCol (mulf (centred y) (centred y)) (ix2 r u) + Ideal.ofBits .f32 0x3727C5AC#32) = _
  rw [meanCol_apply]
  refine congrArg (fun s => Ideal.rsqrt (Cert.Spec.mean128 s + Ideal.ofBits .f32 0x3727C5AC#32)) (funext fun k => ?_)
  rw [mulf_apply, centred_apply]

/-- The normalisation at (r, q) is the specification's, of row r. -/
theorem norm_apply (y : FVec Ideal S5000x128 .f32) (g b : FVec Ideal S128 .f32) (r : Fin 5000) (q : Fin 128) :
    norm y g b (ix2 r q) = Cert.Spec.lnRow (fun k => y (ix2 r k)) g b q := by
  unfold norm Cert.Spec.lnRow
  rw [addf_apply, mulf_apply, mulf_apply, centred_apply, colSpread_apply, rstdCol_apply, rowSpread_apply, rowSpread_apply]

/-- THE BODY AT (r, q): the linear layer and the row normalisation of row r of the table's block. -/
theorem pay_apply (v0 : Vec Ideal S5000x128 .f32) (v3 : Vec Ideal S128x128 .bf16) (v6 v26 v30 : Vec Ideal S128 .f32)
    (r : Fin 5000) (q : Fin 128) :
    k0_pay1 (F := Ideal) v0 v3 v6 v26 v30 (ix2 r q)
      = Cert.Spec.lnRow (Cert.Spec.yrow (fun k => v0 (ix2 r k)) v3 v6) v26 v30 q := by
  rw [pay_eq, norm_apply]
  exact congrArg (fun y => Cert.Spec.lnRow y v26 v30 q) (funext fun k => lin_apply v0 v3 v6 r k)

end Cert.KBody

end
-- ==== Proof.KValue.lean ====
/-
  The kernel's result array after its launch: every block of 5000 rows is the linear layer and the row normalisation of
  the same rows of the staged table, so the whole array is that function of the staged arrays.

  Grid point t stages rows 5000 t, ..., 5000 t + 4999 of the table (all 128 columns) and the whole weight, bias, scale
  and shift; the body stores one whole block, whose entry (r, q) depends on row r of the staged block only; the point
  writes that block back to the same rows of the result. An entry (n, q) of the specification depends on row n of the
  table only, so each written block is the specification's block, and the ten blocks tile the 50000 rows: row n lies
  in the block of point n / 5000.
-/
import proofs.«424014_j70935679861205_3_alg».proof.Proof.Gen.KernelIdeal.Value
import proofs.«424014_j70935679861205_3_alg».proof.Proof.Spec
import proofs.«424014_j70935679861205_3_alg».proof.Proof.KBody

noncomputable section

namespace Cert.KValue

open Cert.KernelIdeal Cert.KernelIdeal.Gen Idealize.ShloMosaic Idealize.ShloMosaic.TcCoe Idealize.ShloMosaic.ValueIdx

/-! ## The body's one store, read back -/

theorem zero_offsets2 : (![0, 0] : Fin 2 → Nat) = fun _ => 0 := funext fun a => by fin_cases a <;> rfl
theorem zero_offsets1 : (![0] : Fin 1 → Nat) = fun _ => 0 := funext fun a => by fin_cases a; rfl

/-- What the body leaves in the output's buffer: its one whole-block store, of the arithmetic of its whole-block loads. -/
theorem out_eq (x0 : Vec Ideal S5000x128 .f32) (x1 : Vec Ideal S128x128 .bf16) (x2 x3 x4 : Vec Ideal S128 .f32) :
    out0_5 (F := Ideal) x0 x1 x2 x3 x4 = k0_pay1 (F := Ideal) x0 x1 x2 x3 x4 := by
  unfold out0_5
  rw [View.canon_unit_zero zero_offsets2]
  simp only [View.ld_unit_zero (S := S5000x128) zero_offsets2, View.ld_unit_zero (S := S128x128) zero_offsets2,
    View.ld_unit_zero (S := S128) zero_offsets1]

/-- ONE ENTRY OF A WRITTEN BLOCK. If the staged block's row `y 0` is row `i 0` of a table `X`, the other staged blocks
    are the whole arrays `W`, `b`, `g`, `be`, and the columns agree, then the body's entry at `y` is the
    specification's entry at `i`: the specification's entry depends on that one row of the table only. -/
theorem entry_eq (X : S50000x128.Idx → EReal) (W : S128x128.Idx → EReal) (b g be : S128.Idx → EReal)
    (x0 : Vec Ideal S5000x128 .f32) (x1 : Vec Ideal S128x128 .bf16) (x2 x3 x4 : Vec Ideal S128 .f32)
    (y : S5000x128.Idx) (i : S50000x128.Idx)
    (h0 : ∀ k : Fin 128, x0 (ix2 (y 0) k) = X (ix2 (i 0) k)) (h1 : x1 = W) (h2 : x2 = b) (h3 : x3 = g) (h4 : x4 = be)
    (hq : (i 1).val = (y 1).val) :
    out0_5 (F := Ideal) x0 x1 x2 x3 x4 y = Cert.Spec.outOf X W b g be i := by
  subst h1 h2 h3 h4
  rw [out_eq]
  obtain ⟨r, q, rfl⟩ : ∃ (r : Fin 5000) (q : Fin 128), y = ix2 r q := ⟨y 0, y 1, eq_ix2 y⟩
  rw [Cert.KBody.pay_apply]
  have hq' : i 1 = q := Fin.ext hq
  show Cert.Spec.lnRow (Cert.Spec.yrow (fun k => x0 (ix2 r k)) x1 x2) x3 x4 q
    = Cert.Spec.lnRow (Cert.Spec.yrow (fun k => X (ix2 (i 0) k)) x1 x2) x3 x4 (i 1)
  rw [show (fun k => x0 (ix2 r k)) = (fun k => X (ix2 (i 0) k)) from funext h0, hq']

/-! ## Where each window's block sits, decided once over the ten grid points -/

/-- The table's and the result's blocks move down the rows with the point, at column block 0; the weight and the three
    vectors stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0 :=
  (by decide +kernel : ∀ t : Fin grid0.N, _)

section Blocks

variable (m : (ℓ : Loc nD τ sig) → Buf (Elt Ideal) ℓ)

/-- Window 0's block at point t is rows 5000 t, ..., 5000 t + 4999 of the staged table. -/
theorem iblk0_apply (c : Dev nD) (t : Fin cfg0.N) (y : S5000x128.Idx) (i : S50000x128.Idx)
    (h0 : (i 0).val = t.val * 5000 + (y 0).val) (h1 : (i 1).val = (y 1).val) :
    (iblk m c 0 t : Vec Ideal S5000x128 .f32) y = (V m c main_v200 : S50000x128.Idx → EReal) i := by
  obtain ⟨e0, e1, -⟩ := idx_facts t
  unfold iblk
  rw [View.read_apply]
  show V m c main_v200 (((cfg0.win 0).blk t).view.emb y) = V m c main_v200 i
  refine congrArg (V m c main_v200) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Window 1's block at every point is the whole weight. -/
theorem iblk1_eq (c : Dev nD) (t : Fin cfg0.N) :
    (iblk m c 1 t : Vec Ideal S128x128 .bf16) = (V m c main_v201 : S128x128.Idx → EReal) := by
  obtain ⟨-, -, e0, e1, -⟩ := idx_facts t
  funext y
  unfold iblk
  rw [View.read_apply]
  show V m c main_v201 (((cfg0.win 1).blk t).view.emb y) = V m c main_v201 y
  refine congrArg (V m c main_v201) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Window 2's block at every point is the whole bias. -/
theorem iblk2_eq (c : Dev nD) (t : Fin cfg0.N) :
    (iblk m c 2 t : Vec Ideal S128 .f32) = (V m c main_arg4 : S128.Idx → EReal) := by
  obtain ⟨-, -, -, -, e0, -⟩ := idx_facts t
  funext y
  unfold iblk
  rw [View.read_apply]
  show V m c main_arg4 (((cfg0.win 2).blk t).view.emb y) = V m c main_arg4 y
  refine congrArg (V m c main_arg4) (funext fun a => Fin.ext ?_)
  match a with
  | ⟨0, _⟩ => show win0_2.index t (0 : Fin 1) * 128 + 1 * (y 0).val = (y 0).val; rw [e0]; omega

/-- Window 3's block at every point is the whole scale. -/
theorem iblk3_eq (c : Dev nD) (t : Fin cfg0.N) :
    (iblk m c 3 t : Vec Ideal S128 .f32) = (V m c main_arg5 : S128.Idx → EReal) := by
  obtain ⟨-, -, -, -, -, e0, -⟩ := idx_facts t
  funext y
  unfold iblk
  rw [View.read_apply]
  show V m c main_arg5 (((cfg0.win 3).blk t).view.emb y) = V m c main_arg5 y
  refine congrArg (V m c main_arg5) (funext fun a => Fin.ext ?_)
  match a with
  | ⟨0, _⟩ => show win0_3.index t (0 : Fin 1) * 128 + 1 * (y 0).val = (y 0).val; rw [e0]; omega

/-- Window 4's block at every point is the whole shift. -/
theorem iblk4_eq (c : Dev nD) (t : Fin cfg0.N) :
    (iblk m c 4 t : Vec Ideal S128 .f32) = (V m c main_arg6 : S128.Idx → EReal) := by
  obtain ⟨-, -, -, -, -, -, e0, -⟩ := idx_facts t
  funext y
  unfold iblk
  rw [View.read_apply]
  show V m c main_arg6 (((cfg0.win 4).blk t).view.emb y) = V m c main_arg6 y
  refine congrArg (V m c main_arg6) (funext fun a => Fin.ext ?_)
  match a with
  | ⟨0, _⟩ => show win0_4.index t (0 : Fin 1) * 128 + 1 * (y 0).val = (y 0).val; rw [e0]; omega

/-! ## What a point writes back, and the whole array -/

/-- WHAT POINT t WRITES BACK is block t of the specification's array of the staged arrays. -/
theorem flushed_eq (c : Dev nD) (t : Fin cfg0.N) :
    (dats m 0 c).flushed 5 t = ((cfg0.win 5).blk t).view.read (Elt Ideal)
      (Cert.Spec.outOf (V m c main_v200) (V m c main_v201) (V m c main_arg4) (V m c main_arg5) (V m c main_arg6)) := by
  rw [Value.flushed5]
  obtain ⟨-, -, -, -, -, -, -, e0, e1⟩ := idx_facts t
  funext j
  rw [View.read_apply]
  refine entry_eq (V m c main_v200) (V m c main_v201) (V m c main_arg4) (V m c main_arg5) (V m c main_arg6)
    (iblk m c 0 t) (iblk m c 1 t) (iblk m c 2 t) (iblk m c 3 t) (iblk m c 4 t)
    ((cfg0.win 5).xinj (grid0.coords t) j) (((cfg0.win 5).blk t).view.emb j)
    (fun k => iblk0_apply m c t _ _ ?_ ?_) (iblk1_eq m c t) (iblk2_eq m c t) (iblk3_eq m c t) (iblk4_eq m c t) ?_
  · show win0_5.index t (0 : Fin 2) * 5000 + 1 * (j 0).val = t.val * 5000 + (j 0).val
    rw [e0]; omega
  · rfl
  · show win0_5.index t (1 : Fin 2) * 128 + 1 * (j 1).val = (j 1).val
    rw [e1]; omega

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v202).slice (win0_5.rect t)).set ↔ _
  rw [View.set_slice_whole, Rect.mem_set_unit]
  exact Iff.rfl

/-- Every index of the result is in some point's block: row n is in the block of point n / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

end Blocks

/-- The output array after the launch, as one function of the arrays the launch found. -/
theorem final (m : (ℓ : Loc nD τ sig) → Buf (Elt Ideal) ℓ) (c : Dev nD) :
    ((dats m 0 c).arrAt 5 cfg0.N : S50000x128.Idx → EReal)
      = Cert.Spec.outOf (V m c main_v200) (V m c main_v201) (V m c main_arg4) (V m c main_arg5) (V m c main_arg6) :=
  (dats m 0 c).arrAt_eq_of_cover 5
    (Cert.Spec.outOf (V m c main_v200) (V m c main_v201) (V m c main_arg4) (V m c main_arg5) (V m c main_arg6))
    (fun t _ => flushed_eq m c t) cover

end Cert.KValue

end
-- ==== Proof.LibGatherRows3.lean ====
/-
  A gather of whole rows of a table, read at an index.

  A table of shape [N, C] is gathered at an array of start indices [A, B, 1]: offset axis 2, collapsed slice axis 0,
  start index map [0], index vector axis 2, slice sizes [1, C]. The result has shape [A, B, C], and its element
  (a, p, c) is the table's element in column c of the row that start index (a, p, 0) names, the start index read as a
  signed integer and kept inside [0, N - 1]. For a start index that is a small natural number already inside the table
  the row is the index's own value; and the usual wrap of a negative index by the table's height, a select between
  the index plus N and the index on the index's sign, leaves such an index as it is.
-/
import Idealize.ShloMosaic.Lib.ValueIdx
import Idealize.ShloMosaic.Lib.StableHlo.Predicate

noncomputable section

namespace Cert.Lib.GatherRows3

open Idealize.ShloMosaic Idealize.ShloMosaic.ValueIdx

variable {α : Type}

/-- The dimension numbers of a gather of whole rows: operand [N, C], start indices [A, B, 1], result [A, B, C]. -/
abbrev rowsDims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather of rows read at (a, p, c): the table at column c of the row the start index (a, p, 0) names, read
    signed and kept inside [0, N - 1]. -/
theorem gather_rows_apply {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (p : Fin B) (c : Fin C) :
    Host.gather (rowsDims N A B C wf) x idx (ix3 a p c)
      = x (ix2 (⟨min (idx (ix3 a p (0 : Fin 1))).toInt.toNat (N - 1), by omega⟩ : Fin N) c) := by
  unfold Host.gather
  congr 1
  funext e
  refine Fin.ext ?_
  match e with
  | ⟨0, _⟩ =>
    show (rowsDims N A B C wf).start (ix3 a p c) idx 0 + (rowsDims N A B C wf).batchCoord (ix3 a p c) 0
      + (rowsDims N A B C wf).offCoord (ix3 a p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N A B C wf).startIndexMap from List.mem_singleton.mpr rfl)]
    have hsi : (rowsDims N A B C wf).siIdx (ix3 a p c) ⟨List.idxOf (0 : Fin 2) (rowsDims N A B C wf).startIndexMap,
        List.idxOf_lt_length_iff.2 (List.mem_singleton.mpr rfl)⟩ = ix3 a p (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N A B C wf).start (ix3 a p c) idx 1 + (rowsDims N A B C wf).batchCoord (ix3 a p c) 1
      + (rowsDims N A B C wf).offCoord (ix3 a p c) 1 = c.val
    rw [GatherDims.batchCoord_eq_zero _ _ _ List.not_mem_nil]
    unfold GatherDims.start
    rw [dif_neg (show (1 : Fin 2) ∉ (rowsDims N A B C wf).startIndexMap from
      fun h => absurd (List.mem_singleton.mp h) (by decide : ¬ ((1 : Fin 2) = 0)))]
    simp only [Nat.zero_add, Nat.add_zero]
    rfl

/-- A word below 2^31 is not negative, so the wrap by the table's height (the word plus n where the word is negative,
    else the word) leaves it as it is. -/
theorem wrap_eq (t n : BitVec 32) (ht : t.toNat < 2 ^ 31) :
    Scalar.select (IntOp.cmpi .slt t 0#32) (IntOp.addi t n) t = t := by
  unfold Scalar.select
  refine if_neg fun h => ?_
  exact Nat.not_lt_zero _ ((StableHlo.Predicate.slt_iff_toNat ht (by decide)).mp h)

/-- A word that names a row of a table of N rows, N below 2^31, read signed and kept inside [0, N - 1], is its own
    value. -/
theorem clamp_eq (t : BitVec 32) (N : Nat) (hN : N ≤ 2 ^ 31) (ht : t.toNat < N) :
    min t.toInt.toNat (N - 1) = t.toNat := by
  rw [StableHlo.Predicate.toInt_eq_toNat_of_lt (by omega), Int.toNat_natCast]
  omega

end Cert.Lib.GatherRows3

end
-- ==== Proof.RefValue.lean ====
/-
  The reference's result as the same function of the arguments: the padded table read at a slot is the node's row or the
  zero row, the sum over the 32 slots and the residual give the combined table h, and the rest is the linear layer and
  the row normalisation.
-/
import proofs.«424014_j70935679861205_3_alg».proof.Proof.Gen.ReferenceIdeal.Read
import proofs.«424014_j70935679861205_3_alg».proof.Proof.Spec
import proofs.«424014_j70935679861205_3_alg».proof.Proof.SlotFacts
import proofs.«424014_j70935679861205_3_alg».proof.Proof.LibGatherRows3

noncomputable section

namespace Cert.RefValue

open Cert.ReferenceIdeal Cert.ReferenceIdeal.Gen Cert.ReferenceIdeal.Read Idealize.ShloMosaic Idealize.ShloMosaic.ValueIdx

/-- The padded table at a row below 50000 is the node table's row. -/
theorem padded_of_lt (x0 : S50000x128.Idx → EReal) (r : Fin 50001) (c : Fin 128) (h : r.val < 50000) :
    val_main_v1 (F := Ideal) x0 (ix2 r c) = x0 (ix2 (⟨r.val, h⟩ : Fin 50000) c) := by
  unfold val_main_v1
  exact concatenate_pair_apply_left (t := S50001x128) (s₁ := S50000x128) (s₂ := S1x128) 0 x0 _ _ (ix2 r c) rfl
    (ix2 (⟨r.val, h⟩ : Fin 50000) c) (fun b => by
    match b with
    | ⟨0, _⟩ => rfl
    | ⟨1, _⟩ => rfl)

/-- The padded table's last row is the zero row. -/
theorem padded_last (x0 : S50000x128.Idx → EReal) (r : Fin 50001) (c : Fin 128) (h : ¬ r.val < 50000) :
    val_main_v1 (F := Ideal) x0 (ix2 r c) = 0 := by
  have hr : r.val = 50000 := by omega
  unfold val_main_v1
  rw [concatenate_pair_apply_right (t := S50001x128) (s₁ := S50000x128) (s₂ := S1x128) 0 x0 (val_main_v0 (F := Ideal)) _
    (ix2 r c) rfl rfl (ix2 (0 : Fin 1) c)
    (fun b hb => by
      match b with
      | ⟨0, _⟩ => exact absurd rfl hb
      | ⟨1, _⟩ => rfl)
    (by show 0 + 50000 = r.val; omega)]
  rw [val_main_v0_apply, val_main_cst_apply]
  exact Ideal.ofBits_zero_f32

/-- Slot k of node n holds, after the reference's wrap of negative indices, the slot word itself. -/
theorem start_index (x1 : S50000x32.Idx → BitVec 32) (n : Fin 50000) (k : Fin 32)
    (hw : (x1 (ix2 n k)).toNat < 2 ^ 31) :
    val_main_v7 (F := Ideal) x1 (ix3 n k (0 : Fin 1)) = x1 (ix2 n k) := by
  have e : idx_main_v7 (ix3 n k (0 : Fin 1)) = ix2 n k :=
    funext fun a => Fin.ext (by match a with | ⟨0, _⟩ => rfl | ⟨1, _⟩ => rfl)
  rw [val_main_v7_apply, val_main_v6_apply, val_main_v3_apply, val_main_v5_apply, val_main_v2_apply,
    val_main_c_apply, val_main_v4_apply, val_main_c_0_apply, e]
  exact Cert.SlotFacts.ref_wrap _ hw

/-- The padded table at the row a slot word names, kept at most 50000, is what the slot adds. -/
theorem padded_at_slot (x0 : S50000x128.Idx → EReal) (x1 : S50000x32.Idx → BitVec 32) (n : Fin 50000) (k : Fin 32)
    (c : Fin 128) (r : Fin 50001) (hr : r.val = min (x1 (ix2 n k)).toNat 50000) :
    val_main_v1 (F := Ideal) x0 (ix2 r c) = Cert.Spec.nb x0 x1 n k c := by
  unfold Cert.Spec.nb
  by_cases h : (x1 (ix2 n k)).toNat < 50000
  · rw [dif_pos h, padded_of_lt x0 r c (by omega)]
    exact congrArg (fun t : Fin 50000 => x0 (ix2 t c)) (Fin.ext (by show r.val = (x1 (ix2 n k)).toNat; omega))
  · rw [dif_neg h, padded_last x0 r c (by omega)]

/-- The gathered rows at slot k of node n, column c: what the slot adds. -/
theorem gathered (x0 : S50000x128.Idx → EReal) (x1 : S50000x32.Idx → BitVec 32) (n : Fin 50000) (k : Fin 32)
    (c : Fin 128) (hw : (x1 (ix2 n k)).toNat < 2 ^ 31) :
    val_main_v8 (F := Ideal) x0 x1 (ix3 n k c) = Cert.Spec.nb x0 x1 n k c := by
  unfold val_main_v8
  refine (Cert.Lib.GatherRows3.gather_rows_apply (N := 50001) (A := 50000) (B := 32) (C := 128) (by decide)
    gather_S50001x128_S50000x32x1_S50000x32x128_2_0_n_n_0_2_1128_wf (val_main_v1 (F := Ideal) x0)
    (val_main_v7 (F := Ideal) x1) n k c).trans ?_
  refine padded_at_slot x0 x1 n k c _ ?_
  show min (val_main_v7 (F := Ideal) x1 (ix3 n k (0 : Fin 1))).toInt.toNat (50001 - 1) = _
  rw [start_index x1 n k hw]
  exact Cert.SlotFacts.ref_row _ hw

/-- The combined table h at (n, c). -/
theorem combined (x0 : S50000x128.Idx → EReal) (x1 : S50000x32.Idx → BitVec 32) (x2 : S1.Idx → EReal)
    (hnn : ∀ (n : Fin 50000) (k : Fin 32), (x1 (ix2 n k)).toNat < 2 ^ 31) (n : Fin 50000) (c : Fin 128) :
    val_main_v15 (F := Ideal) x0 x1 x2 (ix2 n c) = Cert.Spec.hval x0 x1 x2 n c := by
  have e9 : ∀ k : Fin 32, idx_main_v9 (ix2 n c) k = ix3 n k c := fun k =>
    funext fun a => Fin.ext (by match a with | ⟨0, _⟩ => rfl | ⟨1, _⟩ => rfl | ⟨2, _⟩ => rfl)
  have e12 : idx_main_v12 (idx_main_v13 (ix2 n c)) = ix1 (0 : Fin 1) :=
    funext fun a => Fin.ext (by match a with | ⟨0, _⟩ => rfl)
  have hsum : ∑ k : Fin 32, val_main_v8 (F := Ideal) x0 x1 (idx_main_v9 (ix2 n c) k) = ∑ k : Fin 32, Cert.Spec.nb x0 x1 n k c :=
    Finset.sum_congr rfl fun k _ => by rw [e9 k, gathered x0 x1 n k c (hnn n k)]
  rw [val_main_v15_apply, val_main_v14_apply, val_main_v13_apply, val_main_v12_apply, val_main_v11_apply,
    val_main_v10_apply, val_main_cst_2_apply, val_main_v9_apply, val_main_cst_1_apply, hsum, e12]
  simp only [Ideal.addf_def, Ideal.mulf_def, Ideal.ofBits_def, Ideal.ofBits_zero_f32, zero_add]
  rfl

/-- The linear layer's result at (n, q). -/
theorem linear (x0 : S50000x128.Idx → EReal) (x1 : S50000x32.Idx → BitVec 32) (x2 : S1.Idx → EReal)
    (x3 : S128x128.Idx → EReal) (x4 : S128.Idx → EReal)
    (hnn : ∀ (n : Fin 50000) (k : Fin 32), (x1 (ix2 n k)).toNat < 2 ^ 31) (n : Fin 50000) (q : Fin 128) :
    val_main_v19 (F := Ideal) x0 x1 x2 x3 x4 (ix2 n q)
      = Cert.Spec.yrow (fun k => Cert.Spec.harr x0 x1 x2 (ix2 n k)) x3 x4 q := by
  have el : ∀ k : Fin 128, lidx_main_v16 (ix2 n q) k = ix2 n k := fun k =>
    funext fun a => Fin.ext (by match a with | ⟨0, _⟩ => rfl | ⟨1, _⟩ => rfl)
  have er : ∀ k : Fin 128, ridx_main_v16 (ix2 n q) k = ix2 k q := fun k =>
    funext fun a => Fin.ext (by match a with | ⟨0, _⟩ => rfl | ⟨1, _⟩ => rfl)
  have e17 : idx_main_v17 (idx_main_v18 (ix2 n q)) = ix1 q :=
    funext fun a => Fin.ext (by match a with | ⟨0, _⟩ => rfl)
  have hsum : ∑ k : Fin 128, val_main_v15 (F := Ideal) x0 x1 x2 (lidx_main_v16 (ix2 n q) k) * x3 (ridx_main_v16 (ix2 n q) k)
      = ∑ k : Fin 128, Cert.Spec.hval x0 x1 x2 n k * x3 (ix2 k q) :=
    Finset.sum_congr rfl fun k _ => by rw [el k, er k, combined x0 x1 x2 hnn n k]
  rw [val_main_v19_apply, val_main_v16_apply, val_main_v18_apply, val_main_v17_apply, hsum, e17]
  rfl

section Norm

variable (x0 : S50000x128.Idx → EReal) (x1 : S50000x32.Idx → BitVec 32) (x2 : S1.Idx → EReal)
  (x3 : S128x128.Idx → EReal) (x4 x5 x6 : S128.Idx → EReal)

/-- Row n of the linear layer's result. -/
def linRow (n : Fin 50000) : Fin 128 → EReal := fun q => val_main_v19 (F := Ideal) x0 x1 x2 x3 x4 (ix2 n q)

/-- The mean of row n. -/
theorem mean_at (n : Fin 50000) :
    val_main_v23 (F := Ideal) x0 x1 x2 x3 x4 (ix2 n (0 : Fin 1)) = Cert.Spec.mean128 (linRow x0 x1 x2 x3 x4 n) := by
  have e20 : ∀ k : Fin 128, idx_main_v20 (idx_main_v21 (ix2 n (0 : Fin 1))) k = ix2 n k := fun k =>
    funext fun a => Fin.ext (by match a with | ⟨0, _⟩ => rfl | ⟨1, _⟩ => rfl)
  rw [val_main_v23_apply, val_main_v21_apply, val_main_v20_apply, val_main_v22_apply, val_main_cst_4_apply,
    val_main_cst_3_apply]
  simp only [e20, Ideal.hostDivf_def, Ideal.ofBits_def, Ideal.ofBits_zero_f32, zero_add]
  rfl

/-- Row n centred, as the variance reads it. -/
theorem centred_var (n : Fin 50000) (q : Fin 128) :
    val_main_v25 (F := Ideal) x0 x1 x2 x3 x4 (ix2 n q)
      = linRow x0 x1 x2 x3 x4 n q - Cert.Spec.mean128 (linRow x0 x1 x2 x3 x4 n) := by
  have e24 : idx_main_v24 (ix2 n q) = ix2 n (0 : Fin 1) :=
    funext fun a => Fin.ext (by match a with | ⟨0, _⟩ => rfl | ⟨1, _⟩ => rfl)
  rw [val_main_v25_apply, val_main_v24_apply, e24, mean_at]
  rfl

/-- Row n centred, as the result reads it. -/
theorem centred_out (n : Fin 50000) (q : Fin 128) :
    val_main_v32 (F := Ideal) x0 x1 x2 x3 x4 (ix2 n q)
      = linRow x0 x1 x2 x3 x4 n q - Cert.Spec.mean128 (linRow x0 x1 x2 x3 x4 n) := by
  have e31 : idx_main_v31 (ix2 n q) = ix2 n (0 : Fin 1) :=
    funext fun a => Fin.ext (by match a with | ⟨0, _⟩ => rfl | ⟨1, _⟩ => rfl)
  rw [val_main_v32_apply, val_main_v31_apply, e31, mean_at]
  rfl

/-- The variance of row n. -/
theorem var_at (n : Fin 50000) :
    val_main_v30 (F := Ideal) x0 x1 x2 x3 x4 (ix2 n (0 : Fin 1))
      = Cert.Spec.mean128 (fun q' => (linRow x0 x1 x2 x3 x4 n q' - Cert.Spec.mean128 (linRow x0 x1 x2 x3 x4 n))
          * (linRow x0 x1 x2 x3 x4 n q' - Cert.Spec.mean128 (linRow x0 x1 x2 x3 x4 n))) := by
  have e27 : ∀ k : Fin 128, idx_main_v27 (idx_main_v28 (ix2 n (0 : Fin 1))) k = ix2 n k := fun k =>
    funext fun a => Fin.ext (by match a with | ⟨0, _⟩ => rfl | ⟨1, _⟩ => rfl)
  have hsum : ∑ k : Fin 128, val_main_v26 (F := Ideal) x0 x1 x2 x3 x4 (idx_main_v27 (idx_main_v28 (ix2 n (0 : Fin 1))) k)
      = ∑ k : Fin 128, (linRow x0 x1 x2 x3 x4 n k - Cert.Spec.mean128 (linRow x0 x1 x2 x3 x4 n))
          * (linRow x0 x1 x2 x3 x4 n k - Cert.Spec.mean128 (linRow x0 x1 x2 x3 x4 n)) :=
    Finset.sum_congr rfl fun k _ => by rw [e27 k, val_main_v26_apply, centred_var]; rfl
  rw [val_main_v30_apply, val_main_v28_apply, val_main_v27_apply, val_main_v29_apply, val_main_cst_6_apply,
    val_main_cst_5_apply, hsum]
  simp only [Ideal.hostDivf_def, Ideal.ofBits_def, Ideal.ofBits_zero_f32, zero_add]
  rfl

/-- The result at (n, q): row n of the linear layer's result, normalised. -/
theorem out_at (n : Fin 50000) (q : Fin 128) :
    val_main_v43 (F := Ideal) x0 x1 x2 x3 x4 x5 x6 (ix2 n q) = Cert.Spec.lnRow (linRow x0 x1 x2 x3 x4 n) x5 x6 q := by
  have e36 : idx_main_v36 (ix2 n q) = ix2 n (0 : Fin 1) :=
    funext fun a => Fin.ext (by match a with | ⟨0, _⟩ => rfl | ⟨1, _⟩ => rfl)
  have e38 : idx_main_v38 (idx_main_v39 (ix2 n q)) = ix1 q :=
    funext fun a => Fin.ext (by match a with | ⟨0, _⟩ => rfl)
  have e41 : idx_main_v41 (idx_main_v42 (ix2 n q)) = ix1 q :=
    funext fun a => Fin.ext (by match a with | ⟨0, _⟩ => rfl)
  rw [val_main_v43_apply, val_main_v40_apply, val_main_v37_apply, centred_out, val_main_v36_apply, e36,
    val_main_v35_apply, val_main_v34_apply, var_at, val_main_v33_apply, val_main_cst_7_apply,
    val_main_v39_apply, val_main_v38_apply, e38, val_main_v42_apply, val_main_v41_apply, e41]
  rfl

end Norm

/-- The reference's result array is the specification's, when no neighbour slot is negative. -/
theorem ref_eq (x0 : S50000x128.Idx → EReal) (x1 : S50000x32.Idx → BitVec 32) (x2 : S1.Idx → EReal)
    (x3 : S128x128.Idx → EReal) (x4 x5 x6 : S128.Idx → EReal)
    (hnn : ∀ (n : Fin 50000) (k : Fin 32), (x1 (ix2 n k)).toNat < 2 ^ 31) :
    Cert.ReferenceIdeal.Read.val_main_v43 (F := Ideal) x0 x1 x2 x3 x4 x5 x6 = Cert.Spec.G x0 x1 x2 x3 x4 x5 x6 := by
  funext i
  obtain ⟨n, q, rfl⟩ : ∃ (n : Fin 50000) (q : Fin 128), i = ix2 n q := ⟨i 0, i 1, eq_ix2 i⟩
  rw [out_at, Cert.Spec.G, Cert.Spec.outOf_ix2]
  refine congrArg (fun y => Cert.Spec.lnRow y x5 x6 q) (funext fun q' => ?_)
  exact linear x0 x1 x2 x3 x4 hnn n q'

end Cert.RefValue

end
-- ==== Proof.lean ====
/-
  The certificate's claim for a graph layer: every node's row is (1 + eps) times its own features plus the features of
  its 32 listed neighbours (a list entry equal to the number of nodes names no node and adds nothing), then a linear
  layer and a normalisation of each row over its 128 columns with a learned scale and shift.

  The kernel's program adds the neighbours' rows one list slot at a time on the host, keeping a slot's row only where
  the slot's entry, clipped into [0, 50000], is below 50000, and then runs the linear layer and the normalisation
  block by block (ten blocks of 5000 rows) in one launch. The reference pads the table with one zero row, reads all
  32 slots' rows in one gather — an entry below zero would count from the table's end there, which is why the
  precondition asks every entry to be at least 0 — and sums them; the rest is the same arithmetic on the whole table.
  Over the extended reals both results are one function of the arguments (Spec): addition is associative and
  commutative there, so the order in which the 32 rows are added does not matter, and nothing else differs.

  The three frames are the generated ones (the reference's frame is its run with the result dropped); the kernel's
  idealization rewrote no operation, so there is nothing to preserve; the algebraic claim is Assembly's theorem applied to
  the host part of the kernel's program (KHost), the launch's output array (KValue) and the reference's result (RefValue).
-/
import proofs.«424014_j70935679861205_3_alg».proof.Defs
import proofs.«424014_j70935679861205_3_alg».proof.Proof.Gen.Kernel
import proofs.«424014_j70935679861205_3_alg».proof.Proof.Gen.Kernel.Frame
import proofs.«424014_j70935679861205_3_alg».proof.Proof.Gen.KernelIdeal
import proofs.«424014_j70935679861205_3_alg».proof.Proof.Gen.KernelIdeal.Frame
import proofs.«424014_j70935679861205_3_alg».proof.Proof.Gen.KernelIdeal.Value
import proofs.«424014_j70935679861205_3_alg».proof.Proof.Gen.ReferenceIdeal
import proofs.«424014_j70935679861205_3_alg».proof.Proof.Gen.ReferenceIdeal.Run
import proofs.«424014_j70935679861205_3_alg».proof.Proof.Gen.ReferenceIdeal.Read
import proofs.«424014_j70935679861205_3_alg».proof.Proof.Gen.Pre_finite_inputs
import proofs.«424014_j70935679861205_3_alg».proof.Proof.Assembly
import proofs.«424014_j70935679861205_3_alg».proof.Proof.KHost
import proofs.«424014_j70935679861205_3_alg».proof.Proof.KValue
import proofs.«424014_j70935679861205_3_alg».proof.Proof.RefValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.Assembly.algebraic_of (hKernelIdeal := Cert.KernelIdeal.Gen.facts)
      (hReferenceIdeal := Cert.ReferenceIdeal.Gen.facts) (hPre_finite_inputs := Cert.Pre_finite_inputs.Gen.facts)
      Cert.KHost.V_h Cert.KHost.V_w Cert.KValue.final Cert.RefValue.ref_eq⟩

end Cert.Proof

end
